-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S512x4096 : Shape := ⟨2, ![512, 4096]⟩
abbrev S32x4096 : Shape := ⟨2, ![32, 4096]⟩
abbrev S32x512 : Shape := ⟨2, ![32, 512]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S32x4096 : S_.BroadcastsInDim S32x4096 (![] : Fin 0 → Fin S32x4096.rank)
  reducesTo_S32x4096_S_d0_1 : S32x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4x2048x4096 1) : IVec S_ 1 :=
  let main_c_5 : IVec S_ 1 := constantI S_ 1 1#1
  let main_v17 : IVec S_ 1 := (fun x v => Host.reduce IntOp.andi x v reducesTo_S4x2048x4096_S_d0_1_2 h_S_) main_v16 main_c_5
  let main_v18 : IVec S_ 1 := andi main_v13 main_v17
  main_v18

def fn {F : FTy → Type} [FloatOps F] (main_arg0 : FVec F S4x2048x4096 .f32) (main_arg1 : IVec S512x4096 32) (main_arg2 : FVec F S32x4096 .f32) (main_arg3 : IVec S32x512 32) (main_arg4 : IVec S4096 32) (main_arg5 : FVec F S4096 .f32) (main_arg6 : FVec F S4x2048x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S32x4096 .f32 := Host.absf main_arg2
  let main_cst_0 : FVec F S_ .f32 := constant S_ .f32 0x7F800000#32
  let main_v5 : FVec F S32x4096 .f32 := broadcastInDim S32x4096 ![] bcast_S_S32x4096 main_cst_0
  let main_v6 : IVec S32x4096 1 := cmpf .olt main_v4 main_v5
  let main_c_1 : IVec S_ 1 := constantI S_ 1 1#1
  let main_v7 : IVec S_ 1 := (fun x v => Host.reduce IntOp.andi x v reducesTo_S32x4096_S_d0_1 h_S_) main_v6 main_c_1
  let main_v8 : IVec S_ 1 := andi main_v3 main_v7
  let main_v9 : FVec F S4096 .f32 := Host.absf main_arg5
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4x2048x4096 .f32 := Host.absf main_arg6
  let main_cst_4 : FVec F S_ .f32 := constant S_ .f32 0x7F800000#32
  let main_v15 : FVec F S4x2048x4096 .f32 := broadcastInDim S4x2048x4096 ![] bcast_S_S4x2048x4096 main_cst_4
  let main_v16 : IVec S4x2048x4096 1 := cmpf .olt main_v14 main_v15
  fn_part1 (F := F) main_v13 main_v16
-- ==== Kernel.lean ====
abbrev S4x2048x4096 : Shape := ⟨3, ![4, 2048, 4096]⟩
abbrev S512x4096 : Shape := ⟨2, ![512, 4096]⟩
abbrev S32x4096 : Shape := ⟨2, ![32, 4096]⟩
abbrev S32x512 : Shape := ⟨2, ![32, 512]⟩
abbrev S4096 : Shape := ⟨1, ![4096]⟩
abbrev S8192x4096 : Shape := ⟨2, ![8192, 4096]⟩
abbrev S1x4096 : Shape := ⟨2, ![1, 4096]⟩
abbrev S8 : Shape := ⟨1, ![8]⟩
abbrev S_ : Shape := ⟨0, ![]⟩
abbrev S32x512x1 : Shape := ⟨3, ![32, 512, 1]⟩
abbrev S1x1x8 : Shape := ⟨3, ![1, 1, 8]⟩
abbrev S32x512x8 : Shape := ⟨3, ![32, 512, 8]⟩
abbrev S4096x1 : Shape := ⟨2, ![4096, 1]⟩
abbrev S4096x4096 : Shape := ⟨2, ![4096, 4096]⟩
abbrev S128x1024 : Shape := ⟨2, ![128, 1024]⟩
abbrev S1024x1024 : Shape := ⟨2, ![1024, 1024]⟩
abbrev S1x8 : Shape := ⟨2, ![1, 8]⟩
abbrev S128x1x1024 : Shape := ⟨3, ![128, 1, 1024]⟩
abbrev S1x8x1 : Shape := ⟨3, ![1, 8, 1]⟩
abbrev S128x8x1024 : Shape := ⟨3, ![128, 8, 1024]⟩
abbrev S2048x1024 : Shape := ⟨2, ![2048, 1024]⟩
abbrev S1x1024 : Shape := ⟨2, ![1, 1024]⟩

abbrev nBuf : Space → Nat
  | .hbm => 51
  | .vmem => 19
  | .smem => 0
  | _ => 0

abbrev bufTy : (tb : Table) → Fin (tcTables nBuf tb) → BufTy
  | .hbm, ⟨0, _⟩ => ⟨S4x2048x4096, .f32⟩
  | .hbm, ⟨1, _⟩ => ⟨S512x4096, .i32⟩
  | .hbm, ⟨2, _⟩ => ⟨S32x4096, .f32⟩
  | .hbm, ⟨3, _⟩ => ⟨S32x512, .i32⟩
  | .hbm, ⟨4, _⟩ => ⟨S4096, .i32⟩
  | .hbm, ⟨5, _⟩ => ⟨S4096, .f32⟩
  | .hbm, ⟨6, _⟩ => ⟨S4x2048x4096, .f32⟩
  | .hbm, ⟨7, _⟩ => ⟨S8192x4096, .f32⟩
  | .hbm, ⟨8, _⟩ => ⟨S8192x4096, .f32⟩
  | .hbm, ⟨9, _⟩ => ⟨S1x4096, .f32⟩
  | .hbm, ⟨10, _⟩ => ⟨S8, .i32⟩
  | .hbm, ⟨11, _⟩ => ⟨S_, .i32⟩
  | .hbm, ⟨12, _⟩ => ⟨S8, .i32⟩
  | .hbm, ⟨13, _⟩ => ⟨S8, .i32⟩
  | .hbm, ⟨14, _⟩ => ⟨S32x512x1, .i32⟩
  | .hbm, ⟨15, _⟩ => ⟨S1x1x8, .i32⟩
  | .hbm, ⟨16, _⟩ => ⟨S32x512x8, .i32⟩
  | .hbm, ⟨17, _⟩ => ⟨S32x512x8, .i32⟩
  | .hbm, ⟨18, _⟩ => ⟨S32x512x8, .i32⟩
  | .hbm, ⟨19, _⟩ => ⟨S_, .i32⟩
  | .hbm, ⟨20, _⟩ => ⟨S32x512x8, .i32⟩
  | .hbm, ⟨21, _⟩ => ⟨S32x512x8, .i32⟩
  | .hbm, ⟨22, _⟩ => ⟨S32x4096, .i32⟩
  | .hbm, ⟨23, _⟩ => ⟨S_, .i32⟩
  | .hbm, ⟨24, _⟩ => ⟨S32x4096, .i32⟩
  | .hbm, ⟨25, _⟩ => ⟨S32x4096, .i32⟩
  | .hbm, ⟨26, _⟩ => ⟨S32x4096, .f32⟩
  | .hbm, ⟨27, _⟩ => ⟨S_, .i32⟩
  | .hbm, ⟨28, _⟩ => ⟨S4096, .i32⟩
  | .hbm, ⟨29, _⟩ => ⟨S4096, .i1⟩
  | .hbm, ⟨30, _⟩ => ⟨S_, .i32⟩
  | .hbm, ⟨31, _⟩ => ⟨S4096, .i32⟩
  | .hbm, ⟨32, _⟩ => ⟨S4096, .i32⟩
  | .hbm, ⟨33, _⟩ => ⟨S4096, .i32⟩
  | .hbm, ⟨34, _⟩ => ⟨S4096x1, .i32⟩
  | .hbm, ⟨35, _⟩ => ⟨S4096x4096, .f32⟩
  | .hbm, ⟨36, _⟩ => ⟨S_, .i32⟩
  | .hbm, ⟨37, _⟩ => ⟨S4096, .i32⟩
  | .hbm, ⟨38, _⟩ => ⟨S4096, .i1⟩
  | .hbm, ⟨39, _⟩ => ⟨S_, .i32⟩
  | .hbm, ⟨40, _⟩ => ⟨S4096, .i32⟩
  | .hbm, ⟨41, _⟩ => ⟨S4096, .i32⟩
  | .hbm, ⟨42, _⟩ => ⟨S4096, .i32⟩
  | .hbm, ⟨43, _⟩ => ⟨S4096x1, .i32⟩
  | .hbm, ⟨44, _⟩ => ⟨S4096x4096, .f32⟩
  | .hbm, ⟨45, _⟩ => ⟨S4096x4096, .f32⟩
  | .hbm, ⟨46, _⟩ => ⟨S4096x4096, .f32⟩
  | .hbm, ⟨47, _⟩ => ⟨S4096x4096, .bf16⟩
  | .hbm, ⟨48, _⟩ => ⟨S8192x4096, .bf16⟩
  | .hbm, ⟨49, _⟩ => ⟨S8192x4096, .f32⟩
  | .hbm, ⟨50, _⟩ => ⟨S4x2048x4096, .f32⟩
  | .local _ .vmem, ⟨0, _⟩ => ⟨S128x1024, .i32⟩
  | .local _ .vmem, ⟨1, _⟩ => ⟨S128x1024, .i32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S2048x1024, .bf16⟩
  | .local _ .vmem, ⟨9, _⟩ => ⟨S2048x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | .local _ .vmem, ⟨13, _⟩ => ⟨S1x1024, .f32⟩
  | .local _ .vmem, ⟨14, _⟩ => ⟨S2048x1024, .f32⟩
  | .local _ .vmem, ⟨15, _⟩ => ⟨S2048x1024, .f32⟩
  | .local _ .vmem, ⟨16, _⟩ => ⟨S2048x1024, .f32⟩
  | .local _ .vmem, ⟨17, _⟩ => ⟨S2048x1024, .f32⟩
  | .local _ .vmem, ⟨18, _⟩ => ⟨S2048x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_c : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_c_0 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_c_1 : Ref sig .tc := ⟨.hbm, 23, rfl⟩
abbrev main_call0_v14 : Ref sig .tc := ⟨.hbm, 24, rfl⟩
abbrev main_call0_v15 : Ref sig .tc := ⟨.hbm, 25, rfl⟩
abbrev main_call0_v16 : Ref sig .tc := ⟨.hbm, 26, rfl⟩
abbrev main_call0_c_2 : Ref sig .tc := ⟨.hbm, 27, rfl⟩
abbrev main_call0_v17 : Ref sig .tc := ⟨.hbm, 28, rfl⟩
abbrev main_call0_v18 : Ref sig .tc := ⟨.hbm, 29, rfl⟩
abbrev main_call0_c_3 : Ref sig .tc := ⟨.hbm, 30, rfl⟩
abbrev main_call0_v19 : Ref sig .tc := ⟨.hbm, 31, rfl⟩
abbrev main_call0_v20 : Ref sig .tc := ⟨.hbm, 32, rfl⟩
abbrev main_call0_v21 : Ref sig .tc := ⟨.hbm, 33, rfl⟩
abbrev main_call0_v22 : Ref sig .tc := ⟨.hbm, 34, rfl⟩
abbrev main_call0_v23 : Ref sig .tc := ⟨.hbm, 35, rfl⟩
abbrev main_call0_c_4 : Ref sig .tc := ⟨.hbm, 36, rfl⟩
abbrev main_call0_v24 : Ref sig .tc := ⟨.hbm, 37, rfl⟩
abbrev main_call0_v25 : Ref sig .tc := ⟨.hbm, 38, rfl⟩
abbrev main_call0_c_5 : Ref sig .tc := ⟨.hbm, 39, rfl⟩
abbrev main_call0_v26 : Ref sig .tc := ⟨.hbm, 40, rfl⟩
abbrev main_call0_v27 : Ref sig .tc := ⟨.hbm, 41, rfl⟩
abbrev main_call0_v28 : Ref sig .tc := ⟨.hbm, 42, rfl⟩
abbrev main_call0_v29 : Ref sig .tc := ⟨.hbm, 43, rfl⟩
abbrev main_call0_v30 : Ref sig .tc := ⟨.hbm, 44, rfl⟩
abbrev main_call0_v31 : Ref sig .tc := ⟨.hbm, 45, rfl⟩
abbrev main_call0_v32 : Ref sig .tc := ⟨.hbm, 46, rfl⟩
abbrev main_call0_v33 : Ref sig .tc := ⟨.hbm, 47, rfl⟩
abbrev main_call0_v34 : Ref sig .tc := ⟨.hbm, 48, rfl⟩
abbrev main_call0_v35 : Ref sig .tc := ⟨.hbm, 49, rfl⟩
abbrev main_v0 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![4, 4, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S2048x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S2048x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  shapeCasts_S4x2048x4096_S8192x4096 : S4x2048x4096.ShapeCasts S8192x4096
  shapeCasts_S4096_S1x4096 : S4096.ShapeCasts S1x4096
  bcast_S_S8 : S_.BroadcastsInDim S8 (![] : Fin 0 → Fin S8.rank)
  bcast_S32x512_S32x512x1_0_1 : S32x512.BroadcastsInDim S32x512x1 (![0, 1] : Fin 2 → Fin S32x512x1.rank)
  bcast_S8_S1x1x8_2 : S8.BroadcastsInDim S1x1x8 (![2] : Fin 1 → Fin S1x1x8.rank)
  bcast_S32x512x1_S32x512x8_0_1_2 : S32x512x1.BroadcastsInDim S32x512x8 (![0, 1, 2] : Fin 3 → Fin S32x512x8.rank)
  bcast_S1x1x8_S32x512x8_0_1_2 : S1x1x8.BroadcastsInDim S32x512x8 (![0, 1, 2] : Fin 3 → Fin S32x512x8.rank)
  bcast_S_S32x512x8 : S_.BroadcastsInDim S32x512x8 (![] : Fin 0 → Fin S32x512x8.rank)
  shapeCasts_S32x512x8_S32x4096 : S32x512x8.ShapeCasts S32x4096
  bcast_S_S32x4096 : S_.BroadcastsInDim S32x4096 (![] : Fin 0 → Fin S32x4096.rank)
  bcast_S_S4096 : S_.BroadcastsInDim S4096 (![] : Fin 0 → Fin S4096.rank)
  bcast_S4096_S4096x1_0 : S4096.BroadcastsInDim S4096x1 (![0] : Fin 1 → Fin S4096x1.rank)
  bitsLt_bf16_f32 : FTy.bits .bf16 < FTy.bits .f32
  shapeCasts_S8192x4096_S4x2048x4096 : S8192x4096.ShapeCasts S4x2048x4096
  inb_S128x1024_S128x1024_0_0 : ∀ a, (![0, 0] : Fin 2 → Nat) a + S128x1024.size a ≤ S128x1024.size a
  h_S128x1024 : 0 < S128x1024.numel
  iota_S1x8_d1_w32 : S1x8.Iotas .tc 32 [1]
  shapeCasts_S1x8_S8 : S1x8.ShapeCasts S8
  shapeCasts_S128x1024_S128x1x1024 : S128x1024.ShapeCasts S128x1x1024
  shapeCasts_S8_S1x8x1 : S8.ShapeCasts S1x8x1
  broadcasts_S128x1x1024_S128x8x1024 : S128x1x1024.Broadcasts S128x8x1024
  broadcasts_S1x8x1_S128x8x1024 : S1x8x1.Broadcasts S128x8x1024
  shapeCasts_S128x8x1024_S1024x1024 : S128x8x1024.ShapeCasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  gather_S32x4096_S4096x1_S4096x4096_1_0_n_n_0_1_14096_wf : GatherDims.WF S32x4096 S4096x1 S4096x4096 [1] [0] [] [0] [] 1 ![1, 4096]
  dot_S2048x1024_S1024x1024_S2048x1024_1_0_0_1_n_n_wf : DotDims.WF S2048x1024 S1024x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S512x4096.size a
  hwx0_0 : ∀ i : grid0.Coords, EltTy.bits .i32 = 32 ∨ (Rect.block (s := S512x4096) S128x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .f32 = 32 ∨ (Rect.block (s := S4096x4096) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .bf16 = 32 ∨ (Rect.block (s := S4096x4096) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S8192x4096.size a
  hwx1_0 : ∀ i : grid1.Coords, EltTy.bits .bf16 = 32 ∨ (Rect.block (s := S8192x4096) S2048x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .bf16 = 32 ∨ (Rect.block (s := S4096x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1024.size a ≤ S8192x4096.size a
  hwx1_3 : ∀ i : grid1.Coords, EltTy.bits .f32 = 32 ∨ (Rect.block (s := S8192x4096) S2048x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x1024.size a ≤ S8192x4096.size a
  hwx1_4 : ∀ i : grid1.Coords, EltTy.bits .f32 = 32 ∨ (Rect.block (s := S8192x4096) S2048x1024.size (cc1_transform_4 i) (hinb1_4 i)).WholeWords (EltTy.packing .f32)

variable [Facts₀]

def gather_S32x4096_S4096x1_S4096x4096_1_0_n_n_0_1_14096 : GatherDims S32x4096 S4096x1 S4096x4096 where
  offsetDims := [1]
  collapsedSliceDims := [0]
  operandBatchingDims := []
  startIndicesBatchingDims := []
  startIndexMap := [0]
  indexVectorDim := 1
  sliceSizes := ![1, 4096]
  wf := gather_S32x4096_S4096x1_S4096x4096_1_0_n_n_0_1_14096_wf
def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf

abbrev win0_0 : Pipeline.Window sig grid0 :=
  Pipeline.Window.ofSpec (Memref.whole main_arg1) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v23) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v32) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v33) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_call0_v34) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v33) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v2) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v1) S2048x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_call0_v35) S2048x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S512x4096 : Shape := ⟨2, ![512, 4096]⟩
abbrev S32x4096 : Shape := ⟨2, ![32, 4096]⟩
abbrev S32x512 : Shape := ⟨2, ![32, 512]⟩
abbrev S4096 : Shape := ⟨1, ![4096]⟩
abbrev S8 : Shape := ⟨1, ![8]⟩
abbrev S_ : Shape := ⟨0, ![]⟩
abbrev S512x1x4096 : Shape := ⟨3, ![512, 1, 4096]⟩
abbrev S1x8x1 : Shape := ⟨3, ![1, 8, 1]⟩
abbrev S512x8x4096 : Shape := ⟨3, ![512, 8, 4096]⟩
abbrev S4096x4096 : Shape := ⟨2, ![4096, 4096]⟩
abbrev S32x512x1 : Shape := ⟨3, ![32, 512, 1]⟩
abbrev S1x1x8 : Shape := ⟨3, ![1, 1, 8]⟩
abbrev S32x512x8 : Shape := ⟨3, ![32, 512, 8]⟩
abbrev S4096x1 : Shape := ⟨2, ![4096, 1]⟩
abbrev S8192x4096 : Shape := ⟨2, ![8192, 4096]⟩
abbrev S1x4096 : Shape := ⟨2, ![1, 4096]⟩

abbrev nBuf : Space → Nat
  | .hbm => 60
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S512x4096, .i32⟩
  | .hbm, ⟨2, _⟩ => ⟨S32x4096, .f32⟩
  | .hbm, ⟨3, _⟩ => ⟨S32x512, .i32⟩
  | .hbm, ⟨4, _⟩ => ⟨S4096, .i32⟩
  | .hbm, ⟨5, _⟩ => ⟨S4096, .f32⟩
  | .hbm, ⟨6, _⟩ => ⟨S4x2048x4096, .f32⟩
  | .hbm, ⟨7, _⟩ => ⟨S8, .i32⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S512x1x4096, .i32⟩
  | .hbm, ⟨12, _⟩ => ⟨S1x8x1, .i32⟩
  | .hbm, ⟨13, _⟩ => ⟨S512x8x4096, .i32⟩
  | .hbm, ⟨14, _⟩ => ⟨S512x8x4096, .i32⟩
  | .hbm, ⟨15, _⟩ => ⟨S512x8x4096, .i32⟩
  | .hbm, ⟨16, _⟩ => ⟨S_, .i32⟩
  | .hbm, ⟨17, _⟩ => ⟨S512x8x4096, .i32⟩
  | .hbm, ⟨18, _⟩ => ⟨S512x8x4096, .i32⟩
  | .hbm, ⟨19, _⟩ => ⟨S4096x4096, .i32⟩
  | .hbm, ⟨20, _⟩ => ⟨S32x512x1, .i32⟩
  | .hbm, ⟨21, _⟩ => ⟨S1x1x8, .i32⟩
  | .hbm, ⟨22, _⟩ => ⟨S32x512x8, .i32⟩
  | .hbm, ⟨23, _⟩ => ⟨S32x512x8, .i32⟩
  | .hbm, ⟨24, _⟩ => ⟨S32x512x8, .i32⟩
  | .hbm, ⟨25, _⟩ => ⟨S_, .i32⟩
  | .hbm, ⟨26, _⟩ => ⟨S32x512x8, .i32⟩
  | .hbm, ⟨27, _⟩ => ⟨S32x512x8, .i32⟩
  | .hbm, ⟨28, _⟩ => ⟨S32x4096, .i32⟩
  | .hbm, ⟨29, _⟩ => ⟨S_, .i32⟩
  | .hbm, ⟨30, _⟩ => ⟨S32x4096, .i32⟩
  | .hbm, ⟨31, _⟩ => ⟨S32x4096, .i32⟩
  | .hbm, ⟨32, _⟩ => ⟨S_, .i32⟩
  | .hbm, ⟨33, _⟩ => ⟨S4096, .i32⟩
  | .hbm, ⟨34, _⟩ => ⟨S4096, .i1⟩
  | .hbm, ⟨35, _⟩ => ⟨S_, .i32⟩
  | .hbm, ⟨36, _⟩ => ⟨S4096, .i32⟩
  | .hbm, ⟨37, _⟩ => ⟨S4096, .i32⟩
  | .hbm, ⟨38, _⟩ => ⟨S4096, .i32⟩
  | .hbm, ⟨39, _⟩ => ⟨S4096x1, .i32⟩
  | .hbm, ⟨40, _⟩ => ⟨S4096x4096, .f32⟩
  | .hbm, ⟨41, _⟩ => ⟨S_, .i32⟩
  | .hbm, ⟨42, _⟩ => ⟨S4096, .i32⟩
  | .hbm, ⟨43, _⟩ => ⟨S4096, .i1⟩
  | .hbm, ⟨44, _⟩ => ⟨S_, .i32⟩
  | .hbm, ⟨45, _⟩ => ⟨S4096, .i32⟩
  | .hbm, ⟨46, _⟩ => ⟨S4096, .i32⟩
  | .hbm, ⟨47, _⟩ => ⟨S4096, .i32⟩
  | .hbm, ⟨48, _⟩ => ⟨S4096x1, .i32⟩
  | .hbm, ⟨49, _⟩ => ⟨S4096x4096, .i32⟩
  | .hbm, ⟨50, _⟩ => ⟨S4096x4096, .i32⟩
  | .hbm, ⟨51, _⟩ => ⟨S4096x4096, .f32⟩
  | .hbm, ⟨52, _⟩ => ⟨S4096x4096, .f32⟩
  | .hbm, ⟨53, _⟩ => ⟨S8192x4096, .f32⟩
  | .hbm, ⟨54, _⟩ => ⟨S8192x4096, .f32⟩
  | .hbm, ⟨55, _⟩ => ⟨S1x4096, .f32⟩
  | .hbm, ⟨56, _⟩ => ⟨S8192x4096, .f32⟩
  | .hbm, ⟨57, _⟩ => ⟨S8192x4096, .f32⟩
  | .hbm, ⟨58, _⟩ => ⟨S4x2048x4096, .f32⟩
  | .hbm, ⟨59, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S512x4096_S512x1x4096_0_2 : S512x4096.BroadcastsInDim S512x1x4096 (![0, 2] : Fin 2 → Fin S512x1x4096.rank)
  bcast_S8_S1x8x1_1 : S8.BroadcastsInDim S1x8x1 (![1] : Fin 1 → Fin S1x8x1.rank)
  bcast_S512x1x4096_S512x8x4096_0_1_2 : S512x1x4096.BroadcastsInDim S512x8x4096 (![0, 1, 2] : Fin 3 → Fin S512x8x4096.rank)
  bcast_S1x8x1_S512x8x4096_0_1_2 : S1x8x1.BroadcastsInDim S512x8x4096 (![0, 1, 2] : Fin 3 → Fin S512x8x4096.rank)
  bcast_S_S512x8x4096 : S_.BroadcastsInDim S512x8x4096 (![] : Fin 0 → Fin S512x8x4096.rank)
  shapeCasts_S512x8x4096_S4096x4096 : S512x8x4096.ShapeCasts S4096x4096
  bcast_S32x512_S32x512x1_0_1 : S32x512.BroadcastsInDim S32x512x1 (![0, 1] : Fin 2 → Fin S32x512x1.rank)
  bcast_S8_S1x1x8_2 : S8.BroadcastsInDim S1x1x8 (![2] : Fin 1 → Fin S1x1x8.rank)
  bcast_S32x512x1_S32x512x8_0_1_2 : S32x512x1.BroadcastsInDim S32x512x8 (![0, 1, 2] : Fin 3 → Fin S32x512x8.rank)
  bcast_S1x1x8_S32x512x8_0_1_2 : S1x1x8.BroadcastsInDim S32x512x8 (![0, 1, 2] : Fin 3 → Fin S32x512x8.rank)
  bcast_S_S32x512x8 : S_.BroadcastsInDim S32x512x8 (![] : Fin 0 → Fin S32x512x8.rank)
  shapeCasts_S32x512x8_S32x4096 : S32x512x8.ShapeCasts S32x4096
  bcast_S_S32x4096 : S_.BroadcastsInDim S32x4096 (![] : Fin 0 → Fin S32x4096.rank)
  bcast_S_S4096 : S_.BroadcastsInDim S4096 (![] : Fin 0 → Fin S4096.rank)
  bcast_S4096_S4096x1_0 : S4096.BroadcastsInDim S4096x1 (![0] : Fin 1 → Fin S4096x1.rank)
  shapeCasts_S4x2048x4096_S8192x4096 : S4x2048x4096.ShapeCasts S8192x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  shapeCasts_S8192x4096_S4x2048x4096 : S8192x4096.ShapeCasts S4x2048x4096
  gather_S32x4096_S4096x1_S4096x4096_1_0_n_n_0_1_14096_wf : GatherDims.WF S32x4096 S4096x1 S4096x4096 [1] [0] [] [0] [] 1 ![1, 4096]
  dot_S8192x4096_S4096x4096_S8192x4096_1_0_0_1_n_n_wf : DotDims.WF S8192x4096 S4096x4096 S8192x4096 [1] [0] [0] [1] [] []

variable [Facts₀]

def gather_S32x4096_S4096x1_S4096x4096_1_0_n_n_0_1_14096 : GatherDims S32x4096 S4096x1 S4096x4096 where
  offsetDims := [1]
  collapsedSliceDims := [0]
  operandBatchingDims := []
  startIndicesBatchingDims := []
  startIndexMap := [0]
  indexVectorDim := 1
  sliceSizes := ![1, 4096]
  wf := gather_S32x4096_S4096x1_S4096x4096_1_0_n_n_0_1_14096_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.KDeqBody.lean ====
/-
  The first pallas_call: the packed int4 weight unpacked and made affine, one 1024 x 1024 tile per grid point.
  At point t = (kb, jb) the body reads the packed tile (128 x 1024 words, eight nibbles a word along the rows),
  the tile of per-row scales a and the tile of per-row offsets b, and stores  float(nibble) * a + b  over the
  whole output tile.  Every window is fetched (or written back) at every point, nothing is carried between points.
  Here: what the output tile holds after the body as a function of the three input tiles, the body's triple,
  the pipeline's proof data at any entry contents V of the buffers, and the body obligation.
-/
import proofs.«430967_j87247965651012_2_alg».proof.Proof.Gen.Kernel.Launch
import proofs.«430967_j87247965651012_2_alg».proof.Proof.Gen.Kernel.Skeleton
import proofs.«430967_j87247965651012_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Deq

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- Window w's tile at point t, read off its array as the region finds it. -/
def tile (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its tile when the body runs (every input is fetched at every point and
    the body leaves it in place). -/
theorem before_packed_of {c : Dev nD} (dat : Dat τ (Elt F) Unit ℕ (UR sig nD τ) ℕ cfg0 c) (hA : dat.A 0 = V c (Pipeline.arrRef spec0 0))
    (hafter : ∀ t, dat.after 0 t = tile V c 0 t) (t : Fin cfg0.N) (d) : dat.before 0 t d = tile V c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)
theorem before_scale_of {c : Dev nD} (dat : Dat τ (Elt F) Unit ℕ (UR sig nD τ) ℕ cfg0 c) (hA : dat.A 1 = V c (Pipeline.arrRef spec0 1))
    (hafter : ∀ t, dat.after 1 t = tile V c 1 t) (t : Fin cfg0.N) (d) : dat.before 1 t d = tile V c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)
theorem before_offset_of {c : Dev nD} (dat : Dat τ (Elt F) Unit ℕ (UR sig nD τ) ℕ cfg0 c) (hA : dat.A 2 = V c (Pipeline.arrRef spec0 2))
    (hafter : ∀ t, dat.after 2 t = tile V c 2 t) (t : Fin cfg0.N) (d) : dat.before 2 t d = tile V c 2 t :=
  (dat.before_in_eq_fetched 2 rfl (fun _ => rfl) (fun _ _ _ => rfl) (fun t => by rw [hafter]; unfold Dat.blockOf tile; rw [hA]; try rfl) t d).trans
    (by unfold Dat.fetched Dat.blockOf tile; rw [hA]; try rfl)

/-- The whole packed tile and the whole dense tile, as the body's loads and its store address them. -/
abbrev rPacked : Rect S128x1024 := Rect.unit (s := S128x1024) ![0, 0] S128x1024.size inb_S128x1024_S128x1024_0_0
abbrev rDense : Rect S1024x1024 := Rect.unit (s := S1024x1024) ![0, 0] S1024x1024.size inb_S1024x1024_S1024x1024_0_0

/-- What the body leaves in the output tile: its one store, of float(nibble) * a + b. -/
def deqTile (x0 : Vec F S128x1024 .i32) (x1 : Vec F S1024x1024 .f32) (x2 : Vec F S1024x1024 .f32) : Vec F S1024x1024 .bf16 :=
  View.canon [⟨rDense, k0_pay1 (View.ld x0 rPacked) (View.ld x1 rDense) (View.ld x2 rDense)⟩]

/-- The one store covers the tile. -/
theorem deq_cover (p0 : Vec F S1024x1024 .bf16) (y : S1024x1024.Idx) :
    ∃ pc ∈ ([⟨rDense, p0⟩] : List (View.Piece (Elt F) S1024x1024 .bf16)), y ∈ pc.1.set :=
  View.cover_of_tiled [⟨rDense, p0⟩] S1024x1024.size (by rfl) y

set_option maxHeartbeats 1000000 in
/-- The body on whole staging buffers, the inputs at x0, x1, x2 and the output at anything, runs to its return with
    the inputs as they were and the output at deqTile of them. -/
theorem deq_run (c : Dev nD) (E : Set ℕ) (i : grid0.Coords) (arg2 : Memref sig .tc .vmem S128x1024 .i32) (harg2 : arg2.IsWhole)
    (arg3 : Memref sig .tc .vmem S1024x1024 .f32) (harg3 : arg3.IsWhole) (arg4 : Memref sig .tc .vmem S1024x1024 .f32) (harg4 : arg4.IsWhole)
    (arg5 : Memref sig .tc .vmem S1024x1024 .bf16) (harg5 : arg5.IsWhole)
    (x0 : Vec F S128x1024 .i32) (x1 : Vec F S1024x1024 .f32) (x2 : Vec F S1024x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (deqTile x0 x1 x2)) -∗ K ⟨⟩))
      ⊢ wp frame (wpE (defs₀ (F := F)) Variants.none c none) E (cc0_kernel i arg2 harg2 arg3 harg3 arg4 harg4 arg5 harg5) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (deq_cover _)

/-- The proof data of the first pipeline on core c: the arrays as the region finds them; after the body at point t
    each input's buffer at its tile and the output's at deqTile of the three; the invariant the scoped buffers the
    pipeline does not stage and the generator register, untouched; nothing owed; full shares. -/
def dat (c : Dev nD) : Dat τ (Elt F) Unit ℕ (UR sig nD τ) ℕ cfg0 c where
  A w := V c (Pipeline.arrRef spec0 w)
  after w t := match w with
    | ⟨0, _⟩ => tile V c 0 t
    | ⟨1, _⟩ => tile V c 1 t
    | ⟨2, _⟩ => tile V c 2 t
    | ⟨3, _⟩ => deqTile (tile V c 0 t) (tile V c 1 t) (tile V c 2 t)
  Φ _ := Pipeline.ΦA spec0 c
  q _ := fullShare
  owed _ := 0

theorem A_eq (c : Dev nD) (w : Fin cfg0.W) : (dat V c).A w = V c (Pipeline.arrRef spec0 w) := by
  dsimp only [dat]

theorem after_packed (c : Dev nD) (t : Fin cfg0.N) : (dat V c).after 0 t = tile V c 0 t := by dsimp only [dat]
theorem after_scale (c : Dev nD) (t : Fin cfg0.N) : (dat V c).after 1 t = tile V c 1 t := by dsimp only [dat]
theorem after_offset (c : Dev nD) (t : Fin cfg0.N) : (dat V c).after 2 t = tile V c 2 t := by dsimp only [dat]
theorem after_dense (c : Dev nD) (t : Fin cfg0.N) :
    (dat V c).after 3 t = deqTile (tile V c 0 t) (tile V c 1 t) (tile V c 2 t) := by dsimp only [dat]

theorem before_packed (c : Dev nD) (t : Fin cfg0.N) (d) : (dat V c).before 0 t d = tile V c 0 t :=
  before_packed_of V (dat V c) (A_eq V c 0) (after_packed V c) t d
theorem before_scale (c : Dev nD) (t : Fin cfg0.N) (d) : (dat V c).before 1 t d = tile V c 1 t :=
  before_scale_of V (dat V c) (A_eq V c 1) (after_scale V c) t d
theorem before_offset (c : Dev nD) (t : Fin cfg0.N) (d) : (dat V c).before 2 t d = tile V c 2 t :=
  before_offset_of V (dat V c) (A_eq V c 2) (after_offset V c) t d

/-- What the body is called with at point t, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' buffers hold their tiles, so the run applies; the invariant and the core's
    dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_packed, before_scale, before_offset]
  rw [show (dat V c).Φ t.succ = (dat V c).Φ t.castSucc from rfl,
    show (dat V c).owesAt () t.succ = (dat V c).owesAt () t.castSucc from rfl,
    after_packed, after_scale, after_offset, after_dense]
  iintro ⟨HΦ, Ho, ⟨%d0, H0⟩, ⟨%d1, H1⟩, ⟨%d2, H2⟩, ⟨%d3, H3⟩⟩
  iapply (deq_run c Set.univ _ _ _ _ _ _ _ _ _ (tile V c 0 t) (tile V c 1 t) (tile V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Deq

end
-- ==== Proof.KMmRuns.lean ====
/-
  The second pallas_call, part one: the tiled product.  The grid is 4 x 4 x 4 over (row tile i, column tile j, K step k),
  k fastest, so point t has k = t mod 4.  The body keeps a 2048 x 1024 accumulator in a scratch buffer across the four
  K steps of one output tile: at k = 0 it stores zero there first; at every k it adds the product of the 2048 x 1024
  tile of x with the 1024 x 1024 tile of the dense weight; at k = 3 it stores accumulator + bias row + residual tile
  into the output tile, which is written back at that point only and left alone at the others.
  Here: the two conditions in closed form over the grid, where the output window is idle, and the body run once per
  case (first, middle, last K step) on whole staging buffers, each run's stores found as lists of pieces.
-/
import proofs.«430967_j87247965651012_2_alg».proof.Proof.Gen.Kernel.Launch
import proofs.«430967_j87247965651012_2_alg».proof.Proof.Gen.Kernel.Skeleton
import proofs.«430967_j87247965651012_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Mm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-- k = 0: the accumulator is reset before the product is added (the body's first branch, as it computes it). -/
abbrev isFirst (i : grid1.Coords) : Prop := (Scalar.cmpi .ne (Scalar.extui (Scalar.cmpi .eq (BitVec.ofNat 32 (i 2).val) 0#32)) 0#32) = 1#1
theorem hFirst : ∀ t : Fin cfg1.N, isFirst (grid1.coords t) ↔ t.val % 4 = 0 :=
  (by decide +kernel : ∀ t : Fin grid1.N, isFirst (grid1.coords t) ↔ t.val % 4 = 0)
/-- k = 3: the output tile is stored (the body's second branch). -/
abbrev isLast (i : grid1.Coords) : Prop := k1_cond2 i = 1#1
theorem hLast : ∀ t : Fin cfg1.N, isLast (grid1.coords t) ↔ t.val % 4 = 3 :=
  (by decide +kernel : ∀ t : Fin grid1.N, isLast (grid1.coords t) ↔ t.val % 4 = 3)

/-- The four input windows are never idle; the output window is idle, and not written back, exactly off the last K step. -/
theorem live_x : ∀ t : Fin cfg1.N, cfg1.idle 0 (grid1.coords t) = false := by decide +kernel
theorem live_w : ∀ t : Fin cfg1.N, cfg1.idle 1 (grid1.coords t) = false := by decide +kernel
theorem live_bias : ∀ t : Fin cfg1.N, cfg1.idle 2 (grid1.coords t) = false := by decide +kernel
theorem live_resid : ∀ t : Fin cfg1.N, cfg1.idle 3 (grid1.coords t) = false := by decide +kernel
theorem idle_out : ∀ t : Fin cfg1.N, ¬isLast (grid1.coords t) → cfg1.idle 4 (grid1.coords t) = true := by decide +kernel
theorem noFlush_out : ∀ t : Fin cfg1.N, ¬isLast (grid1.coords t) → (cfg1.win 4).flush t = false := by decide +kernel
theorem live_out : ∀ t : Fin cfg1.N, isLast (grid1.coords t) → cfg1.idle 4 (grid1.coords t) = false := by decide +kernel

/-- The accumulator's scratch buffer, and one staging buffer of the output window and the scratch as views through which
    contents are stated. -/
abbrev accM : Memref sig .tc .vmem S2048x1024 .f32 := Memref.whole cc1_scratch0
abbrev accV : View sig .tc .vmem S2048x1024 .f32 := accM.view
abbrev outV : View sig .tc .vmem S2048x1024 .f32 := (Memref.whole cc1_stg4_0 : Memref sig .tc .vmem S2048x1024 .f32).view

/-- A scoped buffer held whole at some contents. -/
abbrev anyBuf (c : Dev nD) (r : Ref sig .tc) : sProp 𝕄 :=
  iprop(∃ f : Buf (Elt F) ((c : Thread nD τ).loc r), ((c : Thread nD τ).loc r) ↦{fullShare} f)

/-- The first pallas_call's eight staging buffers: scoped buffers this region never touches. -/
abbrev others (c : Dev nD) : sProp 𝕄 :=
  iprop(anyBuf (F := F) c cc0_stg0_0 ∗ anyBuf (F := F) c cc0_stg0_1 ∗ anyBuf (F := F) c cc0_stg1_0 ∗ anyBuf (F := F) c cc0_stg1_1 ∗ anyBuf (F := F) c cc0_stg2_0 ∗ anyBuf (F := F) c cc0_stg2_1 ∗ anyBuf (F := F) c cc0_stg3_0 ∗ anyBuf (F := F) c cc0_stg3_1)

/-- The region's invariant as the launch hands it over: those eight, the accumulator's scratch at some contents, and
    the generator register. -/
theorem PhiA_eq (c : Dev nD) :
    (Pipeline.ΦA spec1 c : sProp 𝕄)
      = iprop(iprop(anyBuf (F := F) c cc0_stg0_0 ∗ anyBuf (F := F) c cc0_stg0_1 ∗ anyBuf (F := F) c cc0_stg1_0 ∗ anyBuf (F := F) c cc0_stg1_1 ∗ anyBuf (F := F) c cc0_stg2_0 ∗ anyBuf (F := F) c cc0_stg2_1 ∗ anyBuf (F := F) c cc0_stg3_0 ∗ anyBuf (F := F) c cc0_stg3_1 ∗ (∃ d, owns (c : Thread nD τ) accM fullShare d)) ∗ (∃ r, prngReg c r)) := by
  unfold Pipeline.ΦA; rw [scopedRest1_eq]; simp only [accM, owns_whole]; try rfl

set_option maxHeartbeats 2000000 in
/-- k = 0.  The accumulator at anything, the output tile handed back untouched. -/
noncomputable def runFirst (c : Dev nD) (i : grid1.Coords) (arg3 : Memref sig .tc .vmem S2048x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S2048x1024 .f32) (harg6 : arg6.IsWhole)
    (arg7 : Memref sig .tc .vmem S2048x1024 .f32) (harg7 : arg7.IsWhole) (arg8 : Memref sig .tc .vmem S2048x1024 .f32) (harg8 : arg8.IsWhole)
    (hc0 : isFirst i) (hc1 : ¬isLast i)
    (x0 : Vec F S2048x1024 .bf16) (x1 : Vec F S1024x1024 .bf16) (x2 : Vec F S1x1024 .f32) (x3 : Vec F S2048x1024 .f32) :
    { LS : List (View.Piece (Elt F) S2048x1024 .f32) //
      ∀ (xi4 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc1__matmul_kernel i arg3 harg3 arg4 harg4 arg5 harg5 arg6 harg6 arg7 harg7 arg8 harg8) K } := by
  refine ⟨?_, fun xi4 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg3.eq_unread hf0; obtain rfl := harg4.eq_unread hf1; obtain rfl := harg5.eq_unread hf2
    obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

set_option maxHeartbeats 2000000 in
/-- k = 1, 2.  The accumulator at what the step before left, the output tile handed back untouched. -/
noncomputable def runMid (c : Dev nD) (i : grid1.Coords) (arg3 : Memref sig .tc .vmem S2048x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S2048x1024 .f32) (harg6 : arg6.IsWhole)
    (arg7 : Memref sig .tc .vmem S2048x1024 .f32) (harg7 : arg7.IsWhole) (arg8 : Memref sig .tc .vmem S2048x1024 .f32) (harg8 : arg8.IsWhole)
    (hc0 : ¬isFirst i) (hc1 : ¬isLast i)
    (x0 : Vec F S2048x1024 .bf16) (x1 : Vec F S1024x1024 .bf16) (x2 : Vec F S1x1024 .f32) (x3 : Vec F S2048x1024 .f32) (xs : Vec F S2048x1024 .f32) :
    { LS : List (View.Piece (Elt F) S2048x1024 .f32) //
      ∀ (xi4 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xi4 ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc1__matmul_kernel i arg3 harg3 arg4 harg4 arg5 harg5 arg6 harg6 arg7 harg7 arg8 harg8) K } := by
  refine ⟨?_, fun xi4 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

set_option maxHeartbeats 2000000 in
/-- k = 3.  The accumulator at what the step before left, the output tile at anything: it ends with its pieces written. -/
noncomputable def runLast (c : Dev nD) (i : grid1.Coords) (arg3 : Memref sig .tc .vmem S2048x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S2048x1024 .f32) (harg6 : arg6.IsWhole)
    (arg7 : Memref sig .tc .vmem S2048x1024 .f32) (harg7 : arg7.IsWhole) (arg8 : Memref sig .tc .vmem S2048x1024 .f32) (harg8 : arg8.IsWhole)
    (hc0 : ¬isFirst i) (hc1 : isLast i)
    (x0 : Vec F S2048x1024 .bf16) (x1 : Vec F S1024x1024 .bf16) (x2 : Vec F S1x1024 .f32) (x3 : Vec F S2048x1024 .f32) (xs : Vec F S2048x1024 .f32) :
    Σ' (L4 : List (View.Piece (Elt F) S2048x1024 .f32)), { LS : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d) ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3
                ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS)) -∗ K ⟨⟩))
          ⊢ wp frame (wpE (defs₀ (F := F)) Variants.none c none) E (cc1__matmul_kernel i arg3 harg3 arg4 harg4 arg5 harg5 arg6 harg6 arg7 harg7 arg8 harg8) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg3.eq_unread hf0; obtain rfl := harg4.eq_unread hf1; obtain rfl := harg5.eq_unread hf2
    obtain rfl := harg6.eq_unread hf3; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; iexact H4
    iexists _; iexact HS

end Cert.Kernel.Mm

end
-- ==== Proof.KMmBody.lean ====
/-
  The second pallas_call, part two: the accumulation and the body obligation.  After point t the scratch holds the
  accumulator acc(t): at k = 0 the body's product step run from anything (it stores zero first), at k > 0 the product
  step run from acc(t - 1).  The output tile holds, after a point with k = 3, acc + bias + residual; at the other
  points the window is idle and its buffer is handed back as found.  The invariant between points is the scratch at
  acc of the point before (at anything before the first point), the other scoped buffers, and the generator register.
-/
import proofs.«430967_j87247965651012_2_alg».proof.Proof.KMmRuns

set_option maxRecDepth 16384

noncomputable section

namespace Cert.Kernel.Mm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- Window w's tile at point t, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its tile when the body runs, fetched at that point or not (the bias row and
    the residual tile are fetched once per output tile: their block index does not move over the four K steps). -/
theorem before_x_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_w_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before_bias_of {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem before_resid_of {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-! ## What each case leaves -/

/-- k = 0: the run's pieces for the accumulator cover it, and what they leave. -/
theorem cover_first (c : Dev nD) (i : grid1.Coords) (arg3 : Memref sig .tc .vmem S2048x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S2048x1024 .f32) (harg6 : arg6.IsWhole)
    (arg7 : Memref sig .tc .vmem S2048x1024 .f32) (harg7 : arg7.IsWhole) (arg8 : Memref sig .tc .vmem S2048x1024 .f32) (harg8 : arg8.IsWhole)
    (hc0 : isFirst i) (hc1 : ¬isLast i) (x0 : Vec F S2048x1024 .bf16) (x1 : Vec F S1024x1024 .bf16) (x2 : Vec F S1x1024 .f32) (x3 : Vec F S2048x1024 .f32) (y : S2048x1024.Idx) :
    ∃ pc ∈ (runFirst c i arg3 harg3 arg4 harg4 arg5 harg5 arg6 harg6 arg7 harg7 arg8 harg8 hc0 hc1 x0 x1 x2 x3).1, y ∈ pc.1.set :=
  View.cover_of_tiledL (runFirst c i arg3 harg3 arg4 harg4 arg5 harg5 arg6 harg6 arg7 harg7 arg8 harg8 hc0 hc1 x0 x1 x2 x3).1 S2048x1024.size (by sl_kernel_rfl) y
def accFirst (c : Dev nD) (i : grid1.Coords) (arg3 : Memref sig .tc .vmem S2048x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S2048x1024 .f32) (harg6 : arg6.IsWhole)
    (arg7 : Memref sig .tc .vmem S2048x1024 .f32) (harg7 : arg7.IsWhole) (arg8 : Memref sig .tc .vmem S2048x1024 .f32) (harg8 : arg8.IsWhole)
    (hc0 : isFirst i) (hc1 : ¬isLast i) (x0 : Vec F S2048x1024 .bf16) (x1 : Vec F S1024x1024 .bf16) (x2 : Vec F S1x1024 .f32) (x3 : Vec F S2048x1024 .f32) : Vec F S2048x1024 .f32 :=
  accV.read (Elt F) (accV.writes (Elt F) accV.junk (runFirst c i arg3 harg3 arg4 harg4 arg5 harg5 arg6 harg6 arg7 harg7 arg8 harg8 hc0 hc1 x0 x1 x2 x3).1)

/-- k = 1, 2. -/
theorem cover_mid (c : Dev nD) (i : grid1.Coords) (arg3 : Memref sig .tc .vmem S2048x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S2048x1024 .f32) (harg6 : arg6.IsWhole)
    (arg7 : Memref sig .tc .vmem S2048x1024 .f32) (harg7 : arg7.IsWhole) (arg8 : Memref sig .tc .vmem S2048x1024 .f32) (harg8 : arg8.IsWhole)
    (hc0 : ¬isFirst i) (hc1 : ¬isLast i) (x0 : Vec F S2048x1024 .bf16) (x1 : Vec F S1024x1024 .bf16) (x2 : Vec F S1x1024 .f32) (x3 : Vec F S2048x1024 .f32) (xs : Vec F S2048x1024 .f32) (y : S2048x1024.Idx) :
    ∃ pc ∈ (runMid c i arg3 harg3 arg4 harg4 arg5 harg5 arg6 harg6 arg7 harg7 arg8 harg8 hc0 hc1 x0 x1 x2 x3 xs).1, y ∈ pc.1.set :=
  View.cover_of_tiledL (runMid c i arg3 harg3 arg4 harg4 arg5 harg5 arg6 harg6 arg7 harg7 arg8 harg8 hc0 hc1 x0 x1 x2 x3 xs).1 S2048x1024.size (by sl_kernel_rfl) y
def accMid (c : Dev nD) (i : grid1.Coords) (arg3 : Memref sig .tc .vmem S2048x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S2048x1024 .f32) (harg6 : arg6.IsWhole)
    (arg7 : Memref sig .tc .vmem S2048x1024 .f32) (harg7 : arg7.IsWhole) (arg8 : Memref sig .tc .vmem S2048x1024 .f32) (harg8 : arg8.IsWhole)
    (hc0 : ¬isFirst i) (hc1 : ¬isLast i) (x0 : Vec F S2048x1024 .bf16) (x1 : Vec F S1024x1024 .bf16) (x2 : Vec F S1x1024 .f32) (x3 : Vec F S2048x1024 .f32) (xs : Vec F S2048x1024 .f32) : Vec F S2048x1024 .f32 :=
  accV.read (Elt F) (accV.writes (Elt F) accV.junk (runMid c i arg3 harg3 arg4 harg4 arg5 harg5 arg6 harg6 arg7 harg7 arg8 harg8 hc0 hc1 x0 x1 x2 x3 xs).1)

/-- k = 3: the accumulator's pieces and the output tile's. -/
theorem cover_last_acc (c : Dev nD) (i : grid1.Coords) (arg3 : Memref sig .tc .vmem S2048x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S2048x1024 .f32) (harg6 : arg6.IsWhole)
    (arg7 : Memref sig .tc .vmem S2048x1024 .f32) (harg7 : arg7.IsWhole) (arg8 : Memref sig .tc .vmem S2048x1024 .f32) (harg8 : arg8.IsWhole)
    (hc0 : ¬isFirst i) (hc1 : isLast i) (x0 : Vec F S2048x1024 .bf16) (x1 : Vec F S1024x1024 .bf16) (x2 : Vec F S1x1024 .f32) (x3 : Vec F S2048x1024 .f32) (xs : Vec F S2048x1024 .f32) (y : S2048x1024.Idx) :
    ∃ pc ∈ (runLast c i arg3 harg3 arg4 harg4 arg5 harg5 arg6 harg6 arg7 harg7 arg8 harg8 hc0 hc1 x0 x1 x2 x3 xs).2.1, y ∈ pc.1.set :=
  View.cover_of_tiledL (runLast c i arg3 harg3 arg4 harg4 arg5 harg5 arg6 harg6 arg7 harg7 arg8 harg8 hc0 hc1 x0 x1 x2 x3 xs).2.1 S2048x1024.size (by sl_kernel_rfl) y
theorem cover_last_out (c : Dev nD) (i : grid1.Coords) (arg3 : Memref sig .tc .vmem S2048x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S2048x1024 .f32) (harg6 : arg6.IsWhole)
    (arg7 : Memref sig .tc .vmem S2048x1024 .f32) (harg7 : arg7.IsWhole) (arg8 : Memref sig .tc .vmem S2048x1024 .f32) (harg8 : arg8.IsWhole)
    (hc0 : ¬isFirst i) (hc1 : isLast i) (x0 : Vec F S2048x1024 .bf16) (x1 : Vec F S1024x1024 .bf16) (x2 : Vec F S1x1024 .f32) (x3 : Vec F S2048x1024 .f32) (xs : Vec F S2048x1024 .f32) (y : S2048x1024.Idx) :
    ∃ pc ∈ (runLast c i arg3 harg3 arg4 harg4 arg5 harg5 arg6 harg6 arg7 harg7 arg8 harg8 hc0 hc1 x0 x1 x2 x3 xs).1, y ∈ pc.1.set :=
  View.cover_of_tiledL (runLast c i arg3 harg3 arg4 harg4 arg5 harg5 arg6 harg6 arg7 harg7 arg8 harg8 hc0 hc1 x0 x1 x2 x3 xs).1 S2048x1024.size (by sl_kernel_rfl) y
def accLast (c : Dev nD) (i : grid1.Coords) (arg3 : Memref sig .tc .vmem S2048x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S2048x1024 .f32) (harg6 : arg6.IsWhole)
    (arg7 : Memref sig .tc .vmem S2048x1024 .f32) (harg7 : arg7.IsWhole) (arg8 : Memref sig .tc .vmem S2048x1024 .f32) (harg8 : arg8.IsWhole)
    (hc0 : ¬isFirst i) (hc1 : isLast i) (x0 : Vec F S2048x1024 .bf16) (x1 : Vec F S1024x1024 .bf16) (x2 : Vec F S1x1024 .f32) (x3 : Vec F S2048x1024 .f32) (xs : Vec F S2048x1024 .f32) : Vec F S2048x1024 .f32 :=
  accV.read (Elt F) (accV.writes (Elt F) accV.junk (runLast c i arg3 harg3 arg4 harg4 arg5 harg5 arg6 harg6 arg7 harg7 arg8 harg8 hc0 hc1 x0 x1 x2 x3 xs).2.1)
def outLast (c : Dev nD) (i : grid1.Coords) (arg3 : Memref sig .tc .vmem S2048x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S2048x1024 .f32) (harg6 : arg6.IsWhole)
    (arg7 : Memref sig .tc .vmem S2048x1024 .f32) (harg7 : arg7.IsWhole) (arg8 : Memref sig .tc .vmem S2048x1024 .f32) (harg8 : arg8.IsWhole)
    (hc0 : ¬isFirst i) (hc1 : isLast i) (x0 : Vec F S2048x1024 .bf16) (x1 : Vec F S1024x1024 .bf16) (x2 : Vec F S1x1024 .f32) (x3 : Vec F S2048x1024 .f32) (xs : Vec F S2048x1024 .f32) : Vec F S2048x1024 .f32 :=
  outV.read (Elt F) (outV.writes (Elt F) outV.junk (runLast c i arg3 harg3 arg4 harg4 arg5 harg5 arg6 harg6 arg7 harg7 arg8 harg8 hc0 hc1 x0 x1 x2 x3 xs).1)

/-- What stands for the output tile's buffer at a point that leaves it alone (nothing reads it: the window is idle there
    and not written back). -/
def idleOut : Vec F S2048x1024 .f32 := outV.read (Elt F) outV.junk

/-! ## The accumulation over the points -/

/-- What the output tile's buffer (first component; meaningful at k = 3 only, a placeholder elsewhere) and the
    accumulator (second component) hold after the body at position n. -/
def outsAt (c : Dev nD) : (n : ℕ) → n < cfg1.N → Vec F S2048x1024 .f32 × Vec F S2048x1024 .f32
  | 0, hn => (idleOut (F := F),
      accFirst c (grid1.coords ⟨0, hn⟩) (win1_0.stage (cfg1.slots ⟨0, hn⟩ 0)) (hstage1_0 ((cfg1.slots ⟨0, hn⟩ 0).cast nbuf1_0)) (win1_1.stage (cfg1.slots ⟨0, hn⟩ 1)) (hstage1_1 ((cfg1.slots ⟨0, hn⟩ 1).cast nbuf1_1)) (win1_2.stage (cfg1.slots ⟨0, hn⟩ 2)) (hstage1_2 ((cfg1.slots ⟨0, hn⟩ 2).cast nbuf1_2)) (win1_3.stage (cfg1.slots ⟨0, hn⟩ 3)) (hstage1_3 ((cfg1.slots ⟨0, hn⟩ 3).cast nbuf1_3)) (win1_4.stage (cfg1.slots ⟨0, hn⟩ 4)) (hstage1_4 ((cfg1.slots ⟨0, hn⟩ 4).cast nbuf1_4)) accM (Memref.isWhole_whole _) ((hFirst ⟨0, hn⟩).mpr (Nat.zero_mod _)) (fun h => (fun h => by (try dsimp only at h); omega) ((hLast ⟨0, hn⟩).mp h)) (blk V c 0 ⟨0, hn⟩) (blk V c 1 ⟨0, hn⟩) (blk V c 2 ⟨0, hn⟩) (blk V c 3 ⟨0, hn⟩))
  | n + 1, hn =>
    if h0 : (n + 1) % 4 = 0 then
      if h1 : (n + 1) % 4 = 3 then
        False.elim (by omega)
      else
        (idleOut (F := F),
          accFirst c (grid1.coords ⟨n + 1, hn⟩) (win1_0.stage (cfg1.slots ⟨n + 1, hn⟩ 0)) (hstage1_0 ((cfg1.slots ⟨n + 1, hn⟩ 0).cast nbuf1_0)) (win1_1.stage (cfg1.slots ⟨n + 1, hn⟩ 1)) (hstage1_1 ((cfg1.slots ⟨n + 1, hn⟩ 1).cast nbuf1_1)) (win1_2.stage (cfg1.slots ⟨n + 1, hn⟩ 2)) (hstage1_2 ((cfg1.slots ⟨n + 1, hn⟩ 2).cast nbuf1_2)) (win1_3.stage (cfg1.slots ⟨n + 1, hn⟩ 3)) (hstage1_3 ((cfg1.slots ⟨n + 1, hn⟩ 3).cast nbuf1_3)) (win1_4.stage (cfg1.slots ⟨n + 1, hn⟩ 4)) (hstage1_4 ((cfg1.slots ⟨n + 1, hn⟩ 4).cast nbuf1_4)) accM (Memref.isWhole_whole _) ((hFirst ⟨n + 1, hn⟩).mpr h0) (fun h => h1 ((hLast ⟨n + 1, hn⟩).mp h)) (blk V c 0 ⟨n + 1, hn⟩) (blk V c 1 ⟨n + 1, hn⟩) (blk V c 2 ⟨n + 1, hn⟩) (blk V c 3 ⟨n + 1, hn⟩))
    else
      if h1 : (n + 1) % 4 = 3 then
        (outLast c (grid1.coords ⟨n + 1, hn⟩) (win1_0.stage (cfg1.slots ⟨n + 1, hn⟩ 0)) (hstage1_0 ((cfg1.slots ⟨n + 1, hn⟩ 0).cast nbuf1_0)) (win1_1.stage (cfg1.slots ⟨n + 1, hn⟩ 1)) (hstage1_1 ((cfg1.slots ⟨n + 1, hn⟩ 1).cast nbuf1_1)) (win1_2.stage (cfg1.slots ⟨n + 1, hn⟩ 2)) (hstage1_2 ((cfg1.slots ⟨n + 1, hn⟩ 2).cast nbuf1_2)) (win1_3.stage (cfg1.slots ⟨n + 1, hn⟩ 3)) (hstage1_3 ((cfg1.slots ⟨n + 1, hn⟩ 3).cast nbuf1_3)) (win1_4.stage (cfg1.slots ⟨n + 1, hn⟩ 4)) (hstage1_4 ((cfg1.slots ⟨n + 1, hn⟩ 4).cast nbuf1_4)) accM (Memref.isWhole_whole _) (fun h => h0 ((hFirst ⟨n + 1, hn⟩).mp h)) ((hLast ⟨n + 1, hn⟩).mpr h1) (blk V c 0 ⟨n + 1, hn⟩) (blk V c 1 ⟨n + 1, hn⟩) (blk V c 2 ⟨n + 1, hn⟩) (blk V c 3 ⟨n + 1, hn⟩) (outsAt c n (Nat.lt_of_succ_lt hn)).2,
          accLast c (grid1.coords ⟨n + 1, hn⟩) (win1_0.stage (cfg1.slots ⟨n + 1, hn⟩ 0)) (hstage1_0 ((cfg1.slots ⟨n + 1, hn⟩ 0).cast nbuf1_0)) (win1_1.stage (cfg1.slots ⟨n + 1, hn⟩ 1)) (hstage1_1 ((cfg1.slots ⟨n + 1, hn⟩ 1).cast nbuf1_1)) (win1_2.stage (cfg1.slots ⟨n + 1, hn⟩ 2)) (hstage1_2 ((cfg1.slots ⟨n + 1, hn⟩ 2).cast nbuf1_2)) (win1_3.stage (cfg1.slots ⟨n + 1, hn⟩ 3)) (hstage1_3 ((cfg1.slots ⟨n + 1, hn⟩ 3).cast nbuf1_3)) (win1_4.stage (cfg1.slots ⟨n + 1, hn⟩ 4)) (hstage1_4 ((cfg1.slots ⟨n + 1, hn⟩ 4).cast nbuf1_4)) accM (Memref.isWhole_whole _) (fun h => h0 ((hFirst ⟨n + 1, hn⟩).mp h)) ((hLast ⟨n + 1, hn⟩).mpr h1) (blk V c 0 ⟨n + 1, hn⟩) (blk V c 1 ⟨n + 1, hn⟩) (blk V c 2 ⟨n + 1, hn⟩) (blk V c 3 ⟨n + 1, hn⟩) (outsAt c n (Nat.lt_of_succ_lt hn)).2)
      else
        (idleOut (F := F),
          accMid c (grid1.coords ⟨n + 1, hn⟩) (win1_0.stage (cfg1.slots ⟨n + 1, hn⟩ 0)) (hstage1_0 ((cfg1.slots ⟨n + 1, hn⟩ 0).cast nbuf1_0)) (win1_1.stage (cfg1.slots ⟨n + 1, hn⟩ 1)) (hstage1_1 ((cfg1.slots ⟨n + 1, hn⟩ 1).cast nbuf1_1)) (win1_2.stage (cfg1.slots ⟨n + 1, hn⟩ 2)) (hstage1_2 ((cfg1.slots ⟨n + 1, hn⟩ 2).cast nbuf1_2)) (win1_3.stage (cfg1.slots ⟨n + 1, hn⟩ 3)) (hstage1_3 ((cfg1.slots ⟨n + 1, hn⟩ 3).cast nbuf1_3)) (win1_4.stage (cfg1.slots ⟨n + 1, hn⟩ 4)) (hstage1_4 ((cfg1.slots ⟨n + 1, hn⟩ 4).cast nbuf1_4)) accM (Memref.isWhole_whole _) (fun h => h0 ((hFirst ⟨n + 1, hn⟩).mp h)) (fun h => h1 ((hLast ⟨n + 1, hn⟩).mp h)) (blk V c 0 ⟨n + 1, hn⟩) (blk V c 1 ⟨n + 1, hn⟩) (blk V c 2 ⟨n + 1, hn⟩) (blk V c 3 ⟨n + 1, hn⟩) (outsAt c n (Nat.lt_of_succ_lt hn)).2)

theorem outsAt_first (c : Dev nD) (t : Fin cfg1.N) (h0 : t.val % 4 = 0) (h1 : ¬t.val % 4 = 3) :
    outsAt V c t.val t.isLt = (idleOut (F := F), accFirst c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) accM (Memref.isWhole_whole _) ((hFirst t).mpr h0) (fun h => h1 ((hLast t).mp h)) (blk V c 0 t) (blk V c 1 t) (blk V c 2 t) (blk V c 3 t)) := by
  obtain ⟨n, hn⟩ := t
  cases n with
  | zero => exact rfl
  | succ n => exact (dif_pos h0).trans ((dif_neg h1).trans rfl)

theorem outsAt_mid (c : Dev nD) (t : Fin cfg1.N) (h0 : ¬t.val % 4 = 0) (h1 : ¬t.val % 4 = 3) :
    outsAt V c t.val t.isLt = (idleOut (F := F), accMid c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) accM (Memref.isWhole_whole _) (fun h => h0 ((hFirst t).mp h)) (fun h => h1 ((hLast t).mp h)) (blk V c 0 t) (blk V c 1 t) (blk V c 2 t) (blk V c 3 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg1.N) (h0 : ¬t.val % 4 = 0) (h1 : t.val % 4 = 3) :
    outsAt V c t.val t.isLt = (outLast c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) accM (Memref.isWhole_whole _) (fun h => h0 ((hFirst t).mp h)) ((hLast t).mpr h1) (blk V c 0 t) (blk V c 1 t) (blk V c 2 t) (blk V c 3 t) (outsAt V c (t.val - 1) (Nat.lt_of_le_of_lt (Nat.sub_le _ _) t.isLt)).2,
      accLast c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) accM (Memref.isWhole_whole _) (fun h => h0 ((hFirst t).mp h)) ((hLast t).mpr h1) (blk V c 0 t) (blk V c 1 t) (blk V c 2 t) (blk V c 3 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position n: at the start what the launch hands over; afterwards the accumulator at what the point before left,
    the other scoped buffers, and the generator register. -/
def PhiS (c : Dev nD) : (n : ℕ) → n ≤ cfg1.N → sProp 𝕄
  | 0, _ => Pipeline.ΦA spec1 c
  | n + 1, hn => iprop(owns (c : Thread nD τ) accM fullShare ((outsAt V c n hn).2) ∗ others (F := F) c ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(owns (c : Thread nD τ) accM fullShare ((outsAt V c n hn).2) ∗ others (F := F) c ∗ (∃ r, prngReg c r)) := rfl
theorem PhiS_pos (c : Dev nD) (n : ℕ) (h : n ≤ cfg1.N) (hz : n ≠ 0) :
    PhiS V c n h = iprop(owns (c : Thread nD τ) accM fullShare ((outsAt V c (n - 1) (by omega)).2) ∗ others (F := F) c ∗ (∃ r, prngReg c r)) := by
  cases n with
  | zero => exact absurd rfl hz
  | succ n => rfl

/-! ## The proof data -/

def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem PhiS_castSucc (c : Dev nD) (t : Fin cfg1.N) :
    (dat V c).Φ t.castSucc = PhiS V c t.val (Nat.le_of_lt t.isLt) := by
  dsimp only [dat]; simp only [Fin.coe_castSucc]
theorem after_x (c : Dev nD) (t : Fin cfg1.N) : (dat V c).after 0 t = blk V c 0 t := by dsimp only [dat]
theorem after_w (c : Dev nD) (t : Fin cfg1.N) : (dat V c).after 1 t = blk V c 1 t := by dsimp only [dat]
theorem after_bias (c : Dev nD) (t : Fin cfg1.N) : (dat V c).after 2 t = blk V c 2 t := by dsimp only [dat]
theorem after_resid (c : Dev nD) (t : Fin cfg1.N) : (dat V c).after 3 t = blk V c 3 t := by dsimp only [dat]
theorem after_out (c : Dev nD) (t : Fin cfg1.N) : (dat V c).after 4 t = (outsAt V c t.val t.isLt).1 := by dsimp only [dat]
theorem before_x (c : Dev nD) (t : Fin cfg1.N) (d) : (dat V c).before 0 t d = blk V c 0 t :=
  before_x_of V (dat V c) (A_eq V c 0) (after_x V c) t d
theorem before_w (c : Dev nD) (t : Fin cfg1.N) (d) : (dat V c).before 1 t d = blk V c 1 t :=
  before_w_of V (dat V c) (A_eq V c 1) (after_w V c) t d
theorem before_bias (c : Dev nD) (t : Fin cfg1.N) (d) : (dat V c).before 2 t d = blk V c 2 t :=
  before_bias_of V (dat V c) (A_eq V c 2) (after_bias V c) t d
theorem before_resid (c : Dev nD) (t : Fin cfg1.N) (d) : (dat V c).before 3 t d = blk V c 3 t :=
  before_resid_of V (dat V c) (A_eq V c 3) (after_resid V c) t d

/-! ## The body obligation -/

/-- What the launch hands the region, split into the accumulator's scratch, the other scoped buffers and the generator
    register; and back. -/
theorem PhiA_split (c : Dev nD) :
    (Pipeline.ΦA spec1 c : sProp 𝕄) ⊢ iprop((∃ d, owns (c : Thread nD τ) accM fullShare d) ∗ others (F := F) c ∗ (∃ r, prngReg c r)) := by
  rw [PhiA_eq]
  iintro ⟨⟨O1, O2, O3, O4, O5, O6, O7, O8, HS⟩, Hg⟩
  isplitl [HS]; · iexact HS
  isplitr [Hg]
  · isplitl [O1]; · iexact O1
    isplitl [O2]; · iexact O2
    isplitl [O3]; · iexact O3
    isplitl [O4]; · iexact O4
    isplitl [O5]; · iexact O5
    isplitl [O6]; · iexact O6
    isplitl [O7]; · iexact O7
    iexact O8
  iexact Hg
theorem PhiA_join (c : Dev nD) :
    iprop((∃ d, owns (c : Thread nD τ) accM fullShare d) ∗ others (F := F) c ∗ (∃ r, prngReg c r)) ⊢ (Pipeline.ΦA spec1 c : sProp 𝕄) := by
  rw [PhiA_eq]
  iintro ⟨HS, ⟨O1, O2, O3, O4, O5, O6, O7, O8⟩, Hg⟩
  isplitr [Hg]
  · isplitl [O1]; · iexact O1
    isplitl [O2]; · iexact O2
    isplitl [O3]; · iexact O3
    isplitl [O4]; · iexact O4
    isplitl [O5]; · iexact O5
    isplitl [O6]; · iexact O6
    isplitl [O7]; · iexact O7
    isplitl [O8]; · iexact O8
    iexact HS
  iexact Hg

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d)))

def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t
    ∗ (dat V c).leavesExact 4 t)

set_option maxHeartbeats 4800000 in
/-- The body at any point: the inputs' buffers hold their tiles; the K step says which case the point is in; the
    invariant hands the body the accumulator at what the point before left (at anything at the first point) and takes
    it back at this point's; off the last K step the output tile's buffer is handed back as found. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_x, before_w, before_bias, before_resid]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg1.N = 64 from N_1)
  rw [show (dat V c).leavesExact 0 t = owns (c : Thread nD τ) (st1_0 t) fullShare ((dat V c).after 0 t) from by
    unfold Dat.leavesExact; rw [live_x t], after_x]
  rw [show (dat V c).leavesExact 1 t = owns (c : Thread nD τ) (st1_1 t) fullShare ((dat V c).after 1 t) from by
    unfold Dat.leavesExact; rw [live_w t], after_w]
  rw [show (dat V c).leavesExact 2 t = owns (c : Thread nD τ) (st1_2 t) fullShare ((dat V c).after 2 t) from by
    unfold Dat.leavesExact; rw [live_bias t], after_bias]
  rw [show (dat V c).leavesExact 3 t = owns (c : Thread nD τ) (st1_3 t) fullShare ((dat V c).after 3 t) from by
    unfold Dat.leavesExact; rw [live_resid t], after_resid]
  by_cases h0 : t.val % 4 = 0
  · have h1 : ¬t.val % 4 = 3 := by omega
    rw [Dat.leavesExact_idle (dat V c) 4 t (idle_out t (fun h => h1 ((hLast t).mp h))) (noFlush_out t (fun h => h1 ((hLast t).mp h)))]
    rw [outsAt_first V c t h0 h1]
    unfold accFirst; (try dsimp only)
    by_cases hz : t.val = 0
    · rw [PhiS_castSucc V c t, PhiS_zero V c _ _ hz]
      iintro ⟨Hphi, Ho, ⟨%d0, H0⟩, ⟨%d1, H1⟩, ⟨%d2, H2⟩, ⟨%d3, H3⟩, ⟨%d4, H4⟩⟩
      ihave Hsp := (PhiA_split (F := F) c) $$ Hphi
      icases Hsp with ⟨HS, HO, Hg⟩
      iapply ((runFirst c (grid1.coords t) _ _ _ _ _ _ _ _ _ _ _ _ ((hFirst t).mpr h0) (fun h => h1 ((hLast t).mp h)) (blk V c 0 t) (blk V c 1 t) (blk V c 2 t) (blk V c 3 t)).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS HO Hg]
      · isplitl [HS]
        · unfold owns; iexists _; isplitr
          swap; · iexact HS
          ipureintro; exact View.read_writes_of_cover _ _ _ _ _ (cover_first c _ _ _ _ _ _ _ _ _ _ _ _ _ _ _ _ _ _ _)
        isplitl [HO]; · iexact HO
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨HS, HO, Hg⟩, Ho, ⟨%d0, H0⟩, ⟨%d1, H1⟩, ⟨%d2, H2⟩, ⟨%d3, H3⟩, ⟨%d4, H4⟩⟩
      iapply ((runFirst c (grid1.coords t) _ _ _ _ _ _ _ _ _ _ _ _ ((hFirst t).mpr h0) (fun h => h1 ((hLast t).mp h)) (blk V c 0 t) (blk V c 1 t) (blk V c 2 t) (blk V c 3 t)).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS HO Hg]
      · isplitl [HS]
        · unfold owns; iexists _; isplitr
          swap; · iexact HS
          ipureintro; exact View.read_writes_of_cover _ _ _ _ _ (cover_first c _ _ _ _ _ _ _ _ _ _ _ _ _ _ _ _ _ _ _)
        isplitl [HO]; · iexact HO
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 4 = 3
    · rw [show (dat V c).leavesExact 4 t = owns (c : Thread nD τ) (st1_4 t) fullShare ((dat V c).after 4 t) from by
        unfold Dat.leavesExact; rw [live_out t ((hLast t).mpr h1)], after_out]
      rw [outsAt_last V c t h0 h1]
      unfold outLast accLast; (try dsimp only)
      rw [PhiS_castSucc V c t, PhiS_pos V c _ _ hz]
      iintro ⟨⟨HS, HO, Hg⟩, Ho, ⟨%d0, H0⟩, ⟨%d1, H1⟩, ⟨%d2, H2⟩, ⟨%d3, H3⟩, ⟨%d4, H4⟩⟩
      iapply ((runLast c (grid1.coords t) _ _ _ _ _ _ _ _ _ _ _ _ (fun h => h0 ((hFirst t).mp h)) ((hLast t).mpr h1) (blk V c 0 t) (blk V c 1 t) (blk V c 2 t) (blk V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS HO Hg]
      · isplitl [HS]
        · unfold owns; iexists _; isplitr
          swap; · iexact HS
          ipureintro; exact View.read_writes_of_cover _ _ _ _ _ (cover_last_acc c _ _ _ _ _ _ _ _ _ _ _ _ _ _ _ _ _ _ _ _)
        isplitl [HO]; · iexact HO
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover_last_out c _ _ _ _ _ _ _ _ _ _ _ _ _ _ _ _ _ _ _ _)
    · rw [Dat.leavesExact_idle (dat V c) 4 t (idle_out t (fun h => h1 ((hLast t).mp h))) (noFlush_out t (fun h => h1 ((hLast t).mp h)))]
      rw [outsAt_mid V c t h0 h1]
      unfold accMid; (try dsimp only)
      rw [PhiS_castSucc V c t, PhiS_pos V c _ _ hz]
      iintro ⟨⟨HS, HO, Hg⟩, Ho, ⟨%d0, H0⟩, ⟨%d1, H1⟩, ⟨%d2, H2⟩, ⟨%d3, H3⟩, ⟨%d4, H4⟩⟩
      iapply ((runMid c (grid1.coords t) _ _ _ _ _ _ _ _ _ _ _ _ (fun h => h0 ((hFirst t).mp h)) (fun h => h1 ((hLast t).mp h)) (blk V c 0 t) (blk V c 1 t) (blk V c 2 t) (blk V c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS HO Hg]
      · isplitl [HS]
        · unfold owns; iexists _; isplitr
          swap; · iexact HS
          ipureintro; exact View.read_writes_of_cover _ _ _ _ _ (cover_mid c _ _ _ _ _ _ _ _ _ _ _ _ _ _ _ _ _ _ _ _)
        isplitl [HO]; · iexact HO
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point, -/
theorem hin (c : Dev nD) : (Pipeline.ΦA spec1 c : sProp 𝕄) ⊢ (dat V c).Φ 0 := by
  rw [show (dat V c).Φ 0 = PhiS V c 0 (Nat.zero_le _) from rfl, PhiS_zero V c 0 _ rfl]
  try exact Idealize.SL.BI.Entails.refl _

/-- and after the last point the invariant gives it back: the accumulator's contents are forgotten. -/
theorem hout (c : Dev nD) : (dat V c).Φ (Fin.last cfg1.N) ⊢ (Pipeline.ΦA spec1 c : sProp 𝕄) := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 64 := N_1; omega)]
  iintro ⟨HS, HO, Hg⟩
  iapply (PhiA_join (F := F) c)
  isplitl [HS]; · iexists _; iexact HS
  isplitl [HO]; · iexact HO
  iexact Hg

end Cert.Kernel.Mm

end
-- ==== Proof.KLaunch.lean ====
/-
  The whole program run.  @main is: forty host operations (reshapes, the zero points unpacked, the two row lookups, the
  offsets), the first pallas_call, one host conversion of x, the second pallas_call, one host reshape.  Between two
  items every unscoped buffer of the core is held at named contents: the launch memory, then each host stretch applied,
  then, after a pallas_call, its result array at what its write-backs leave and everything else as before.  Here those
  contents are named, each pipeline's proof data is taken at its region's entry contents, each region is entered by
  splitting its arrays out of the unscoped buffers and left by putting them back, and the launch theorem is called:
  every weakly fair execution terminates with every unscoped buffer at the last contents.
-/
import proofs.«430967_j87247965651012_2_alg».proof.Proof.KRunCond
import proofs.«430967_j87247965651012_2_alg».proof.Proof.KDeqBody
import proofs.«430967_j87247965651012_2_alg».proof.Proof.KMmBody

set_option maxRecDepth 16384

noncomputable section

namespace Cert.Kernel.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents between items -/

/-- What the first pallas_call is entered from: the launch memory after the forty host operations, -/
abbrev In0W (c : Dev nD) : Valuation τ sig (Elt F) := V1 m c
abbrev In0 (c : Dev nD) (b : Ref sig .tc) : Buf (Elt F) ((c : Thread nD τ).loc b) := In0W m c b

/-- and the dense weight it leaves. -/
def dense (c : Dev nD) : Buf (Elt F) ((c : Thread nD τ).loc main_call0_v33) := (Deq.dat (In0 m) c).arrAt 3 cfg0.N

/-- The regions' results with only the first one named (what the second region's entry contents are made of). -/
def outsA : Outs (F := F) := fun _ r c =>
  if h : r = main_call0_v33 then (by subst h; exact dense m c) else m ((c : Thread nD τ).loc r)
theorem outsA_dense (c : Dev nD) : outsA m 2 main_call0_v33 c = dense m c := by
  unfold outsA; rw [dif_pos rfl]

/-- What the second pallas_call is entered from, -/
abbrev In1W (c : Dev nD) : Valuation τ sig (Elt F) := V3 m (outsA m) c
abbrev In1 (c : Dev nD) (b : Ref sig .tc) : Buf (Elt F) ((c : Thread nD τ).loc b) := In1W m c b

/-- and the result it leaves. -/
def result (c : Dev nD) : Buf (Elt F) ((c : Thread nD τ).loc main_call0_v35) := (Mm.dat (In1 m) c).arrAt 4 cfg1.N

/-- The regions' results, both named. -/
def outs : Outs (F := F) := fun _ r c =>
  if h : r = main_call0_v33 then (by subst h; exact dense m c)
  else if h' : r = main_call0_v35 then (by subst h'; exact result m c) else m ((c : Thread nD τ).loc r)
theorem outs_dense (c : Dev nD) : outs m 2 main_call0_v33 c = dense m c := by
  unfold outs; rw [dif_pos rfl]
theorem outs_result (c : Dev nD) : outs m 4 main_call0_v35 c = result m c := by
  unfold outs; rw [dif_neg (by decide), dif_pos rfl]

/-- The contents after the first region do not depend on how the second result is named. -/
theorem V2_outs (c : Dev nD) : V2 m (outs m) c = V2 m (outsA m) c := by
  show Function.update (V1 m c) _ (outs m 2 main_call0_v33 c) = Function.update (V1 m c) _ (outsA m 2 main_call0_v33 c)
  rw [outs_dense, outsA_dense]
theorem V3_outs (c : Dev nD) : V3 m (outs m) c = V3 m (outsA m) c := by
  show StableHlo.after hostOps1 (V2 m (outs m) c) = StableHlo.after hostOps1 (V2 m (outsA m) c)
  rw [V2_outs]

/-- The contents after each region, as functions of the reference. -/
abbrev Out0W (c : Dev nD) : Valuation τ sig (Elt F) := V2 m (outsA m) c
abbrev Out0 (c : Dev nD) (b : Ref sig .tc) : Buf (Elt F) ((c : Thread nD τ).loc b) := Out0W m c b
abbrev Out1W (c : Dev nD) : Valuation τ sig (Elt F) := Function.update (V3 m (outsA m) c) main_call0_v35 (result m c)
abbrev Out1 (c : Dev nD) (b : Ref sig .tc) : Buf (Elt F) ((c : Thread nD τ).loc b) := Out1W m c b

theorem V4_outs (c : Dev nD) : V4 m (outs m) c = Out1W m c := by
  show Function.update (V3 m (outs m) c) _ (outs m 4 main_call0_v35 c) = Function.update (V3 m (outsA m) c) _ (result m c)
  rw [V3_outs, outs_result]

/-- After the first region the dense weight's buffer holds what the pipeline leaves, -/
theorem Out0_dense (c : Dev nD) : Out0 m c main_call0_v33 = dense m c := by
  show Function.update (V1 m c) (Proc.devRef .tc main_call0_v33) (outsA m 2 main_call0_v33 c) (Proc.devRef .tc main_call0_v33) = _
  rw [Function.update_self, outsA_dense]
/-- each of its arrays holds what the pipeline leaves, every other buffer what it held. -/
theorem hF0 (c : Dev nD) (w : Fin cfg0.W) : (Deq.dat (In0 m) c).arrAt w cfg0.N = Out0 m c (Pipeline.arrRef spec0 w) := by
  fin_cases w
  · exact ((Deq.dat (In0 m) c).arrAt_in 0 rfl _).trans ((Deq.A_eq (In0 m) c 0).trans (V2_of m (outsA m) c main_arg1 (by decide)).symm)
  · exact ((Deq.dat (In0 m) c).arrAt_in 1 rfl _).trans ((Deq.A_eq (In0 m) c 1).trans (V2_of m (outsA m) c main_call0_v23 (by decide)).symm)
  · exact ((Deq.dat (In0 m) c).arrAt_in 2 rfl _).trans ((Deq.A_eq (In0 m) c 2).trans (V2_of m (outsA m) c main_call0_v32 (by decide)).symm)
  · exact (Out0_dense m c).symm
theorem hrest0 (c : Dev nD) : ∀ b, b ∉ Finset.univ.image (Pipeline.arrRef spec0) → Out0 m c b = In0 m c b :=
  fun b hb => V2_of m (outsA m) c b (fun h => hb (by
    rw [List.mem_singleton] at h; subst h; exact Finset.mem_image.mpr ⟨3, Finset.mem_univ _, rfl⟩))

/-- The same for the second region. -/
theorem Out1_ne (c : Dev nD) (r : Ref sig .tc) (hr : r ≠ main_call0_v35) : Out1 m c r = In1 m c r :=
  Function.update_of_ne (StableHlo.devRef_ne_of_ne hr : (Proc.devRef .tc r : DevRef τ sig) ≠ Proc.devRef .tc main_call0_v35) _ _
theorem Out1_result (c : Dev nD) : Out1 m c main_call0_v35 = result m c := by
  show Function.update (V3 m (outsA m) c) (Proc.devRef .tc main_call0_v35) (result m c) (Proc.devRef .tc main_call0_v35) = _
  rw [Function.update_self]
theorem hF1 (c : Dev nD) (w : Fin cfg1.W) : (Mm.dat (In1 m) c).arrAt w cfg1.N = Out1 m c (Pipeline.arrRef spec1 w) := by
  fin_cases w
  · exact ((Mm.dat (In1 m) c).arrAt_in 0 rfl _).trans ((Mm.A_eq (In1 m) c 0).trans (Out1_ne m c main_call0_v34 (by decide)).symm)
  · exact ((Mm.dat (In1 m) c).arrAt_in 1 rfl _).trans ((Mm.A_eq (In1 m) c 1).trans (Out1_ne m c main_call0_v33 (by decide)).symm)
  · exact ((Mm.dat (In1 m) c).arrAt_in 2 rfl _).trans ((Mm.A_eq (In1 m) c 2).trans (Out1_ne m c main_call0_v2 (by decide)).symm)
  · exact ((Mm.dat (In1 m) c).arrAt_in 3 rfl _).trans ((Mm.A_eq (In1 m) c 3).trans (Out1_ne m c main_call0_v1 (by decide)).symm)
  · exact (Out1_result m c).symm
theorem hrest1 (c : Dev nD) : ∀ b, b ∉ Finset.univ.image (Pipeline.arrRef spec1) → Out1 m c b = In1 m c b :=
  fun b hb => Out1_ne m c b (fun h => hb (by
    subst h; exact Finset.mem_image.mpr ⟨4, Finset.mem_univ _, rfl⟩))

/-! ## The proof data and the thread state -/

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => Deq.dat (In0 m) c
  | ⟨1, _⟩ => fun c => Mm.dat (In1 m) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state and the core's dues, none. -/
abbrev R (c : Dev nD) : sProp 𝕄 := iprop((∃ r, prngReg c r) ∗ ∃ W, owes (c : Thread nD τ) (0 : CellTallies nD τ sig Unit) W)

/-! ## The regions -/

-- a library lemma stated over the pinned configuration unifies with the printed one only when unification may unfold
-- plain definitions in a metavariable's type
set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Deq.body_obligation (In0 m) c).loose
  hwaits := Pipeline.hwaits_of_owed_zero _ _ _ _ L lv 0 fun _ _ => rfl
  pre c := iprop(StableHlo.held (c : Thread nD τ) (Pipeline.ucRefs τ sig) (In0W m c) ∗ R (F := F) c)
  post c := iprop(StableHlo.held (c : Thread nD τ) (Pipeline.ucRefs τ sig) (Out0W m c) ∗ R (F := F) c)
  X c := iprop(∃ r, prngReg c r)
  Y c := iprop(∃ r, prngReg c r)
  Z c := Pipeline.unscopedRest (Ix := Unit) (Name := ℕ) (U := UR sig nD τ) (Lvl := ℕ) spec0 c (In0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (In0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (In0 m c) (Out0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Mm.body_obligation (In1 m) c).loose
  hwaits := Pipeline.hwaits_of_owed_zero _ _ _ _ L lv 1 fun _ _ => rfl
  pre c := iprop(StableHlo.held (c : Thread nD τ) (Pipeline.ucRefs τ sig) (In1W m c) ∗ R (F := F) c)
  post c := iprop(StableHlo.held (c : Thread nD τ) (Pipeline.ucRefs τ sig) (Out1W m c) ∗ R (F := F) c)
  X c := iprop(∃ r, prngReg c r)
  Y c := iprop(∃ r, prngReg c r)
  Z c := Pipeline.unscopedRest (Ix := Unit) (Name := ℕ) (U := UR sig nD τ) (Lvl := ℕ) spec1 c (In1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (In1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    exact (Mm.hout (In1 m) c).trans (by
      unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (In1 m c) (Out1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- Every weakly fair execution of @main from memory m with zero counters terminates, nothing faulting, and every
    unscoped buffer ends at the last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V5 m (outs m) c b) :=
  run_cond m emb₁ () 𝒱₀ L lv (fun _ _ => rfl) ρ (outs m) (pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R (F := F) c)
    (hE0 := by
      have hc : ∀ c : Dev nD, (iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp)) : sProp 𝕄) ⊢ R (F := F) c := fun c => by
        iintro ⟨-, HO, -, Hp, -⟩
        isplitl [Hp]; · iexists _; iexact Hp
        iexists ∅; iexact HO
      have hmono : (bigSep Finset.univ (fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp))) : sProp 𝕄)
          ⊢ bigSep Finset.univ (fun c : Dev nD => R (F := F) c) :=
        bigSep_mono fun c _ => hc c
      iintro ⟨H, -⟩
      imodintro
      iapply hmono
      iexact H)
    (hE2 := fun c => by iintro ⟨-, HO⟩; iexact HO)
    (reg0 m) (fun c => by rw [show V1 m c = In0W m c from rfl]; exact .rfl) (fun c => by rw [V2_outs]; exact .rfl)
    (reg1 m) (fun c => by rw [V3_outs]; exact .rfl) (fun c => by rw [V4_outs]; exact .rfl)

/-- An unscoped reference of the core is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The run read at the result and at the arguments: the result buffer ends at the last contents, every argument as
    launched (no host operation writes one and no region may change one). -/
theorem run_result : θ_run defs (onTc (τ := τ) (main (F := F))) ⟨m, fun _ => 0, ρ⟩ (fun r => ∀ c : Dev nD,
      r.2.mem ((c.tc : Thread nD τ).loc main_v0) = V5 m (outs m) c main_v0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨h c _ (mem_uc main_v0 (by decide)),
      (h c _ (mem_uc main_arg0 (by decide))).trans (V5_main_arg0 m (outs m) c),
      (h c _ (mem_uc main_arg1 (by decide))).trans (V5_main_arg1 m (outs m) c),
      (h c _ (mem_uc main_arg2 (by decide))).trans (V5_main_arg2 m (outs m) c),
      (h c _ (mem_uc main_arg3 (by decide))).trans (V5_main_arg3 m (outs m) c),
      (h c _ (mem_uc main_arg4 (by decide))).trans (V5_main_arg4 m (outs m) c),
      (h c _ (mem_uc main_arg5 (by decide))).trans (V5_main_arg5 m (outs m) c),
      (h c _ (mem_uc main_arg6 (by decide))).trans (V5_main_arg6 m (outs m) c)⟩) (run_all m ρ)

/-- The frame: the program runs to the end, faults nowhere, and leaves its arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => (h c).2) (run_result m ρ)

end Cert.Kernel.Launch

end
-- ==== Proof.DeqBody.lean ====
/-
  The first pallas_call: the packed int4 weight unpacked and made affine, one 1024 x 1024 tile per grid point.
  At point t = (kb, jb) the body reads the packed tile (128 x 1024 words, eight nibbles a word along the rows),
  the tile of per-row scales a and the tile of per-row offsets b, and stores  float(nibble) * a + b  over the
  whole output tile.  Every window is fetched (or written back) at every point, nothing is carried between points.
  Here: what the output tile holds after the body as a function of the three input tiles, the body's triple,
  the pipeline's proof data at any entry contents V of the buffers, and the body obligation.
-/
import proofs.«430967_j87247965651012_2_alg».proof.Proof.Gen.KernelIdeal.Launch
import proofs.«430967_j87247965651012_2_alg».proof.Proof.Gen.KernelIdeal.Skeleton
import proofs.«430967_j87247965651012_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Deq

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- Window w's tile at point t, read off its array as the region finds it. -/
def tile (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its tile when the body runs (every input is fetched at every point and
    the body leaves it in place). -/
theorem before_packed_of {c : Dev nD} (dat : Dat τ (Elt F) Unit ℕ (UR sig nD τ) ℕ cfg0 c) (hA : dat.A 0 = V c (Pipeline.arrRef spec0 0))
    (hafter : ∀ t, dat.after 0 t = tile V c 0 t) (t : Fin cfg0.N) (d) : dat.before 0 t d = tile V c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)
theorem before_scale_of {c : Dev nD} (dat : Dat τ (Elt F) Unit ℕ (UR sig nD τ) ℕ cfg0 c) (hA : dat.A 1 = V c (Pipeline.arrRef spec0 1))
    (hafter : ∀ t, dat.after 1 t = tile V c 1 t) (t : Fin cfg0.N) (d) : dat.before 1 t d = tile V c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)
theorem before_offset_of {c : Dev nD} (dat : Dat τ (Elt F) Unit ℕ (UR sig nD τ) ℕ cfg0 c) (hA : dat.A 2 = V c (Pipeline.arrRef spec0 2))
    (hafter : ∀ t, dat.after 2 t = tile V c 2 t) (t : Fin cfg0.N) (d) : dat.before 2 t d = tile V c 2 t :=
  (dat.before_in_eq_fetched 2 rfl (fun _ => rfl) (fun _ _ _ => rfl) (fun t => by rw [hafter]; unfold Dat.blockOf tile; rw [hA]; try rfl) t d).trans
    (by unfold Dat.fetched Dat.blockOf tile; rw [hA]; try rfl)

/-- The whole packed tile and the whole dense tile, as the body's loads and its store address them. -/
abbrev rPacked : Rect S128x1024 := Rect.unit (s := S128x1024) ![0, 0] S128x1024.size inb_S128x1024_S128x1024_0_0
abbrev rDense : Rect S1024x1024 := Rect.unit (s := S1024x1024) ![0, 0] S1024x1024.size inb_S1024x1024_S1024x1024_0_0

/-- What the body leaves in the output tile: its one store, of float(nibble) * a + b. -/
def deqTile (x0 : Vec F S128x1024 .i32) (x1 : Vec F S1024x1024 .f32) (x2 : Vec F S1024x1024 .f32) : Vec F S1024x1024 .bf16 :=
  View.canon [⟨rDense, k0_pay1 (View.ld x0 rPacked) (View.ld x1 rDense) (View.ld x2 rDense)⟩]

/-- The one store covers the tile. -/
theorem deq_cover (p0 : Vec F S1024x1024 .bf16) (y : S1024x1024.Idx) :
    ∃ pc ∈ ([⟨rDense, p0⟩] : List (View.Piece (Elt F) S1024x1024 .bf16)), y ∈ pc.1.set :=
  View.cover_of_tiled [⟨rDense, p0⟩] S1024x1024.size (by rfl) y

set_option maxHeartbeats 1000000 in
/-- The body on whole staging buffers, the inputs at x0, x1, x2 and the output at anything, runs to its return with
    the inputs as they were and the output at deqTile of them. -/
theorem deq_run (c : Dev nD) (E : Set ℕ) (i : grid0.Coords) (arg2 : Memref sig .tc .vmem S128x1024 .i32) (harg2 : arg2.IsWhole)
    (arg3 : Memref sig .tc .vmem S1024x1024 .f32) (harg3 : arg3.IsWhole) (arg4 : Memref sig .tc .vmem S1024x1024 .f32) (harg4 : arg4.IsWhole)
    (arg5 : Memref sig .tc .vmem S1024x1024 .bf16) (harg5 : arg5.IsWhole)
    (x0 : Vec F S128x1024 .i32) (x1 : Vec F S1024x1024 .f32) (x2 : Vec F S1024x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (deqTile x0 x1 x2)) -∗ K ⟨⟩))
      ⊢ wp frame (wpE (defs₀ (F := F)) Variants.none c none) E (cc0_kernel i arg2 harg2 arg3 harg3 arg4 harg4 arg5 harg5) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (deq_cover _)

/-- The proof data of the first pipeline on core c: the arrays as the region finds them; after the body at point t
    each input's buffer at its tile and the output's at deqTile of the three; the invariant the scoped buffers the
    pipeline does not stage and the generator register, untouched; nothing owed; full shares. -/
def dat (c : Dev nD) : Dat τ (Elt F) Unit ℕ (UR sig nD τ) ℕ cfg0 c where
  A w := V c (Pipeline.arrRef spec0 w)
  after w t := match w with
    | ⟨0, _⟩ => tile V c 0 t
    | ⟨1, _⟩ => tile V c 1 t
    | ⟨2, _⟩ => tile V c 2 t
    | ⟨3, _⟩ => deqTile (tile V c 0 t) (tile V c 1 t) (tile V c 2 t)
  Φ _ := Pipeline.ΦA spec0 c
  q _ := fullShare
  owed _ := 0

theorem A_eq (c : Dev nD) (w : Fin cfg0.W) : (dat V c).A w = V c (Pipeline.arrRef spec0 w) := by
  dsimp only [dat]

theorem after_packed (c : Dev nD) (t : Fin cfg0.N) : (dat V c).after 0 t = tile V c 0 t := by dsimp only [dat]
theorem after_scale (c : Dev nD) (t : Fin cfg0.N) : (dat V c).after 1 t = tile V c 1 t := by dsimp only [dat]
theorem after_offset (c : Dev nD) (t : Fin cfg0.N) : (dat V c).after 2 t = tile V c 2 t := by dsimp only [dat]
theorem after_dense (c : Dev nD) (t : Fin cfg0.N) :
    (dat V c).after 3 t = deqTile (tile V c 0 t) (tile V c 1 t) (tile V c 2 t) := by dsimp only [dat]

theorem before_packed (c : Dev nD) (t : Fin cfg0.N) (d) : (dat V c).before 0 t d = tile V c 0 t :=
  before_packed_of V (dat V c) (A_eq V c 0) (after_packed V c) t d
theorem before_scale (c : Dev nD) (t : Fin cfg0.N) (d) : (dat V c).before 1 t d = tile V c 1 t :=
  before_scale_of V (dat V c) (A_eq V c 1) (after_scale V c) t d
theorem before_offset (c : Dev nD) (t : Fin cfg0.N) (d) : (dat V c).before 2 t d = tile V c 2 t :=
  before_offset_of V (dat V c) (A_eq V c 2) (after_offset V c) t d

/-- What the body is called with at point t, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' buffers hold their tiles, so the run applies; the invariant and the core's
    dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_packed, before_scale, before_offset]
  rw [show (dat V c).Φ t.succ = (dat V c).Φ t.castSucc from rfl,
    show (dat V c).owesAt () t.succ = (dat V c).owesAt () t.castSucc from rfl,
    after_packed, after_scale, after_offset, after_dense]
  iintro ⟨HΦ, Ho, ⟨%d0, H0⟩, ⟨%d1, H1⟩, ⟨%d2, H2⟩, ⟨%d3, H3⟩⟩
  iapply (deq_run c Set.univ _ _ _ _ _ _ _ _ _ (tile V c 0 t) (tile V c 1 t) (tile V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Deq

end
-- ==== Proof.MmRuns.lean ====
/-
  The second pallas_call, part one: the tiled product.  The grid is 4 x 4 x 4 over (row tile i, column tile j, K step k),
  k fastest, so point t has k = t mod 4.  The body keeps a 2048 x 1024 accumulator in a scratch buffer across the four
  K steps of one output tile: at k = 0 it stores zero there first; at every k it adds the product of the 2048 x 1024
  tile of x with the 1024 x 1024 tile of the dense weight; at k = 3 it stores accumulator + bias row + residual tile
  into the output tile, which is written back at that point only and left alone at the others.
  Here: the two conditions in closed form over the grid, where the output window is idle, and the body run once per
  case (first, middle, last K step) on whole staging buffers, each run's stores found as lists of pieces.
-/
import proofs.«430967_j87247965651012_2_alg».proof.Proof.Gen.KernelIdeal.Launch
import proofs.«430967_j87247965651012_2_alg».proof.Proof.Gen.KernelIdeal.Skeleton
import proofs.«430967_j87247965651012_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Mm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

/-- k = 0: the accumulator is reset before the product is added (the body's first branch, as it computes it). -/
abbrev isFirst (i : grid1.Coords) : Prop := (Scalar.cmpi .ne (Scalar.extui (Scalar.cmpi .eq (BitVec.ofNat 32 (i 2).val) 0#32)) 0#32) = 1#1
theorem hFirst : ∀ t : Fin cfg1.N, isFirst (grid1.coords t) ↔ t.val % 4 = 0 :=
  (by decide +kernel : ∀ t : Fin grid1.N, isFirst (grid1.coords t) ↔ t.val % 4 = 0)
/-- k = 3: the output tile is stored (the body's second branch). -/
abbrev isLast (i : grid1.Coords) : Prop := k1_cond2 i = 1#1
theorem hLast : ∀ t : Fin cfg1.N, isLast (grid1.coords t) ↔ t.val % 4 = 3 :=
  (by decide +kernel : ∀ t : Fin grid1.N, isLast (grid1.coords t) ↔ t.val % 4 = 3)

/-- The four input windows are never idle; the output window is idle, and not written back, exactly off the last K step. -/
theorem live_x : ∀ t : Fin cfg1.N, cfg1.idle 0 (grid1.coords t) = false := by decide +kernel
theorem live_w : ∀ t : Fin cfg1.N, cfg1.idle 1 (grid1.coords t) = false := by decide +kernel
theorem live_bias : ∀ t : Fin cfg1.N, cfg1.idle 2 (grid1.coords t) = false := by decide +kernel
theorem live_resid : ∀ t : Fin cfg1.N, cfg1.idle 3 (grid1.coords t) = false := by decide +kernel
theorem idle_out : ∀ t : Fin cfg1.N, ¬isLast (grid1.coords t) → cfg1.idle 4 (grid1.coords t) = true := by decide +kernel
theorem noFlush_out : ∀ t : Fin cfg1.N, ¬isLast (grid1.coords t) → (cfg1.win 4).flush t = false := by decide +kernel
theorem live_out : ∀ t : Fin cfg1.N, isLast (grid1.coords t) → cfg1.idle 4 (grid1.coords t) = false := by decide +kernel

/-- The accumulator's scratch buffer, and one staging buffer of the output window and the scratch as views through which
    contents are stated. -/
abbrev accM : Memref sig .tc .vmem S2048x1024 .f32 := Memref.whole cc1_scratch0
abbrev accV : View sig .tc .vmem S2048x1024 .f32 := accM.view
abbrev outV : View sig .tc .vmem S2048x1024 .f32 := (Memref.whole cc1_stg4_0 : Memref sig .tc .vmem S2048x1024 .f32).view

/-- A scoped buffer held whole at some contents. -/
abbrev anyBuf (c : Dev nD) (r : Ref sig .tc) : sProp 𝕄 :=
  iprop(∃ f : Buf (Elt F) ((c : Thread nD τ).loc r), ((c : Thread nD τ).loc r) ↦{fullShare} f)

/-- The first pallas_call's eight staging buffers: scoped buffers this region never touches. -/
abbrev others (c : Dev nD) : sProp 𝕄 :=
  iprop(anyBuf (F := F) c cc0_stg0_0 ∗ anyBuf (F := F) c cc0_stg0_1 ∗ anyBuf (F := F) c cc0_stg1_0 ∗ anyBuf (F := F) c cc0_stg1_1 ∗ anyBuf (F := F) c cc0_stg2_0 ∗ anyBuf (F := F) c cc0_stg2_1 ∗ anyBuf (F := F) c cc0_stg3_0 ∗ anyBuf (F := F) c cc0_stg3_1)

/-- The region's invariant as the launch hands it over: those eight, the accumulator's scratch at some contents, and
    the generator register. -/
theorem PhiA_eq (c : Dev nD) :
    (Pipeline.ΦA spec1 c : sProp 𝕄)
      = iprop(iprop(anyBuf (F := F) c cc0_stg0_0 ∗ anyBuf (F := F) c cc0_stg0_1 ∗ anyBuf (F := F) c cc0_stg1_0 ∗ anyBuf (F := F) c cc0_stg1_1 ∗ anyBuf (F := F) c cc0_stg2_0 ∗ anyBuf (F := F) c cc0_stg2_1 ∗ anyBuf (F := F) c cc0_stg3_0 ∗ anyBuf (F := F) c cc0_stg3_1 ∗ (∃ d, owns (c : Thread nD τ) accM fullShare d)) ∗ (∃ r, prngReg c r)) := by
  unfold Pipeline.ΦA; rw [scopedRest1_eq]; simp only [accM, owns_whole]; try rfl

set_option maxHeartbeats 2000000 in
/-- k = 0.  The accumulator at anything, the output tile handed back untouched. -/
noncomputable def runFirst (c : Dev nD) (i : grid1.Coords) (arg3 : Memref sig .tc .vmem S2048x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S2048x1024 .f32) (harg6 : arg6.IsWhole)
    (arg7 : Memref sig .tc .vmem S2048x1024 .f32) (harg7 : arg7.IsWhole) (arg8 : Memref sig .tc .vmem S2048x1024 .f32) (harg8 : arg8.IsWhole)
    (hc0 : isFirst i) (hc1 : ¬isLast i)
    (x0 : Vec F S2048x1024 .bf16) (x1 : Vec F S1024x1024 .bf16) (x2 : Vec F S1x1024 .f32) (x3 : Vec F S2048x1024 .f32) :
    { LS : List (View.Piece (Elt F) S2048x1024 .f32) //
      ∀ (xi4 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc1__matmul_kernel i arg3 harg3 arg4 harg4 arg5 harg5 arg6 harg6 arg7 harg7 arg8 harg8) K } := by
  refine ⟨?_, fun xi4 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg3.eq_unread hf0; obtain rfl := harg4.eq_unread hf1; obtain rfl := harg5.eq_unread hf2
    obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

set_option maxHeartbeats 2000000 in
/-- k = 1, 2.  The accumulator at what the step before left, the output tile handed back untouched. -/
noncomputable def runMid (c : Dev nD) (i : grid1.Coords) (arg3 : Memref sig .tc .vmem S2048x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S2048x1024 .f32) (harg6 : arg6.IsWhole)
    (arg7 : Memref sig .tc .vmem S2048x1024 .f32) (harg7 : arg7.IsWhole) (arg8 : Memref sig .tc .vmem S2048x1024 .f32) (harg8 : arg8.IsWhole)
    (hc0 : ¬isFirst i) (hc1 : ¬isLast i)
    (x0 : Vec F S2048x1024 .bf16) (x1 : Vec F S1024x1024 .bf16) (x2 : Vec F S1x1024 .f32) (x3 : Vec F S2048x1024 .f32) (xs : Vec F S2048x1024 .f32) :
    { LS : List (View.Piece (Elt F) S2048x1024 .f32) //
      ∀ (xi4 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xi4 ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc1__matmul_kernel i arg3 harg3 arg4 harg4 arg5 harg5 arg6 harg6 arg7 harg7 arg8 harg8) K } := by
  refine ⟨?_, fun xi4 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

set_option maxHeartbeats 2000000 in
/-- k = 3.  The accumulator at what the step before left, the output tile at anything: it ends with its pieces written. -/
noncomputable def runLast (c : Dev nD) (i : grid1.Coords) (arg3 : Memref sig .tc .vmem S2048x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S2048x1024 .f32) (harg6 : arg6.IsWhole)
    (arg7 : Memref sig .tc .vmem S2048x1024 .f32) (harg7 : arg7.IsWhole) (arg8 : Memref sig .tc .vmem S2048x1024 .f32) (harg8 : arg8.IsWhole)
    (hc0 : ¬isFirst i) (hc1 : isLast i)
    (x0 : Vec F S2048x1024 .bf16) (x1 : Vec F S1024x1024 .bf16) (x2 : Vec F S1x1024 .f32) (x3 : Vec F S2048x1024 .f32) (xs : Vec F S2048x1024 .f32) :
    Σ' (L4 : List (View.Piece (Elt F) S2048x1024 .f32)), { LS : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d) ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3
                ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS)) -∗ K ⟨⟩))
          ⊢ wp frame (wpE (defs₀ (F := F)) Variants.none c none) E (cc1__matmul_kernel i arg3 harg3 arg4 harg4 arg5 harg5 arg6 harg6 arg7 harg7 arg8 harg8) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg3.eq_unread hf0; obtain rfl := harg4.eq_unread hf1; obtain rfl := harg5.eq_unread hf2
    obtain rfl := harg6.eq_unread hf3; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; iexact H4
    iexists _; iexact HS

end Cert.KernelIdeal.Mm

end
-- ==== Proof.MmBody.lean ====
/-
  The second pallas_call, part two: the accumulation and the body obligation.  After point t the scratch holds the
  accumulator acc(t): at k = 0 the body's product step run from anything (it stores zero first), at k > 0 the product
  step run from acc(t - 1).  The output tile holds, after a point with k = 3, acc + bias + residual; at the other
  points the window is idle and its buffer is handed back as found.  The invariant between points is the scratch at
  acc of the point before (at anything before the first point), the other scoped buffers, and the generator register.
-/
import proofs.«430967_j87247965651012_2_alg».proof.Proof.MmRuns

set_option maxRecDepth 16384

noncomputable section

namespace Cert.KernelIdeal.Mm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- Window w's tile at point t, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its tile when the body runs, fetched at that point or not (the bias row and
    the residual tile are fetched once per output tile: their block index does not move over the four K steps). -/
theorem before_x_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_w_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before_bias_of {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem before_resid_of {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-! ## What each case leaves -/

/-- k = 0: the run's pieces for the accumulator cover it, and what they leave. -/
theorem cover_first (c : Dev nD) (i : grid1.Coords) (arg3 : Memref sig .tc .vmem S2048x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S2048x1024 .f32) (harg6 : arg6.IsWhole)
    (arg7 : Memref sig .tc .vmem S2048x1024 .f32) (harg7 : arg7.IsWhole) (arg8 : Memref sig .tc .vmem S2048x1024 .f32) (harg8 : arg8.IsWhole)
    (hc0 : isFirst i) (hc1 : ¬isLast i) (x0 : Vec F S2048x1024 .bf16) (x1 : Vec F S1024x1024 .bf16) (x2 : Vec F S1x1024 .f32) (x3 : Vec F S2048x1024 .f32) (y : S2048x1024.Idx) :
    ∃ pc ∈ (runFirst c i arg3 harg3 arg4 harg4 arg5 harg5 arg6 harg6 arg7 harg7 arg8 harg8 hc0 hc1 x0 x1 x2 x3).1, y ∈ pc.1.set :=
  View.cover_of_tiledL (runFirst c i arg3 harg3 arg4 harg4 arg5 harg5 arg6 harg6 arg7 harg7 arg8 harg8 hc0 hc1 x0 x1 x2 x3).1 S2048x1024.size (by sl_kernel_rfl) y
def accFirst (c : Dev nD) (i : grid1.Coords) (arg3 : Memref sig .tc .vmem S2048x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S2048x1024 .f32) (harg6 : arg6.IsWhole)
    (arg7 : Memref sig .tc .vmem S2048x1024 .f32) (harg7 : arg7.IsWhole) (arg8 : Memref sig .tc .vmem S2048x1024 .f32) (harg8 : arg8.IsWhole)
    (hc0 : isFirst i) (hc1 : ¬isLast i) (x0 : Vec F S2048x1024 .bf16) (x1 : Vec F S1024x1024 .bf16) (x2 : Vec F S1x1024 .f32) (x3 : Vec F S2048x1024 .f32) : Vec F S2048x1024 .f32 :=
  accV.read (Elt F) (accV.writes (Elt F) accV.junk (runFirst c i arg3 harg3 arg4 harg4 arg5 harg5 arg6 harg6 arg7 harg7 arg8 harg8 hc0 hc1 x0 x1 x2 x3).1)

/-- k = 1, 2. -/
theorem cover_mid (c : Dev nD) (i : grid1.Coords) (arg3 : Memref sig .tc .vmem S2048x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S2048x1024 .f32) (harg6 : arg6.IsWhole)
    (arg7 : Memref sig .tc .vmem S2048x1024 .f32) (harg7 : arg7.IsWhole) (arg8 : Memref sig .tc .vmem S2048x1024 .f32) (harg8 : arg8.IsWhole)
    (hc0 : ¬isFirst i) (hc1 : ¬isLast i) (x0 : Vec F S2048x1024 .bf16) (x1 : Vec F S1024x1024 .bf16) (x2 : Vec F S1x1024 .f32) (x3 : Vec F S2048x1024 .f32) (xs : Vec F S2048x1024 .f32) (y : S2048x1024.Idx) :
    ∃ pc ∈ (runMid c i arg3 harg3 arg4 harg4 arg5 harg5 arg6 harg6 arg7 harg7 arg8 harg8 hc0 hc1 x0 x1 x2 x3 xs).1, y ∈ pc.1.set :=
  View.cover_of_tiledL (runMid c i arg3 harg3 arg4 harg4 arg5 harg5 arg6 harg6 arg7 harg7 arg8 harg8 hc0 hc1 x0 x1 x2 x3 xs).1 S2048x1024.size (by sl_kernel_rfl) y
def accMid (c : Dev nD) (i : grid1.Coords) (arg3 : Memref sig .tc .vmem S2048x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S2048x1024 .f32) (harg6 : arg6.IsWhole)
    (arg7 : Memref sig .tc .vmem S2048x1024 .f32) (harg7 : arg7.IsWhole) (arg8 : Memref sig .tc .vmem S2048x1024 .f32) (harg8 : arg8.IsWhole)
    (hc0 : ¬isFirst i) (hc1 : ¬isLast i) (x0 : Vec F S2048x1024 .bf16) (x1 : Vec F S1024x1024 .bf16) (x2 : Vec F S1x1024 .f32) (x3 : Vec F S2048x1024 .f32) (xs : Vec F S2048x1024 .f32) : Vec F S2048x1024 .f32 :=
  accV.read (Elt F) (accV.writes (Elt F) accV.junk (runMid c i arg3 harg3 arg4 harg4 arg5 harg5 arg6 harg6 arg7 harg7 arg8 harg8 hc0 hc1 x0 x1 x2 x3 xs).1)

/-- k = 3: the accumulator's pieces and the output tile's. -/
theorem cover_last_acc (c : Dev nD) (i : grid1.Coords) (arg3 : Memref sig .tc .vmem S2048x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S2048x1024 .f32) (harg6 : arg6.IsWhole)
    (arg7 : Memref sig .tc .vmem S2048x1024 .f32) (harg7 : arg7.IsWhole) (arg8 : Memref sig .tc .vmem S2048x1024 .f32) (harg8 : arg8.IsWhole)
    (hc0 : ¬isFirst i) (hc1 : isLast i) (x0 : Vec F S2048x1024 .bf16) (x1 : Vec F S1024x1024 .bf16) (x2 : Vec F S1x1024 .f32) (x3 : Vec F S2048x1024 .f32) (xs : Vec F S2048x1024 .f32) (y : S2048x1024.Idx) :
    ∃ pc ∈ (runLast c i arg3 harg3 arg4 harg4 arg5 harg5 arg6 harg6 arg7 harg7 arg8 harg8 hc0 hc1 x0 x1 x2 x3 xs).2.1, y ∈ pc.1.set :=
  View.cover_of_tiledL (runLast c i arg3 harg3 arg4 harg4 arg5 harg5 arg6 harg6 arg7 harg7 arg8 harg8 hc0 hc1 x0 x1 x2 x3 xs).2.1 S2048x1024.size (by sl_kernel_rfl) y
theorem cover_last_out (c : Dev nD) (i : grid1.Coords) (arg3 : Memref sig .tc .vmem S2048x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S2048x1024 .f32) (harg6 : arg6.IsWhole)
    (arg7 : Memref sig .tc .vmem S2048x1024 .f32) (harg7 : arg7.IsWhole) (arg8 : Memref sig .tc .vmem S2048x1024 .f32) (harg8 : arg8.IsWhole)
    (hc0 : ¬isFirst i) (hc1 : isLast i) (x0 : Vec F S2048x1024 .bf16) (x1 : Vec F S1024x1024 .bf16) (x2 : Vec F S1x1024 .f32) (x3 : Vec F S2048x1024 .f32) (xs : Vec F S2048x1024 .f32) (y : S2048x1024.Idx) :
    ∃ pc ∈ (runLast c i arg3 harg3 arg4 harg4 arg5 harg5 arg6 harg6 arg7 harg7 arg8 harg8 hc0 hc1 x0 x1 x2 x3 xs).1, y ∈ pc.1.set :=
  View.cover_of_tiledL (runLast c i arg3 harg3 arg4 harg4 arg5 harg5 arg6 harg6 arg7 harg7 arg8 harg8 hc0 hc1 x0 x1 x2 x3 xs).1 S2048x1024.size (by sl_kernel_rfl) y
def accLast (c : Dev nD) (i : grid1.Coords) (arg3 : Memref sig .tc .vmem S2048x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S2048x1024 .f32) (harg6 : arg6.IsWhole)
    (arg7 : Memref sig .tc .vmem S2048x1024 .f32) (harg7 : arg7.IsWhole) (arg8 : Memref sig .tc .vmem S2048x1024 .f32) (harg8 : arg8.IsWhole)
    (hc0 : ¬isFirst i) (hc1 : isLast i) (x0 : Vec F S2048x1024 .bf16) (x1 : Vec F S1024x1024 .bf16) (x2 : Vec F S1x1024 .f32) (x3 : Vec F S2048x1024 .f32) (xs : Vec F S2048x1024 .f32) : Vec F S2048x1024 .f32 :=
  accV.read (Elt F) (accV.writes (Elt F) accV.junk (runLast c i arg3 harg3 arg4 harg4 arg5 harg5 arg6 harg6 arg7 harg7 arg8 harg8 hc0 hc1 x0 x1 x2 x3 xs).2.1)
def outLast (c : Dev nD) (i : grid1.Coords) (arg3 : Memref sig .tc .vmem S2048x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S2048x1024 .f32) (harg6 : arg6.IsWhole)
    (arg7 : Memref sig .tc .vmem S2048x1024 .f32) (harg7 : arg7.IsWhole) (arg8 : Memref sig .tc .vmem S2048x1024 .f32) (harg8 : arg8.IsWhole)
    (hc0 : ¬isFirst i) (hc1 : isLast i) (x0 : Vec F S2048x1024 .bf16) (x1 : Vec F S1024x1024 .bf16) (x2 : Vec F S1x1024 .f32) (x3 : Vec F S2048x1024 .f32) (xs : Vec F S2048x1024 .f32) : Vec F S2048x1024 .f32 :=
  outV.read (Elt F) (outV.writes (Elt F) outV.junk (runLast c i arg3 harg3 arg4 harg4 arg5 harg5 arg6 harg6 arg7 harg7 arg8 harg8 hc0 hc1 x0 x1 x2 x3 xs).1)

/-- What stands for the output tile's buffer at a point that leaves it alone (nothing reads it: the window is idle there
    and not written back). -/
def idleOut : Vec F S2048x1024 .f32 := outV.read (Elt F) outV.junk

/-! ## The accumulation over the points -/

/-- What the output tile's buffer (first component; meaningful at k = 3 only, a placeholder elsewhere) and the
    accumulator (second component) hold after the body at position n. -/
def outsAt (c : Dev nD) : (n : ℕ) → n < cfg1.N → Vec F S2048x1024 .f32 × Vec F S2048x1024 .f32
  | 0, hn => (idleOut (F := F),
      accFirst c (grid1.coords ⟨0, hn⟩) (win1_0.stage (cfg1.slots ⟨0, hn⟩ 0)) (hstage1_0 ((cfg1.slots ⟨0, hn⟩ 0).cast nbuf1_0)) (win1_1.stage (cfg1.slots ⟨0, hn⟩ 1)) (hstage1_1 ((cfg1.slots ⟨0, hn⟩ 1).cast nbuf1_1)) (win1_2.stage (cfg1.slots ⟨0, hn⟩ 2)) (hstage1_2 ((cfg1.slots ⟨0, hn⟩ 2).cast nbuf1_2)) (win1_3.stage (cfg1.slots ⟨0, hn⟩ 3)) (hstage1_3 ((cfg1.slots ⟨0, hn⟩ 3).cast nbuf1_3)) (win1_4.stage (cfg1.slots ⟨0, hn⟩ 4)) (hstage1_4 ((cfg1.slots ⟨0, hn⟩ 4).cast nbuf1_4)) accM (Memref.isWhole_whole _) ((hFirst ⟨0, hn⟩).mpr (Nat.zero_mod _)) (fun h => (fun h => by (try dsimp only at h); omega) ((hLast ⟨0, hn⟩).mp h)) (blk V c 0 ⟨0, hn⟩) (blk V c 1 ⟨0, hn⟩) (blk V c 2 ⟨0, hn⟩) (blk V c 3 ⟨0, hn⟩))
  | n + 1, hn =>
    if h0 : (n + 1) % 4 = 0 then
      if h1 : (n + 1) % 4 = 3 then
        False.elim (by omega)
      else
        (idleOut (F := F),
          accFirst c (grid1.coords ⟨n + 1, hn⟩) (win1_0.stage (cfg1.slots ⟨n + 1, hn⟩ 0)) (hstage1_0 ((cfg1.slots ⟨n + 1, hn⟩ 0).cast nbuf1_0)) (win1_1.stage (cfg1.slots ⟨n + 1, hn⟩ 1)) (hstage1_1 ((cfg1.slots ⟨n + 1, hn⟩ 1).cast nbuf1_1)) (win1_2.stage (cfg1.slots ⟨n + 1, hn⟩ 2)) (hstage1_2 ((cfg1.slots ⟨n + 1, hn⟩ 2).cast nbuf1_2)) (win1_3.stage (cfg1.slots ⟨n + 1, hn⟩ 3)) (hstage1_3 ((cfg1.slots ⟨n + 1, hn⟩ 3).cast nbuf1_3)) (win1_4.stage (cfg1.slots ⟨n + 1, hn⟩ 4)) (hstage1_4 ((cfg1.slots ⟨n + 1, hn⟩ 4).cast nbuf1_4)) accM (Memref.isWhole_whole _) ((hFirst ⟨n + 1, hn⟩).mpr h0) (fun h => h1 ((hLast ⟨n + 1, hn⟩).mp h)) (blk V c 0 ⟨n + 1, hn⟩) (blk V c 1 ⟨n + 1, hn⟩) (blk V c 2 ⟨n + 1, hn⟩) (blk V c 3 ⟨n + 1, hn⟩))
    else
      if h1 : (n + 1) % 4 = 3 then
        (outLast c (grid1.coords ⟨n + 1, hn⟩) (win1_0.stage (cfg1.slots ⟨n + 1, hn⟩ 0)) (hstage1_0 ((cfg1.slots ⟨n + 1, hn⟩ 0).cast nbuf1_0)) (win1_1.stage (cfg1.slots ⟨n + 1, hn⟩ 1)) (hstage1_1 ((cfg1.slots ⟨n + 1, hn⟩ 1).cast nbuf1_1)) (win1_2.stage (cfg1.slots ⟨n + 1, hn⟩ 2)) (hstage1_2 ((cfg1.slots ⟨n + 1, hn⟩ 2).cast nbuf1_2)) (win1_3.stage (cfg1.slots ⟨n + 1, hn⟩ 3)) (hstage1_3 ((cfg1.slots ⟨n + 1, hn⟩ 3).cast nbuf1_3)) (win1_4.stage (cfg1.slots ⟨n + 1, hn⟩ 4)) (hstage1_4 ((cfg1.slots ⟨n + 1, hn⟩ 4).cast nbuf1_4)) accM (Memref.isWhole_whole _) (fun h => h0 ((hFirst ⟨n + 1, hn⟩).mp h)) ((hLast ⟨n + 1, hn⟩).mpr h1) (blk V c 0 ⟨n + 1, hn⟩) (blk V c 1 ⟨n + 1, hn⟩) (blk V c 2 ⟨n + 1, hn⟩) (blk V c 3 ⟨n + 1, hn⟩) (outsAt c n (Nat.lt_of_succ_lt hn)).2,
          accLast c (grid1.coords ⟨n + 1, hn⟩) (win1_0.stage (cfg1.slots ⟨n + 1, hn⟩ 0)) (hstage1_0 ((cfg1.slots ⟨n + 1, hn⟩ 0).cast nbuf1_0)) (win1_1.stage (cfg1.slots ⟨n + 1, hn⟩ 1)) (hstage1_1 ((cfg1.slots ⟨n + 1, hn⟩ 1).cast nbuf1_1)) (win1_2.stage (cfg1.slots ⟨n + 1, hn⟩ 2)) (hstage1_2 ((cfg1.slots ⟨n + 1, hn⟩ 2).cast nbuf1_2)) (win1_3.stage (cfg1.slots ⟨n + 1, hn⟩ 3)) (hstage1_3 ((cfg1.slots ⟨n + 1, hn⟩ 3).cast nbuf1_3)) (win1_4.stage (cfg1.slots ⟨n + 1, hn⟩ 4)) (hstage1_4 ((cfg1.slots ⟨n + 1, hn⟩ 4).cast nbuf1_4)) accM (Memref.isWhole_whole _) (fun h => h0 ((hFirst ⟨n + 1, hn⟩).mp h)) ((hLast ⟨n + 1, hn⟩).mpr h1) (blk V c 0 ⟨n + 1, hn⟩) (blk V c 1 ⟨n + 1, hn⟩) (blk V c 2 ⟨n + 1, hn⟩) (blk V c 3 ⟨n + 1, hn⟩) (outsAt c n (Nat.lt_of_succ_lt hn)).2)
      else
        (idleOut (F := F),
          accMid c (grid1.coords ⟨n + 1, hn⟩) (win1_0.stage (cfg1.slots ⟨n + 1, hn⟩ 0)) (hstage1_0 ((cfg1.slots ⟨n + 1, hn⟩ 0).cast nbuf1_0)) (win1_1.stage (cfg1.slots ⟨n + 1, hn⟩ 1)) (hstage1_1 ((cfg1.slots ⟨n + 1, hn⟩ 1).cast nbuf1_1)) (win1_2.stage (cfg1.slots ⟨n + 1, hn⟩ 2)) (hstage1_2 ((cfg1.slots ⟨n + 1, hn⟩ 2).cast nbuf1_2)) (win1_3.stage (cfg1.slots ⟨n + 1, hn⟩ 3)) (hstage1_3 ((cfg1.slots ⟨n + 1, hn⟩ 3).cast nbuf1_3)) (win1_4.stage (cfg1.slots ⟨n + 1, hn⟩ 4)) (hstage1_4 ((cfg1.slots ⟨n + 1, hn⟩ 4).cast nbuf1_4)) accM (Memref.isWhole_whole _) (fun h => h0 ((hFirst ⟨n + 1, hn⟩).mp h)) (fun h => h1 ((hLast ⟨n + 1, hn⟩).mp h)) (blk V c 0 ⟨n + 1, hn⟩) (blk V c 1 ⟨n + 1, hn⟩) (blk V c 2 ⟨n + 1, hn⟩) (blk V c 3 ⟨n + 1, hn⟩) (outsAt c n (Nat.lt_of_succ_lt hn)).2)

theorem outsAt_first (c : Dev nD) (t : Fin cfg1.N) (h0 : t.val % 4 = 0) (h1 : ¬t.val % 4 = 3) :
    outsAt V c t.val t.isLt = (idleOut (F := F), accFirst c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) accM (Memref.isWhole_whole _) ((hFirst t).mpr h0) (fun h => h1 ((hLast t).mp h)) (blk V c 0 t) (blk V c 1 t) (blk V c 2 t) (blk V c 3 t)) := by
  obtain ⟨n, hn⟩ := t
  cases n with
  | zero => exact rfl
  | succ n => exact (dif_pos h0).trans ((dif_neg h1).trans rfl)

theorem outsAt_mid (c : Dev nD) (t : Fin cfg1.N) (h0 : ¬t.val % 4 = 0) (h1 : ¬t.val % 4 = 3) :
    outsAt V c t.val t.isLt = (idleOut (F := F), accMid c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) accM (Memref.isWhole_whole _) (fun h => h0 ((hFirst t).mp h)) (fun h => h1 ((hLast t).mp h)) (blk V c 0 t) (blk V c 1 t) (blk V c 2 t) (blk V c 3 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg1.N) (h0 : ¬t.val % 4 = 0) (h1 : t.val % 4 = 3) :
    outsAt V c t.val t.isLt = (outLast c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) accM (Memref.isWhole_whole _) (fun h => h0 ((hFirst t).mp h)) ((hLast t).mpr h1) (blk V c 0 t) (blk V c 1 t) (blk V c 2 t) (blk V c 3 t) (outsAt V c (t.val - 1) (Nat.lt_of_le_of_lt (Nat.sub_le _ _) t.isLt)).2,
      accLast c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) accM (Memref.isWhole_whole _) (fun h => h0 ((hFirst t).mp h)) ((hLast t).mpr h1) (blk V c 0 t) (blk V c 1 t) (blk V c 2 t) (blk V c 3 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position n: at the start what the launch hands over; afterwards the accumulator at what the point before left,
    the other scoped buffers, and the generator register. -/
def PhiS (c : Dev nD) : (n : ℕ) → n ≤ cfg1.N → sProp 𝕄
  | 0, _ => Pipeline.ΦA spec1 c
  | n + 1, hn => iprop(owns (c : Thread nD τ) accM fullShare ((outsAt V c n hn).2) ∗ others (F := F) c ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(owns (c : Thread nD τ) accM fullShare ((outsAt V c n hn).2) ∗ others (F := F) c ∗ (∃ r, prngReg c r)) := rfl
theorem PhiS_pos (c : Dev nD) (n : ℕ) (h : n ≤ cfg1.N) (hz : n ≠ 0) :
    PhiS V c n h = iprop(owns (c : Thread nD τ) accM fullShare ((outsAt V c (n - 1) (by omega)).2) ∗ others (F := F) c ∗ (∃ r, prngReg c r)) := by
  cases n with
  | zero => exact absurd rfl hz
  | succ n => rfl

/-! ## The proof data -/

def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem PhiS_castSucc (c : Dev nD) (t : Fin cfg1.N) :
    (dat V c).Φ t.castSucc = PhiS V c t.val (Nat.le_of_lt t.isLt) := by
  dsimp only [dat]; simp only [Fin.coe_castSucc]
theorem after_x (c : Dev nD) (t : Fin cfg1.N) : (dat V c).after 0 t = blk V c 0 t := by dsimp only [dat]
theorem after_w (c : Dev nD) (t : Fin cfg1.N) : (dat V c).after 1 t = blk V c 1 t := by dsimp only [dat]
theorem after_bias (c : Dev nD) (t : Fin cfg1.N) : (dat V c).after 2 t = blk V c 2 t := by dsimp only [dat]
theorem after_resid (c : Dev nD) (t : Fin cfg1.N) : (dat V c).after 3 t = blk V c 3 t := by dsimp only [dat]
theorem after_out (c : Dev nD) (t : Fin cfg1.N) : (dat V c).after 4 t = (outsAt V c t.val t.isLt).1 := by dsimp only [dat]
theorem before_x (c : Dev nD) (t : Fin cfg1.N) (d) : (dat V c).before 0 t d = blk V c 0 t :=
  before_x_of V (dat V c) (A_eq V c 0) (after_x V c) t d
theorem before_w (c : Dev nD) (t : Fin cfg1.N) (d) : (dat V c).before 1 t d = blk V c 1 t :=
  before_w_of V (dat V c) (A_eq V c 1) (after_w V c) t d
theorem before_bias (c : Dev nD) (t : Fin cfg1.N) (d) : (dat V c).before 2 t d = blk V c 2 t :=
  before_bias_of V (dat V c) (A_eq V c 2) (after_bias V c) t d
theorem before_resid (c : Dev nD) (t : Fin cfg1.N) (d) : (dat V c).before 3 t d = blk V c 3 t :=
  before_resid_of V (dat V c) (A_eq V c 3) (after_resid V c) t d

/-! ## The body obligation -/

/-- What the launch hands the region, split into the accumulator's scratch, the other scoped buffers and the generator
    register; and back. -/
theorem PhiA_split (c : Dev nD) :
    (Pipeline.ΦA spec1 c : sProp 𝕄) ⊢ iprop((∃ d, owns (c : Thread nD τ) accM fullShare d) ∗ others (F := F) c ∗ (∃ r, prngReg c r)) := by
  rw [PhiA_eq]
  iintro ⟨⟨O1, O2, O3, O4, O5, O6, O7, O8, HS⟩, Hg⟩
  isplitl [HS]; · iexact HS
  isplitr [Hg]
  · isplitl [O1]; · iexact O1
    isplitl [O2]; · iexact O2
    isplitl [O3]; · iexact O3
    isplitl [O4]; · iexact O4
    isplitl [O5]; · iexact O5
    isplitl [O6]; · iexact O6
    isplitl [O7]; · iexact O7
    iexact O8
  iexact Hg
theorem PhiA_join (c : Dev nD) :
    iprop((∃ d, owns (c : Thread nD τ) accM fullShare d) ∗ others (F := F) c ∗ (∃ r, prngReg c r)) ⊢ (Pipeline.ΦA spec1 c : sProp 𝕄) := by
  rw [PhiA_eq]
  iintro ⟨HS, ⟨O1, O2, O3, O4, O5, O6, O7, O8⟩, Hg⟩
  isplitr [Hg]
  · isplitl [O1]; · iexact O1
    isplitl [O2]; · iexact O2
    isplitl [O3]; · iexact O3
    isplitl [O4]; · iexact O4
    isplitl [O5]; · iexact O5
    isplitl [O6]; · iexact O6
    isplitl [O7]; · iexact O7
    isplitl [O8]; · iexact O8
    iexact HS
  iexact Hg

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d)))

def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t
    ∗ (dat V c).leavesExact 4 t)

set_option maxHeartbeats 4800000 in
/-- The body at any point: the inputs' buffers hold their tiles; the K step says which case the point is in; the
    invariant hands the body the accumulator at what the point before left (at anything at the first point) and takes
    it back at this point's; off the last K step the output tile's buffer is handed back as found. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_x, before_w, before_bias, before_resid]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg1.N = 64 from N_1)
  rw [show (dat V c).leavesExact 0 t = owns (c : Thread nD τ) (st1_0 t) fullShare ((dat V c).after 0 t) from by
    unfold Dat.leavesExact; rw [live_x t], after_x]
  rw [show (dat V c).leavesExact 1 t = owns (c : Thread nD τ) (st1_1 t) fullShare ((dat V c).after 1 t) from by
    unfold Dat.leavesExact; rw [live_w t], after_w]
  rw [show (dat V c).leavesExact 2 t = owns (c : Thread nD τ) (st1_2 t) fullShare ((dat V c).after 2 t) from by
    unfold Dat.leavesExact; rw [live_bias t], after_bias]
  rw [show (dat V c).leavesExact 3 t = owns (c : Thread nD τ) (st1_3 t) fullShare ((dat V c).after 3 t) from by
    unfold Dat.leavesExact; rw [live_resid t], after_resid]
  by_cases h0 : t.val % 4 = 0
  · have h1 : ¬t.val % 4 = 3 := by omega
    rw [Dat.leavesExact_idle (dat V c) 4 t (idle_out t (fun h => h1 ((hLast t).mp h))) (noFlush_out t (fun h => h1 ((hLast t).mp h)))]
    rw [outsAt_first V c t h0 h1]
    unfold accFirst; (try dsimp only)
    by_cases hz : t.val = 0
    · rw [PhiS_castSucc V c t, PhiS_zero V c _ _ hz]
      iintro ⟨Hphi, Ho, ⟨%d0, H0⟩, ⟨%d1, H1⟩, ⟨%d2, H2⟩, ⟨%d3, H3⟩, ⟨%d4, H4⟩⟩
      ihave Hsp := (PhiA_split (F := F) c) $$ Hphi
      icases Hsp with ⟨HS, HO, Hg⟩
      iapply ((runFirst c (grid1.coords t) _ _ _ _ _ _ _ _ _ _ _ _ ((hFirst t).mpr h0) (fun h => h1 ((hLast t).mp h)) (blk V c 0 t) (blk V c 1 t) (blk V c 2 t) (blk V c 3 t)).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS HO Hg]
      · isplitl [HS]
        · unfold owns; iexists _; isplitr
          swap; · iexact HS
          ipureintro; exact View.read_writes_of_cover _ _ _ _ _ (cover_first c _ _ _ _ _ _ _ _ _ _ _ _ _ _ _ _ _ _ _)
        isplitl [HO]; · iexact HO
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨HS, HO, Hg⟩, Ho, ⟨%d0, H0⟩, ⟨%d1, H1⟩, ⟨%d2, H2⟩, ⟨%d3, H3⟩, ⟨%d4, H4⟩⟩
      iapply ((runFirst c (grid1.coords t) _ _ _ _ _ _ _ _ _ _ _ _ ((hFirst t).mpr h0) (fun h => h1 ((hLast t).mp h)) (blk V c 0 t) (blk V c 1 t) (blk V c 2 t) (blk V c 3 t)).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS HO Hg]
      · isplitl [HS]
        · unfold owns; iexists _; isplitr
          swap; · iexact HS
          ipureintro; exact View.read_writes_of_cover _ _ _ _ _ (cover_first c _ _ _ _ _ _ _ _ _ _ _ _ _ _ _ _ _ _ _)
        isplitl [HO]; · iexact HO
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 4 = 3
    · rw [show (dat V c).leavesExact 4 t = owns (c : Thread nD τ) (st1_4 t) fullShare ((dat V c).after 4 t) from by
        unfold Dat.leavesExact; rw [live_out t ((hLast t).mpr h1)], after_out]
      rw [outsAt_last V c t h0 h1]
      unfold outLast accLast; (try dsimp only)
      rw [PhiS_castSucc V c t, PhiS_pos V c _ _ hz]
      iintro ⟨⟨HS, HO, Hg⟩, Ho, ⟨%d0, H0⟩, ⟨%d1, H1⟩, ⟨%d2, H2⟩, ⟨%d3, H3⟩, ⟨%d4, H4⟩⟩
      iapply ((runLast c (grid1.coords t) _ _ _ _ _ _ _ _ _ _ _ _ (fun h => h0 ((hFirst t).mp h)) ((hLast t).mpr h1) (blk V c 0 t) (blk V c 1 t) (blk V c 2 t) (blk V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS HO Hg]
      · isplitl [HS]
        · unfold owns; iexists _; isplitr
          swap; · iexact HS
          ipureintro; exact View.read_writes_of_cover _ _ _ _ _ (cover_last_acc c _ _ _ _ _ _ _ _ _ _ _ _ _ _ _ _ _ _ _ _)
        isplitl [HO]; · iexact HO
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover_last_out c _ _ _ _ _ _ _ _ _ _ _ _ _ _ _ _ _ _ _ _)
    · rw [Dat.leavesExact_idle (dat V c) 4 t (idle_out t (fun h => h1 ((hLast t).mp h))) (noFlush_out t (fun h => h1 ((hLast t).mp h)))]
      rw [outsAt_mid V c t h0 h1]
      unfold accMid; (try dsimp only)
      rw [PhiS_castSucc V c t, PhiS_pos V c _ _ hz]
      iintro ⟨⟨HS, HO, Hg⟩, Ho, ⟨%d0, H0⟩, ⟨%d1, H1⟩, ⟨%d2, H2⟩, ⟨%d3, H3⟩, ⟨%d4, H4⟩⟩
      iapply ((runMid c (grid1.coords t) _ _ _ _ _ _ _ _ _ _ _ _ (fun h => h0 ((hFirst t).mp h)) (fun h => h1 ((hLast t).mp h)) (blk V c 0 t) (blk V c 1 t) (blk V c 2 t) (blk V c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS HO Hg]
      · isplitl [HS]
        · unfold owns; iexists _; isplitr
          swap; · iexact HS
          ipureintro; exact View.read_writes_of_cover _ _ _ _ _ (cover_mid c _ _ _ _ _ _ _ _ _ _ _ _ _ _ _ _ _ _ _ _)
        isplitl [HO]; · iexact HO
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point, -/
theorem hin (c : Dev nD) : (Pipeline.ΦA spec1 c : sProp 𝕄) ⊢ (dat V c).Φ 0 := by
  rw [show (dat V c).Φ 0 = PhiS V c 0 (Nat.zero_le _) from rfl, PhiS_zero V c 0 _ rfl]
  try exact Idealize.SL.BI.Entails.refl _

/-- and after the last point the invariant gives it back: the accumulator's contents are forgotten. -/
theorem hout (c : Dev nD) : (dat V c).Φ (Fin.last cfg1.N) ⊢ (Pipeline.ΦA spec1 c : sProp 𝕄) := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 64 := N_1; omega)]
  iintro ⟨HS, HO, Hg⟩
  iapply (PhiA_join (F := F) c)
  isplitl [HS]; · iexists _; iexact HS
  isplitl [HO]; · iexact HO
  iexact Hg

end Cert.KernelIdeal.Mm

end
-- ==== Proof.Launch.lean ====
/-
  The whole program run.  @main is: forty host operations (reshapes, the zero points unpacked, the two row lookups, the
  offsets), the first pallas_call, one host conversion of x, the second pallas_call, one host reshape.  Between two
  items every unscoped buffer of the core is held at named contents: the launch memory, then each host stretch applied,
  then, after a pallas_call, its result array at what its write-backs leave and everything else as before.  Here those
  contents are named, each pipeline's proof data is taken at its region's entry contents, each region is entered by
  splitting its arrays out of the unscoped buffers and left by putting them back, and the launch theorem is called:
  every weakly fair execution terminates with every unscoped buffer at the last contents.
-/
import proofs.«430967_j87247965651012_2_alg».proof.Proof.RunCond
import proofs.«430967_j87247965651012_2_alg».proof.Proof.DeqBody
import proofs.«430967_j87247965651012_2_alg».proof.Proof.MmBody

set_option maxRecDepth 16384

noncomputable section

namespace Cert.KernelIdeal.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents between items -/

/-- What the first pallas_call is entered from: the launch memory after the forty host operations, -/
abbrev In0W (c : Dev nD) : Valuation τ sig (Elt F) := V1 m c
abbrev In0 (c : Dev nD) (b : Ref sig .tc) : Buf (Elt F) ((c : Thread nD τ).loc b) := In0W m c b

/-- and the dense weight it leaves. -/
def dense (c : Dev nD) : Buf (Elt F) ((c : Thread nD τ).loc main_call0_v33) := (Deq.dat (In0 m) c).arrAt 3 cfg0.N

/-- The regions' results with only the first one named (what the second region's entry contents are made of). -/
def outsA : Outs (F := F) := fun _ r c =>
  if h : r = main_call0_v33 then (by subst h; exact dense m c) else m ((c : Thread nD τ).loc r)
theorem outsA_dense (c : Dev nD) : outsA m 2 main_call0_v33 c = dense m c := by
  unfold outsA; rw [dif_pos rfl]

/-- What the second pallas_call is entered from, -/
abbrev In1W (c : Dev nD) : Valuation τ sig (Elt F) := V3 m (outsA m) c
abbrev In1 (c : Dev nD) (b : Ref sig .tc) : Buf (Elt F) ((c : Thread nD τ).loc b) := In1W m c b

/-- and the result it leaves. -/
def result (c : Dev nD) : Buf (Elt F) ((c : Thread nD τ).loc main_call0_v35) := (Mm.dat (In1 m) c).arrAt 4 cfg1.N

/-- The regions' results, both named. -/
def outs : Outs (F := F) := fun _ r c =>
  if h : r = main_call0_v33 then (by subst h; exact dense m c)
  else if h' : r = main_call0_v35 then (by subst h'; exact result m c) else m ((c : Thread nD τ).loc r)
theorem outs_dense (c : Dev nD) : outs m 2 main_call0_v33 c = dense m c := by
  unfold outs; rw [dif_pos rfl]
theorem outs_result (c : Dev nD) : outs m 4 main_call0_v35 c = result m c := by
  unfold outs; rw [dif_neg (by decide), dif_pos rfl]

/-- The contents after the first region do not depend on how the second result is named. -/
theorem V2_outs (c : Dev nD) : V2 m (outs m) c = V2 m (outsA m) c := by
  show Function.update (V1 m c) _ (outs m 2 main_call0_v33 c) = Function.update (V1 m c) _ (outsA m 2 main_call0_v33 c)
  rw [outs_dense, outsA_dense]
theorem V3_outs (c : Dev nD) : V3 m (outs m) c = V3 m (outsA m) c := by
  show StableHlo.after hostOps1 (V2 m (outs m) c) = StableHlo.after hostOps1 (V2 m (outsA m) c)
  rw [V2_outs]

/-- The contents after each region, as functions of the reference. -/
abbrev Out0W (c : Dev nD) : Valuation τ sig (Elt F) := V2 m (outsA m) c
abbrev Out0 (c : Dev nD) (b : Ref sig .tc) : Buf (Elt F) ((c : Thread nD τ).loc b) := Out0W m c b
abbrev Out1W (c : Dev nD) : Valuation τ sig (Elt F) := Function.update (V3 m (outsA m) c) main_call0_v35 (result m c)
abbrev Out1 (c : Dev nD) (b : Ref sig .tc) : Buf (Elt F) ((c : Thread nD τ).loc b) := Out1W m c b

theorem V4_outs (c : Dev nD) : V4 m (outs m) c = Out1W m c := by
  show Function.update (V3 m (outs m) c) _ (outs m 4 main_call0_v35 c) = Function.update (V3 m (outsA m) c) _ (result m c)
  rw [V3_outs, outs_result]

/-- After the first region the dense weight's buffer holds what the pipeline leaves, -/
theorem Out0_dense (c : Dev nD) : Out0 m c main_call0_v33 = dense m c := by
  show Function.update (V1 m c) (Proc.devRef .tc main_call0_v33) (outsA m 2 main_call0_v33 c) (Proc.devRef .tc main_call0_v33) = _
  rw [Function.update_self, outsA_dense]
/-- each of its arrays holds what the pipeline leaves, every other buffer what it held. -/
theorem hF0 (c : Dev nD) (w : Fin cfg0.W) : (Deq.dat (In0 m) c).arrAt w cfg0.N = Out0 m c (Pipeline.arrRef spec0 w) := by
  fin_cases w
  · exact ((Deq.dat (In0 m) c).arrAt_in 0 rfl _).trans ((Deq.A_eq (In0 m) c 0).trans (V2_of m (outsA m) c main_arg1 (by decide)).symm)
  · exact ((Deq.dat (In0 m) c).arrAt_in 1 rfl _).trans ((Deq.A_eq (In0 m) c 1).trans (V2_of m (outsA m) c main_call0_v23 (by decide)).symm)
  · exact ((Deq.dat (In0 m) c).arrAt_in 2 rfl _).trans ((Deq.A_eq (In0 m) c 2).trans (V2_of m (outsA m) c main_call0_v32 (by decide)).symm)
  · exact (Out0_dense m c).symm
theorem hrest0 (c : Dev nD) : ∀ b, b ∉ Finset.univ.image (Pipeline.arrRef spec0) → Out0 m c b = In0 m c b :=
  fun b hb => V2_of m (outsA m) c b (fun h => hb (by
    rw [List.mem_singleton] at h; subst h; exact Finset.mem_image.mpr ⟨3, Finset.mem_univ _, rfl⟩))

/-- The same for the second region. -/
theorem Out1_ne (c : Dev nD) (r : Ref sig .tc) (hr : r ≠ main_call0_v35) : Out1 m c r = In1 m c r :=
  Function.update_of_ne (StableHlo.devRef_ne_of_ne hr : (Proc.devRef .tc r : DevRef τ sig) ≠ Proc.devRef .tc main_call0_v35) _ _
theorem Out1_result (c : Dev nD) : Out1 m c main_call0_v35 = result m c := by
  show Function.update (V3 m (outsA m) c) (Proc.devRef .tc main_call0_v35) (result m c) (Proc.devRef .tc main_call0_v35) = _
  rw [Function.update_self]
theorem hF1 (c : Dev nD) (w : Fin cfg1.W) : (Mm.dat (In1 m) c).arrAt w cfg1.N = Out1 m c (Pipeline.arrRef spec1 w) := by
  fin_cases w
  · exact ((Mm.dat (In1 m) c).arrAt_in 0 rfl _).trans ((Mm.A_eq (In1 m) c 0).trans (Out1_ne m c main_call0_v34 (by decide)).symm)
  · exact ((Mm.dat (In1 m) c).arrAt_in 1 rfl _).trans ((Mm.A_eq (In1 m) c 1).trans (Out1_ne m c main_call0_v33 (by decide)).symm)
  · exact ((Mm.dat (In1 m) c).arrAt_in 2 rfl _).trans ((Mm.A_eq (In1 m) c 2).trans (Out1_ne m c main_call0_v2 (by decide)).symm)
  · exact ((Mm.dat (In1 m) c).arrAt_in 3 rfl _).trans ((Mm.A_eq (In1 m) c 3).trans (Out1_ne m c main_call0_v1 (by decide)).symm)
  · exact (Out1_result m c).symm
theorem hrest1 (c : Dev nD) : ∀ b, b ∉ Finset.univ.image (Pipeline.arrRef spec1) → Out1 m c b = In1 m c b :=
  fun b hb => Out1_ne m c b (fun h => hb (by
    subst h; exact Finset.mem_image.mpr ⟨4, Finset.mem_univ _, rfl⟩))

/-! ## The proof data and the thread state -/

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => Deq.dat (In0 m) c
  | ⟨1, _⟩ => fun c => Mm.dat (In1 m) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state and the core's dues, none. -/
abbrev R (c : Dev nD) : sProp 𝕄 := iprop((∃ r, prngReg c r) ∗ ∃ W, owes (c : Thread nD τ) (0 : CellTallies nD τ sig Unit) W)

/-! ## The regions -/

-- a library lemma stated over the pinned configuration unifies with the printed one only when unification may unfold
-- plain definitions in a metavariable's type
set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Deq.body_obligation (In0 m) c).loose
  hwaits := Pipeline.hwaits_of_owed_zero _ _ _ _ L lv 0 fun _ _ => rfl
  pre c := iprop(StableHlo.held (c : Thread nD τ) (Pipeline.ucRefs τ sig) (In0W m c) ∗ R (F := F) c)
  post c := iprop(StableHlo.held (c : Thread nD τ) (Pipeline.ucRefs τ sig) (Out0W m c) ∗ R (F := F) c)
  X c := iprop(∃ r, prngReg c r)
  Y c := iprop(∃ r, prngReg c r)
  Z c := Pipeline.unscopedRest (Ix := Unit) (Name := ℕ) (U := UR sig nD τ) (Lvl := ℕ) spec0 c (In0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (In0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (In0 m c) (Out0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Mm.body_obligation (In1 m) c).loose
  hwaits := Pipeline.hwaits_of_owed_zero _ _ _ _ L lv 1 fun _ _ => rfl
  pre c := iprop(StableHlo.held (c : Thread nD τ) (Pipeline.ucRefs τ sig) (In1W m c) ∗ R (F := F) c)
  post c := iprop(StableHlo.held (c : Thread nD τ) (Pipeline.ucRefs τ sig) (Out1W m c) ∗ R (F := F) c)
  X c := iprop(∃ r, prngReg c r)
  Y c := iprop(∃ r, prngReg c r)
  Z c := Pipeline.unscopedRest (Ix := Unit) (Name := ℕ) (U := UR sig nD τ) (Lvl := ℕ) spec1 c (In1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (In1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    exact (Mm.hout (In1 m) c).trans (by
      unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (In1 m c) (Out1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- Every weakly fair execution of @main from memory m with zero counters terminates, nothing faulting, and every
    unscoped buffer ends at the last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V5 m (outs m) c b) :=
  run_cond m emb₁ () 𝒱₀ L lv (fun _ _ => rfl) ρ (outs m) (pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R (F := F) c)
    (hE0 := by
      have hc : ∀ c : Dev nD, (iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp)) : sProp 𝕄) ⊢ R (F := F) c := fun c => by
        iintro ⟨-, HO, -, Hp, -⟩
        isplitl [Hp]; · iexists _; iexact Hp
        iexists ∅; iexact HO
      have hmono : (bigSep Finset.univ (fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp))) : sProp 𝕄)
          ⊢ bigSep Finset.univ (fun c : Dev nD => R (F := F) c) :=
        bigSep_mono fun c _ => hc c
      iintro ⟨H, -⟩
      imodintro
      iapply hmono
      iexact H)
    (hE2 := fun c => by iintro ⟨-, HO⟩; iexact HO)
    (reg0 m) (fun c => by rw [show V1 m c = In0W m c from rfl]; exact .rfl) (fun c => by rw [V2_outs]; exact .rfl)
    (reg1 m) (fun c => by rw [V3_outs]; exact .rfl) (fun c => by rw [V4_outs]; exact .rfl)

/-- An unscoped reference of the core is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The run read at the result and at the arguments: the result buffer ends at the last contents, every argument as
    launched (no host operation writes one and no region may change one). -/
theorem run_result : θ_run defs (onTc (τ := τ) (main (F := F))) ⟨m, fun _ => 0, ρ⟩ (fun r => ∀ c : Dev nD,
      r.2.mem ((c.tc : Thread nD τ).loc main_v0) = V5 m (outs m) c main_v0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨h c _ (mem_uc main_v0 (by decide)),
      (h c _ (mem_uc main_arg0 (by decide))).trans (V5_main_arg0 m (outs m) c),
      (h c _ (mem_uc main_arg1 (by decide))).trans (V5_main_arg1 m (outs m) c),
      (h c _ (mem_uc main_arg2 (by decide))).trans (V5_main_arg2 m (outs m) c),
      (h c _ (mem_uc main_arg3 (by decide))).trans (V5_main_arg3 m (outs m) c),
      (h c _ (mem_uc main_arg4 (by decide))).trans (V5_main_arg4 m (outs m) c),
      (h c _ (mem_uc main_arg5 (by decide))).trans (V5_main_arg5 m (outs m) c),
      (h c _ (mem_uc main_arg6 (by decide))).trans (V5_main_arg6 m (outs m) c)⟩) (run_all m ρ)

/-- The frame: the program runs to the end, faults nowhere, and leaves its arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => (h c).2) (run_result m ρ)

end Cert.KernelIdeal.Launch

end
-- ==== Proof.DeqValue.lean ====
/-
  What the first pallas_call leaves in the dense weight, entry by entry.  Point t = (kb, jb) writes tile (kb, jb) of the
  [4096, 4096] result; inside the tile, row r = 8a + j holds nibble j of packed row a of the tile, so entry (K, n) of the
  whole array, K = 1024 kb + r, holds  float(nibble (K mod 8) of packed word (K / 8, n)) * a(K, n) + b(K, n):  the same
  nibble the reference's unpacking reads.  The sixteen tiles cover the array.
-/
import proofs.«430967_j87247965651012_2_alg».proof.Proof.DeqBody
import proofs.«430967_j87247965651012_2_alg».proof.Proof.Gen.ReferenceIdeal.Read
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Deq

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Idealize.ShloMosaic.ValueIdx

/-- The shift of nibble j: four times j, as the body computes it from its iota. -/
theorem shiftOf_apply (j : Fin 8) :
    (muli (shapeCast S8 (iota .tc S1x8 32 [1] Facts₀.iota_S1x8_d1_w32) Facts₀.shapeCasts_S1x8_S8) (broadcast S8 4#32) : IVec S8 32) (ix1 j)
      = IntOp.muli (BitVec.ofNat 32 j.val) 4#32 := by
  show IntOp.muli (shapeCast S8 (iota .tc S1x8 32 [1] Facts₀.iota_S1x8_d1_w32) Facts₀.shapeCasts_S1x8_S8 (ix1 j)) 4#32 = _
  refine congrArg (fun z => IntOp.muli z 4#32) ?_
  refine (shapeCast_apply _ Facts₀.shapeCasts_S1x8_S8 (ix1 j) (ix2 (0 : Fin 1) j) ?_).trans ?_
  · rw [Shape.rowMajor_val_two, Shape.rowMajor_val_one]
    show 0 * 8 + j.val = j.val
    omega
  · exact iota_single_apply .tc S1x8 32 1 _ _

/-- The shifts laid along the middle axis of [128, 8, 1024]: entry (a, j, e) is the shift of nibble j. -/
theorem shiftCube_apply (s : IVec S8 32) (a : Fin 128) (j : Fin 8) (e : Fin 1024) :
    (broadcastTo S128x8x1024 (shapeCast S1x8x1 s Facts₀.shapeCasts_S8_S1x8x1) Facts₀.broadcasts_S1x8x1_S128x8x1024 : IVec S128x8x1024 32) (ix3 a j e)
      = s (ix1 j) := by
  refine (broadcastTo_apply _ Facts₀.broadcasts_S1x8x1_S128x8x1024 (ix3 a j e) (ix3 (0 : Fin 1) j (0 : Fin 1)) (fun ax => ?_)).trans ?_
  · match ax with
    | ⟨0, _⟩ => show 0 = if (1 : Nat) = 1 then 0 else a.val; rw [if_pos rfl]
    | ⟨1, _⟩ => show j.val = if (8 : Nat) = 1 then 0 else j.val; rw [if_neg (by decide)]
    | ⟨2, _⟩ => show 0 = if (1 : Nat) = 1 then 0 else e.val; rw [if_pos rfl]
  · refine shapeCast_apply _ Facts₀.shapeCasts_S8_S1x8x1 (ix3 (0 : Fin 1) j (0 : Fin 1)) (ix1 j) ?_
    rw [Shape.rowMajor_val_three, Shape.rowMajor_val_one]
    show j.val = (0 * 8 + j.val) * 1 + 0
    omega

/-- The packed tile laid along the middle axis of [128, 8, 1024]: entry (a, j, e) is packed word (a, e). -/
theorem wordCube_apply (x0 : IVec S128x1024 32) (a : Fin 128) (j : Fin 8) (e : Fin 1024) :
    (broadcastTo S128x8x1024 (shapeCast S128x1x1024 x0 Facts₀.shapeCasts_S128x1024_S128x1x1024) Facts₀.broadcasts_S128x1x1024_S128x8x1024 : IVec S128x8x1024 32) (ix3 a j e)
      = x0 (ix2 a e) := by
  refine (broadcastTo_apply _ Facts₀.broadcasts_S128x1x1024_S128x8x1024 (ix3 a j e) (ix3 a (0 : Fin 1) e) (fun ax => ?_)).trans ?_
  · match ax with
    | ⟨0, _⟩ => show a.val = if (128 : Nat) = 1 then 0 else a.val; rw [if_neg (by decide)]
    | ⟨1, _⟩ => show 0 = if (1 : Nat) = 1 then 0 else j.val; rw [if_pos rfl]
    | ⟨2, _⟩ => show e.val = if (1024 : Nat) = 1 then 0 else e.val; rw [if_neg (by decide)]
  · refine shapeCast_apply _ Facts₀.shapeCasts_S128x1024_S128x1x1024 (ix3 a (0 : Fin 1) e) (ix2 a e) ?_
    rw [Shape.rowMajor_val_three, Shape.rowMajor_val_two]
    show a.val * 1024 + e.val = (a.val * 1 + 0) * 1024 + e.val
    omega

/-- The body's store at (r, e) of the tile: nibble r mod 8 of packed word (r / 8, e), as a float, times the scale plus the
    offset at (r, e). -/
theorem deq_pay_apply (x0 : Vec Ideal S128x1024 .i32) (x1 x2 : Vec Ideal S1024x1024 .f32) (r e : Fin 1024)
    (a : Fin 128) (j : Fin 8) (ha : a.val = r.val / 8) (hj : j.val = r.val % 8) :
    (k0_pay1 x0 x1 x2 : S1024x1024.Idx → EReal) (ix2 r e)
      = FloatOps.sitofp (F := Ideal) .f32 (IntOp.andi (IntOp.shrsi .vector ((x0 : S128x1024.Idx → BitVec 32) (ix2 a e)) (IntOp.muli (BitVec.ofNat 32 j.val) 4#32)) 15#32)
          * (x1 : S1024x1024.Idx → EReal) (ix2 r e) + (x2 : S1024x1024.Idx → EReal) (ix2 r e) := by
  unfold k0_pay1
  show FloatOps.sitofp (F := Ideal) .f32 (shapeCast S1024x1024 (andi (shrsi (broadcastTo S128x8x1024 (shapeCast S128x1x1024 x0 Facts₀.shapeCasts_S128x1024_S128x1x1024) Facts₀.broadcasts_S128x1x1024_S128x8x1024)
        (broadcastTo S128x8x1024 (shapeCast S1x8x1 (muli (shapeCast S8 (iota .tc S1x8 32 [1] Facts₀.iota_S1x8_d1_w32) Facts₀.shapeCasts_S1x8_S8) (broadcast S8 4#32)) Facts₀.shapeCasts_S8_S1x8x1) Facts₀.broadcasts_S1x8x1_S128x8x1024))
        (broadcast S128x8x1024 15#32)) Facts₀.shapeCasts_S128x8x1024_S1024x1024 (ix2 r e))
      * shapeCast S1024x1024 x1 Facts₀.shapeCasts_S1024x1024_S1024x1024 (ix2 r e)
      + shapeCast S1024x1024 x2 Facts₀.shapeCasts_S1024x1024_S1024x1024 (ix2 r e) = _
  rw [shapeCast_self x1, shapeCast_self x2]
  refine congrArg (fun z => FloatOps.sitofp (F := Ideal) .f32 z * (x1 : S1024x1024.Idx → EReal) (ix2 r e) + (x2 : S1024x1024.Idx → EReal) (ix2 r e)) ?_
  refine (shapeCast_apply _ Facts₀.shapeCasts_S128x8x1024_S1024x1024 (ix2 r e) (ix3 a j e) ?_).trans ?_
  · rw [Shape.rowMajor_val_three, Shape.rowMajor_val_two]
    show (a.val * 8 + j.val) * 1024 + e.val = r.val * 1024 + e.val
    omega
  · show IntOp.andi (IntOp.shrsi .vector (broadcastTo S128x8x1024 (shapeCast S128x1x1024 x0 Facts₀.shapeCasts_S128x1024_S128x1x1024) Facts₀.broadcasts_S128x1x1024_S128x8x1024 (ix3 a j e))
        (broadcastTo S128x8x1024 (shapeCast S1x8x1 (muli (shapeCast S8 (iota .tc S1x8 32 [1] Facts₀.iota_S1x8_d1_w32) Facts₀.shapeCasts_S1x8_S8) (broadcast S8 4#32)) Facts₀.shapeCasts_S8_S1x8x1) Facts₀.broadcasts_S1x8x1_S128x8x1024 (ix3 a j e))) 15#32 = _
    rw [wordCube_apply, shiftCube_apply, shiftOf_apply]

/-- A shift by four times a nibble number is below the word's width, so the two units shift alike. -/
theorem shrsi_units (x : BitVec 32) (j : Fin 8) :
    IntOp.shrsi .host x (IntOp.muli (BitVec.ofNat 32 j.val) 4#32) = IntOp.shrsi .vector x (IntOp.muli (BitVec.ofNat 32 j.val) 4#32) := by
  have h : (IntOp.muli (BitVec.ofNat 32 j.val) 4#32).toNat < 32 := by
    fin_cases j <;> decide
  unfold IntOp.shrsi
  rw [if_pos h, if_pos h]

/-- The reference's unpacked weight at (K, n): nibble K mod 8 of packed word (K / 8, n). -/
theorem ref_nibble (x : S512x4096.Idx → BitVec 32) (K n : Fin 4096) (a : Fin 512) (j : Fin 8) (ha : a.val = K.val / 8) (hj : j.val = K.val % 8) :
    Cert.ReferenceIdeal.Read.val_main_v10 (F := Ideal) x (ix2 K n)
      = IntOp.andi (IntOp.shrsi .vector (x (ix2 a n)) (IntOp.muli (BitVec.ofNat 32 j.val) 4#32)) 15#32 := by
  rw [Cert.ReferenceIdeal.Read.val_main_v10_apply, Cert.ReferenceIdeal.Read.val_main_v9_apply, Cert.ReferenceIdeal.Read.val_main_v7_apply,
    Cert.ReferenceIdeal.Read.val_main_v5_apply, Cert.ReferenceIdeal.Read.val_main_v3_apply, Cert.ReferenceIdeal.Read.val_main_v6_apply,
    Cert.ReferenceIdeal.Read.val_main_v4_apply, Cert.ReferenceIdeal.Read.val_main_v2_apply, Cert.ReferenceIdeal.Read.val_main_v0_apply,
    Cert.ReferenceIdeal.Read.val_main_v1_apply, Cert.ReferenceIdeal.Read.val_main_c_apply, Cert.ReferenceIdeal.Read.val_main_v8_apply,
    Cert.ReferenceIdeal.Read.val_main_c_0_apply]
  have hK : K.val < 4096 := K.isLt
  have hn : n.val < 4096 := n.isLt
  have e1 : Cert.ReferenceIdeal.Read.idx_main_v3 (Cert.ReferenceIdeal.Read.idx_main_v5 (Cert.ReferenceIdeal.Read.idx_main_v10 (ix2 K n))) = ix2 a n := by
    funext ax; apply Fin.ext
    match ax with
    | ⟨0, _⟩ => show (K.val * 4096 + n.val) / 32768 = a.val; omega
    | ⟨1, _⟩ => show (K.val * 4096 + n.val) % 4096 = n.val; omega
  have e2 : ((Cert.ReferenceIdeal.Read.idx_main_v4 (Cert.ReferenceIdeal.Read.idx_main_v6 (Cert.ReferenceIdeal.Read.idx_main_v10 (ix2 K n)))) 0).val = j.val := by
    show (K.val * 4096 + n.val) / 4096 % 8 = j.val; omega
  rw [e1, e2, shrsi_units]

variable (V : (c : Dev nD) → (b : Ref sig .tc) → Buf (Elt Ideal) ((c : Thread nD τ).loc b))

theorem deq_origin : (![0, 0] : Fin 2 → Nat) = fun _ => 0 := funext fun a => by fin_cases a <;> rfl

/-- The dense weight as one function of the packed weight x, the scales a and the offsets b: at (K, n),
    float(nibble K mod 8 of word (K / 8, n)) * a(K, n) + b(K, n). -/
def denseOf (x : S512x4096.Idx → BitVec 32) (a b : S4096x4096.Idx → EReal) : S4096x4096.Idx → EReal := fun i =>
  FloatOps.sitofp (F := Ideal) .f32 (IntOp.andi (IntOp.shrsi .vector (x (ix2 (⟨(i 0).val / 8, by have h : (i 0).val < 4096 := (i 0).isLt; show (i 0).val / 8 < 512; omega⟩ : Fin 512) (i 1)))
      (IntOp.muli (BitVec.ofNat 32 ((i 0).val % 8)) 4#32)) 15#32) * a i + b i

/-- The four index maps, decided over the sixteen points: every window's block index is the output's, and the output's
    stays below four on each axis. -/
theorem deq_index_facts : ∀ t : Fin cfg0.N, win0_0.index t (0 : Fin 2) = win0_3.index t (0 : Fin 2)
    ∧ win0_0.index t (1 : Fin 2) = win0_3.index t (1 : Fin 2)
    ∧ win0_1.index t (0 : Fin 2) = win0_3.index t (0 : Fin 2)
    ∧ win0_1.index t (1 : Fin 2) = win0_3.index t (1 : Fin 2)
    ∧ win0_2.index t (0 : Fin 2) = win0_3.index t (0 : Fin 2)
    ∧ win0_2.index t (1 : Fin 2) = win0_3.index t (1 : Fin 2)
    ∧ win0_3.index t (0 : Fin 2) ≤ 3 ∧ win0_3.index t (1 : Fin 2) ≤ 3 :=
  (by decide +kernel : ∀ t : Fin grid0.N, _)

/-- Every tile of the 4 x 4 tiling is some point's. -/
theorem deq_index_onto : ∀ (q0 : Fin 4) (q1 : Fin 4), ∃ t : Fin cfg0.N, win0_3.index t = ![q0.val, q1.val] :=
  (by decide +kernel : ∀ (q0 : Fin 4) (q1 : Fin 4), ∃ t : Fin grid0.N, win0_3.index t = ![q0.val, q1.val])

/-- One entry of one tile.  In the tile at block index (q0, q1), entry y = (r, e) sits at i = (1024 q0 + r, 1024 q1 + e) of the
    array; given that the three input tiles hold what the arrays hold there (the packed one at row r / 8 of its tile), the
    body's store at y is the dense weight at i: (1024 q0 + r) mod 8 = r mod 8 and (1024 q0 + r) / 8 = 128 q0 + r / 8. -/
theorem dense_tile_entry (x : S512x4096.Idx → BitVec 32) (a b : S4096x4096.Idx → EReal)
    (x0 : Vec Ideal S128x1024 .i32) (x1 x2 : Vec Ideal S1024x1024 .f32)
    (q0 : Nat) (y : S1024x1024.Idx) (i : S4096x4096.Idx) (hi0 : (i 0).val = q0 * 1024 + (y 0).val)
    (a' : Fin 128) (ha' : a'.val = (y 0).val / 8)
    (h0 : (x0 : S128x1024.Idx → BitVec 32) (ix2 a' (y 1)) = x (ix2 (⟨(i 0).val / 8, by have h : (i 0).val < 4096 := (i 0).isLt; show (i 0).val / 8 < 512; omega⟩ : Fin 512) (i 1)))
    (h1 : (x1 : S1024x1024.Idx → EReal) y = a i) (h2 : (x2 : S1024x1024.Idx → EReal) y = b i) :
    (k0_pay1 x0 x1 x2 : S1024x1024.Idx → EReal) y = denseOf x a b i := by
  obtain ⟨r, e, rfl⟩ : ∃ r e, y = ix2 r e := ⟨y 0, y 1, eq_ix2 y⟩
  have hr : r.val < 1024 := r.isLt
  rw [deq_pay_apply x0 x1 x2 r e a' ⟨r.val % 8, by omega⟩ ha' rfl, h0, h1, h2]
  unfold denseOf
  have hm : (i 0).val % 8 = r.val % 8 := by
    have : (i 0).val = q0 * 1024 + r.val := hi0
    omega
  rw [hm]

/-- What point t writes back is tile t of the dense weight. -/
theorem dense_flushed_eq (c : Dev nD) (t : Fin cfg0.N) :
    (dat (F := Ideal) V c).flushed 3 t
      = ((cfg0.win 3).blk t).view.read (Elt Ideal) (denseOf (V c main_arg1) (V c main_call0_v23) (V c main_call0_v32)) := by
  show (cfg0.win 3).cut (grid0.coords t) ((dat (F := Ideal) V c).after 3 t) = _
  rw [after_dense]
  unfold deqTile
  rw [View.canon_unit_zero deq_origin]
  simp only [View.ld_unit_zero (S := S128x1024) deq_origin, View.ld_unit_zero (S := S1024x1024) deq_origin]
  obtain ⟨e0, e1, e2, e3, e4, e5, b0, b1⟩ := deq_index_facts t
  funext y
  show (k0_pay1 (tile V c 0 t) (tile V c 1 t) (tile V c 2 t) : S1024x1024.Idx → EReal) y
    = denseOf (V c main_arg1) (V c main_call0_v23) (V c main_call0_v32) (((cfg0.win 3).blk t).view.emb y)
  have hy0 : ((y : S1024x1024.Idx) 0).val < 1024 := ((y : S1024x1024.Idx) 0).isLt
  refine dense_tile_entry (V c main_arg1) (V c main_call0_v23) (V c main_call0_v32) (tile V c 0 t) (tile V c 1 t) (tile V c 2 t)
    (win0_3.index t (0 : Fin 2)) y (((cfg0.win 3).blk t).view.emb y) ?_ ⟨((y : S1024x1024.Idx) 0).val / 8, by omega⟩ rfl ?_ ?_ ?_
  · show win0_3.index t (0 : Fin 2) * 1024 + 1 * ((y : S1024x1024.Idx) 0).val = _
    omega
  · show V c main_arg1 (((cfg0.win 0).blk t).view.emb (ix2 (⟨((y : S1024x1024.Idx) 0).val / 8, by omega⟩ : Fin 128) ((y : S1024x1024.Idx) 1))) = V c main_arg1 _
    refine congrArg (V c main_arg1) (funext fun ax => Fin.ext ?_)
    match ax with
    | ⟨0, _⟩ =>
      show win0_0.index t (0 : Fin 2) * 128 + 1 * (((y : S1024x1024.Idx) 0).val / 8) = (win0_3.index t (0 : Fin 2) * 1024 + 1 * ((y : S1024x1024.Idx) 0).val) / 8
      omega
    | ⟨1, _⟩ =>
      show win0_0.index t (1 : Fin 2) * 1024 + 1 * ((y : S1024x1024.Idx) 1).val = win0_3.index t (1 : Fin 2) * 1024 + 1 * ((y : S1024x1024.Idx) 1).val
      omega
  · show V c main_call0_v23 (((cfg0.win 1).blk t).view.emb y) = V c main_call0_v23 (((cfg0.win 3).blk t).view.emb y)
    refine congrArg (V c main_call0_v23) (funext fun ax => Fin.ext ?_)
    match ax with
    | ⟨0, _⟩ =>
      show win0_1.index t (0 : Fin 2) * 1024 + 1 * ((y : S1024x1024.Idx) 0).val = win0_3.index t (0 : Fin 2) * 1024 + 1 * ((y : S1024x1024.Idx) 0).val
      omega
    | ⟨1, _⟩ =>
      show win0_1.index t (1 : Fin 2) * 1024 + 1 * ((y : S1024x1024.Idx) 1).val = win0_3.index t (1 : Fin 2) * 1024 + 1 * ((y : S1024x1024.Idx) 1).val
      omega
  · show V c main_call0_v32 (((cfg0.win 2).blk t).view.emb y) = V c main_call0_v32 (((cfg0.win 3).blk t).view.emb y)
    refine congrArg (V c main_call0_v32) (funext fun ax => Fin.ext ?_)
    match ax with
    | ⟨0, _⟩ =>
      show win0_2.index t (0 : Fin 2) * 1024 + 1 * ((y : S1024x1024.Idx) 0).val = win0_3.index t (0 : Fin 2) * 1024 + 1 * ((y : S1024x1024.Idx) 0).val
      omega
    | ⟨1, _⟩ =>
      show win0_2.index t (1 : Fin 2) * 1024 + 1 * ((y : S1024x1024.Idx) 1).val = win0_3.index t (1 : Fin 2) * 1024 + 1 * ((y : S1024x1024.Idx) 1).val
      omega

/-- An entry of the array is in point t's tile iff each coordinate is in the tile's range on its axis. -/
theorem dense_mem_tile (t : Fin cfg0.N) (i : S4096x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_call0_v33).slice (win0_3.rect t)).set ↔ _
  rw [View.set_slice_whole, Rect.mem_set_unit]
  exact Iff.rfl

/-- The sixteen tiles cover the array: (K, n) is in the tile with block index (K / 1024, n / 1024). -/
theorem dense_tiles_cover (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  obtain ⟨t, ht⟩ := deq_index_onto ⟨(i 0).val / 1024, by omega⟩ ⟨(i 1).val / 1024, by omega⟩
  have q0 : win0_3.index t (0 : Fin 2) = (i 0).val / 1024 := congrFun ht 0
  have q1 : win0_3.index t (1 : Fin 2) = (i 1).val / 1024 := congrFun ht 1
  refine ⟨t, flush0_3 t, ?_⟩
  rw [dense_mem_tile]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- The dense weight after the region, as one function of the packed weight, the scales and the offsets. -/
theorem dense_array (c : Dev nD) :
    (dat (F := Ideal) V c).arrAt 3 cfg0.N = denseOf (V c main_arg1) (V c main_call0_v23) (V c main_call0_v32) :=
  (dat (F := Ideal) V c).arrAt_eq_of_cover 3 (denseOf (V c main_arg1) (V c main_call0_v23) (V c main_call0_v32))
    (fun t _ => dense_flushed_eq V c t) dense_tiles_cover

/-- The dense weight after the region, at entry (K, n). -/
theorem dense_final (c : Dev nD) (K n : Fin 4096) :
    ((dat (F := Ideal) V c).arrAt 3 cfg0.N : S4096x4096.Idx → EReal) (ix2 K n)
      = FloatOps.sitofp (F := Ideal) .f32 (Cert.ReferenceIdeal.Read.val_main_v10 (F := Ideal) (V c main_arg1) (ix2 K n))
          * (V c main_call0_v23 : S4096x4096.Idx → EReal) (ix2 K n)
        + (V c main_call0_v32 : S4096x4096.Idx → EReal) (ix2 K n) := by
  have hK : K.val < 4096 := K.isLt
  rw [dense_array V c, ref_nibble (V c main_arg1) K n ⟨K.val / 8, by omega⟩ ⟨K.val % 8, by omega⟩ rfl rfl]
  rfl

end Cert.KernelIdeal.Deq

end
-- ==== Proof.MmPieces.lean ====
/-
  The second pallas_call, part three: what each case's stores amount to, as the body's own arithmetic.  Each store
  covers its whole buffer, so a buffer read back after a case is that case's last stored value: the accumulator after
  k = 0 is the product step applied to the zero it stored first, after k > 0 the product step applied to what it held;
  the output tile after k = 3 is the epilogue applied to the new accumulator, the bias row and the residual tile.
-/
import proofs.«430967_j87247965651012_2_alg».proof.Proof.MmBody
import Idealize.ShloMosaic.Lib.Pipeline.Value

set_option maxRecDepth 16384

noncomputable section

namespace Cert.KernelIdeal.Mm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

/-- The offsets of a store or load of a whole two-axis buffer are all zero. -/
private theorem offZero : (![0, 0] : Fin 2 → Nat) = fun _ => 0 := funext fun a => by fin_cases a <;> rfl

/-- k = 0: zero, then one product step. -/
theorem accFirst_eq (c : Dev nD) (i : grid1.Coords) (arg3 : Memref sig .tc .vmem S2048x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S2048x1024 .f32) (harg6 : arg6.IsWhole)
    (arg7 : Memref sig .tc .vmem S2048x1024 .f32) (harg7 : arg7.IsWhole) (arg8 : Memref sig .tc .vmem S2048x1024 .f32) (harg8 : arg8.IsWhole)
    (hc0 : isFirst i) (hc1 : ¬isLast i) (x0 : Vec F S2048x1024 .bf16) (x1 : Vec F S1024x1024 .bf16) (x2 : Vec F S1x1024 .f32) (x3 : Vec F S2048x1024 .f32) :
    accFirst c i arg3 harg3 arg4 harg4 arg5 harg5 arg6 harg6 arg7 harg7 arg8 harg8 hc0 hc1 x0 x1 x2 x3 = k1_pay2 (k1_pay1 (F := F)) x0 x1 := by
  -- the pieces cover the buffer, so what is read back is their canonical value; the later piece is a store of the whole
  -- buffer, so it alone counts; its first operand is the buffer read back after the store of zero, which is zero; its
  -- other two operands are the input tiles read whole
  unfold accFirst
  rw [View.read_writes_eq_canon _ _ _ (cover_first c i arg3 harg3 arg4 harg4 arg5 harg5 arg6 harg6 arg7 harg7 arg8 harg8 hc0 hc1 x0 x1 x2 x3)]
  unfold runFirst
  dsimp only
  sl_unfold_words
  rw [View.canon_cons_unit_zero (S := S2048x1024) offZero, View.readCov_unit_zero (S := S2048x1024) _ offZero]
  simp only [View.readAt_eq_ld, harg3.read_unread, harg4.read_unread, View.ld_unit_zero (S := S2048x1024) offZero,
    View.ld_unit_zero (S := S1024x1024) offZero]

/-- k = 1, 2: one product step from what the accumulator held. -/
theorem accMid_eq (c : Dev nD) (i : grid1.Coords) (arg3 : Memref sig .tc .vmem S2048x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S2048x1024 .f32) (harg6 : arg6.IsWhole)
    (arg7 : Memref sig .tc .vmem S2048x1024 .f32) (harg7 : arg7.IsWhole) (arg8 : Memref sig .tc .vmem S2048x1024 .f32) (harg8 : arg8.IsWhole)
    (hc0 : ¬isFirst i) (hc1 : ¬isLast i) (x0 : Vec F S2048x1024 .bf16) (x1 : Vec F S1024x1024 .bf16) (x2 : Vec F S1x1024 .f32) (x3 : Vec F S2048x1024 .f32) (xs : Vec F S2048x1024 .f32) :
    accMid c i arg3 harg3 arg4 harg4 arg5 harg5 arg6 harg6 arg7 harg7 arg8 harg8 hc0 hc1 x0 x1 x2 x3 xs = k1_pay2 xs x0 x1 := by
  -- one piece, a store of the whole buffer: what is read back is its payload, whose operands are the accumulator and
  -- the two input tiles read whole
  unfold accMid
  rw [View.read_writes_eq_canon _ _ _ (cover_mid c i arg3 harg3 arg4 harg4 arg5 harg5 arg6 harg6 arg7 harg7 arg8 harg8 hc0 hc1 x0 x1 x2 x3 xs)]
  unfold runMid
  dsimp only
  sl_unfold_words
  rw [View.canon_unit_zero (S := S2048x1024) offZero]
  simp only [View.readAt_eq_ld, harg3.read_unread, harg4.read_unread, harg8.read_unread, View.ld_unit_zero (S := S2048x1024) offZero,
    View.ld_unit_zero (S := S1024x1024) offZero]

/-- k = 3: one product step from what the accumulator held, -/
theorem accLast_eq (c : Dev nD) (i : grid1.Coords) (arg3 : Memref sig .tc .vmem S2048x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S2048x1024 .f32) (harg6 : arg6.IsWhole)
    (arg7 : Memref sig .tc .vmem S2048x1024 .f32) (harg7 : arg7.IsWhole) (arg8 : Memref sig .tc .vmem S2048x1024 .f32) (harg8 : arg8.IsWhole)
    (hc0 : ¬isFirst i) (hc1 : isLast i) (x0 : Vec F S2048x1024 .bf16) (x1 : Vec F S1024x1024 .bf16) (x2 : Vec F S1x1024 .f32) (x3 : Vec F S2048x1024 .f32) (xs : Vec F S2048x1024 .f32) :
    accLast c i arg3 harg3 arg4 harg4 arg5 harg5 arg6 harg6 arg7 harg7 arg8 harg8 hc0 hc1 x0 x1 x2 x3 xs = k1_pay2 xs x0 x1 := by
  -- the accumulator's one piece is a store of the whole buffer: what is read back is its payload over the buffers read whole
  unfold accLast
  rw [View.read_writes_eq_canon _ _ _ (cover_last_acc c i arg3 harg3 arg4 harg4 arg5 harg5 arg6 harg6 arg7 harg7 arg8 harg8 hc0 hc1 x0 x1 x2 x3 xs)]
  unfold runLast
  dsimp only
  sl_unfold_words
  rw [View.canon_unit_zero (S := S2048x1024) offZero]
  simp only [View.readAt_eq_ld, harg3.read_unread, harg4.read_unread, harg8.read_unread, View.ld_unit_zero (S := S2048x1024) offZero,
    View.ld_unit_zero (S := S1024x1024) offZero]

/-- and the output tile is the epilogue of the new accumulator, the bias row and the residual tile. -/
theorem outLast_eq (c : Dev nD) (i : grid1.Coords) (arg3 : Memref sig .tc .vmem S2048x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S2048x1024 .f32) (harg6 : arg6.IsWhole)
    (arg7 : Memref sig .tc .vmem S2048x1024 .f32) (harg7 : arg7.IsWhole) (arg8 : Memref sig .tc .vmem S2048x1024 .f32) (harg8 : arg8.IsWhole)
    (hc0 : ¬isFirst i) (hc1 : isLast i) (x0 : Vec F S2048x1024 .bf16) (x1 : Vec F S1024x1024 .bf16) (x2 : Vec F S1x1024 .f32) (x3 : Vec F S2048x1024 .f32) (xs : Vec F S2048x1024 .f32) :
    outLast c i arg3 harg3 arg4 harg4 arg5 harg5 arg6 harg6 arg7 harg7 arg8 harg8 hc0 hc1 x0 x1 x2 x3 xs = k1_pay3 (k1_pay2 xs x0 x1) x2 x3 := by
  -- the output tile's one piece is a store of the whole buffer; its payload's first operand is the accumulator read
  -- back after the product step's store, which is that store's payload; the other operands are the bias row and the
  -- residual tile read whole
  unfold outLast
  rw [View.read_writes_eq_canon _ _ _ (cover_last_out c i arg3 harg3 arg4 harg4 arg5 harg5 arg6 harg6 arg7 harg7 arg8 harg8 hc0 hc1 x0 x1 x2 x3 xs)]
  unfold runLast
  dsimp only
  sl_unfold_words
  rw [View.canon_unit_zero (S := S2048x1024) offZero]
  simp only [View.readAt_eq_ld, harg3.read_unread, harg4.read_unread, harg5.read_unread, harg6.read_unread, harg8.read_unread,
    View.readCov_unit_zero (S := S2048x1024) _ offZero, View.ld_unit_zero (S := S2048x1024) offZero,
    View.ld_unit_zero (S := S1024x1024) offZero, View.ld_unit_zero (S := S1x1024) offZero]

end Cert.KernelIdeal.Mm

end
-- ==== Proof.MmStep.lean ====
/-
  The second pallas_call's arithmetic read at an entry, over the extended reals: the reset value is zero; one product
  step adds to the accumulator's entry (r, c) the sum over k < 1024 of x(r, k) * w(k, c) (the matrix unit's product into
  a zero accumulator, a change of float format being the identity); the epilogue adds the bias row's entry c and the
  residual's entry (r, c), in that order.
-/
import proofs.«430967_j87247965651012_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Mm

open Idealize.ShloMosaic Idealize.ShloMosaic.ValueIdx
open Cert.KernelIdeal Cert.KernelIdeal.Gen

/-- The reset value. -/
theorem pay1_apply (y : S2048x1024.Idx) : (k1_pay1 (F := Ideal) : S2048x1024.Idx → EReal) y = 0 := by
  unfold k1_pay1
  rw [shapeCast_self]
  exact Ideal.ofBits_zero_f32

/-- The left operand's row coordinate is the result's row. -/
theorem lhs_axis0 (i : S2048x1024.Idx) (q : dot_S2048x1024_S1024x1024_S2048x1024_1_0_0_1_n_n.contr.Idx) :
    (dot_S2048x1024_S1024x1024_S2048x1024_1_0_0_1_n_n.lhsIdx i q 0).val = (i 0).val := by
  unfold DotDims.lhsIdx
  rw [dif_neg (show ¬(0 : Fin S2048x1024.rank) ∈ dot_S2048x1024_S1024x1024_S2048x1024_1_0_0_1_n_n.lhsBatch by decide), dif_pos (show (0 : Fin S2048x1024.rank) ∈ dot_S2048x1024_S1024x1024_S2048x1024_1_0_0_1_n_n.lhsNonContracting by decide)]
  rfl

/-- The left operand's column coordinate is the contracted index. -/
theorem lhs_axis1 (i : S2048x1024.Idx) (q : dot_S2048x1024_S1024x1024_S2048x1024_1_0_0_1_n_n.contr.Idx) :
    (dot_S2048x1024_S1024x1024_S2048x1024_1_0_0_1_n_n.lhsIdx i q 1).val = (q ⟨0, by decide⟩).val :=
  dot_S2048x1024_S1024x1024_S2048x1024_1_0_0_1_n_n.lhsIdx_val_of_single rfl i q

/-- The right operand's row coordinate is the contracted index. -/
theorem rhs_axis0 (i : S2048x1024.Idx) (q : dot_S2048x1024_S1024x1024_S2048x1024_1_0_0_1_n_n.contr.Idx) :
    (dot_S2048x1024_S1024x1024_S2048x1024_1_0_0_1_n_n.rhsIdx i q 0).val = (q ⟨0, by decide⟩).val :=
  dot_S2048x1024_S1024x1024_S2048x1024_1_0_0_1_n_n.rhsIdx_val_of_single rfl i q

/-- The right operand's column coordinate is the result's column. -/
theorem rhs_axis1 (i : S2048x1024.Idx) (q : dot_S2048x1024_S1024x1024_S2048x1024_1_0_0_1_n_n.contr.Idx) :
    (dot_S2048x1024_S1024x1024_S2048x1024_1_0_0_1_n_n.rhsIdx i q 1).val = (i 1).val := by
  unfold DotDims.rhsIdx
  rw [dif_neg (show ¬(1 : Fin S1024x1024.rank) ∈ dot_S2048x1024_S1024x1024_S2048x1024_1_0_0_1_n_n.rhsBatch by decide), dif_pos (show (1 : Fin S1024x1024.rank) ∈ dot_S2048x1024_S1024x1024_S2048x1024_1_0_0_1_n_n.rhsNonContracting by decide)]
  rfl

/-- The product of a 2048 x 1024 tile by a 1024 x 1024 tile into the zero accumulator, at entry (r, c): the sum over the
    contracted index k of l(r, k) * w(k, c). -/
theorem matmul_zero_apply (l : FVec Ideal S2048x1024 .bf16) (w : FVec Ideal S1024x1024 .bf16) (r : Fin 2048) (c : Fin 1024) :
    (matmul (F := Ideal) dot_S2048x1024_S1024x1024_S2048x1024_1_0_0_1_n_n none l w (constant (F := Ideal) S2048x1024 .f32 0x00000000#32) : S2048x1024.Idx → EReal) (ix2 r c)
      = ∑ k : Fin 1024, (l : S2048x1024.Idx → EReal) (ix2 r k) * (w : S1024x1024.Idx → EReal) (ix2 k c) := by
  refine (Ideal.matmul_constant_zero_apply dot_S2048x1024_S1024x1024_S2048x1024_1_0_0_1_n_n none l w (ix2 r c)).trans ?_
  rw [← Equiv.sum_comp (contrEquiv1 dot_S2048x1024_S1024x1024_S2048x1024_1_0_0_1_n_n 1024 rfl rfl).symm]
  refine Finset.sum_congr rfl fun k _ => ?_
  have hk := contrEquiv1_symm_val dot_S2048x1024_S1024x1024_S2048x1024_1_0_0_1_n_n 1024 rfl rfl k
  have el : dot_S2048x1024_S1024x1024_S2048x1024_1_0_0_1_n_n.lhsIdx (ix2 r c) ((contrEquiv1 dot_S2048x1024_S1024x1024_S2048x1024_1_0_0_1_n_n 1024 rfl rfl).symm k) = ix2 r k := funext fun a => Fin.ext (by
    match a with
    | ⟨0, _⟩ => exact lhs_axis0 _ _
    | ⟨1, _⟩ => exact (lhs_axis1 _ _).trans hk)
  have er : dot_S2048x1024_S1024x1024_S2048x1024_1_0_0_1_n_n.rhsIdx (ix2 r c) ((contrEquiv1 dot_S2048x1024_S1024x1024_S2048x1024_1_0_0_1_n_n 1024 rfl rfl).symm k) = ix2 k c := funext fun a => Fin.ext (by
    match a with
    | ⟨0, _⟩ => exact (rhs_axis0 _ _).trans hk
    | ⟨1, _⟩ => exact rhs_axis1 _ _)
  rw [el, er]

/-- One product step at entry (r, c). -/
theorem pay2_apply (xs : Vec Ideal S2048x1024 .f32) (x0 : Vec Ideal S2048x1024 .bf16) (x1 : Vec Ideal S1024x1024 .bf16)
    (r : Fin 2048) (c : Fin 1024) :
    (k1_pay2 (F := Ideal) xs x0 x1 : S2048x1024.Idx → EReal) (ix2 r c)
      = (xs : S2048x1024.Idx → EReal) (ix2 r c) + ∑ k : Fin 1024, (x0 : S2048x1024.Idx → EReal) (ix2 r k) * (x1 : S1024x1024.Idx → EReal) (ix2 k c) := by
  unfold k1_pay2
  rw [shapeCast_self x0, shapeCast_self x1, shapeCast_self]
  exact congrArg (fun z => xs (ix2 r c) + z) (matmul_zero_apply x0 x1 r c)

/-- The epilogue at entry (r, c). -/
theorem pay3_apply (a : Vec Ideal S2048x1024 .f32) (x2 : Vec Ideal S1x1024 .f32) (x3 : Vec Ideal S2048x1024 .f32)
    (r : Fin 2048) (c : Fin 1024) :
    (k1_pay3 (F := Ideal) a x2 x3 : S2048x1024.Idx → EReal) (ix2 r c)
      = ((a : S2048x1024.Idx → EReal) (ix2 r c) + (x2 : S1x1024.Idx → EReal) (ix2 (0 : Fin 1) c)) + (x3 : S2048x1024.Idx → EReal) (ix2 r c) := by
  unfold k1_pay3
  rw [shapeCast_self x2, shapeCast_self x3]
  exact congrArg (fun z => (a (ix2 r c) + z) + x3 (ix2 r c)) (broadcastTo_1b_ab_apply x2 _ r c)

end Cert.KernelIdeal.Mm

end
-- ==== Proof.MmValue.lean ====
/-
  What the second pallas_call leaves in its result, entry by entry.  Output tile (i, j) is written back once, at its last K
  step, holding  ((((0 + P0) + P1) + P2) + P3) + bias + residual,  where Pk is the product of the k-th 2048 x 1024 tile of
  row block i of x with the k-th 1024 x 1024 tile of column block j of the dense weight.  The four partial sums over
  1024 columns each add up to the sum over all 4096 (addition of extended reals is associative and commutative, and
  0 + a = a), so entry (p, q) of the whole array is  (sum over K of x(p, K) * w(K, q)) + bias(q) + residual(p, q).
  The sixteen output tiles cover the array.
-/
import proofs.«430967_j87247965651012_2_alg».proof.Proof.MmPieces
import proofs.«430967_j87247965651012_2_alg».proof.Proof.MmStep
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Mm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Idealize.ShloMosaic.ValueIdx

variable (V : (c : Dev nD) → (b : Ref sig .tc) → Buf (Elt Ideal) ((c : Thread nD τ).loc b))

/-- The four input arrays as the region finds them, as functions into the extended reals: x (bf16), the dense weight
    (bf16), the bias row and the residual. -/
abbrev xArr (c : Dev nD) : S8192x4096.Idx → EReal := V c main_call0_v34
abbrev wArr (c : Dev nD) : S4096x4096.Idx → EReal := V c main_call0_v33
abbrev bArr (c : Dev nD) : S1x4096.Idx → EReal := V c main_call0_v2
abbrev rArr (c : Dev nD) : S8192x4096.Idx → EReal := V c main_call0_v1
/-- The result array after the region. -/
abbrev outArr (c : Dev nD) : S8192x4096.Idx → EReal := (dat (F := Ideal) V c).arrAt 4 cfg1.N

/-- The five index maps in closed form over the sixty-four points: point t has row tile t / 16, column tile t / 4 mod 4
    and K step t mod 4; x is read at (row tile, K step), the dense weight at (K step, column tile), the bias row at
    (0, column tile), the residual and the result at (row tile, column tile). -/
theorem mm_index_facts : ∀ t : Fin cfg1.N,
    win1_0.index t (0 : Fin 2) = t.val / 16 ∧ win1_0.index t (1 : Fin 2) = t.val % 4
    ∧ win1_1.index t (0 : Fin 2) = t.val % 4 ∧ win1_1.index t (1 : Fin 2) = t.val / 4 % 4
    ∧ win1_2.index t (0 : Fin 2) = 0 ∧ win1_2.index t (1 : Fin 2) = t.val / 4 % 4
    ∧ win1_3.index t (0 : Fin 2) = t.val / 16 ∧ win1_3.index t (1 : Fin 2) = t.val / 4 % 4
    ∧ win1_4.index t (0 : Fin 2) = t.val / 16 ∧ win1_4.index t (1 : Fin 2) = t.val / 4 % 4 :=
  (by decide +kernel : ∀ t : Fin grid1.N, _)

/-- The four input tiles at point t, at their literal shapes. -/
abbrev xblk (c : Dev nD) (t : Fin cfg1.N) : Vec Ideal S2048x1024 .bf16 := blk V c 0 t
abbrev wblk (c : Dev nD) (t : Fin cfg1.N) : Vec Ideal S1024x1024 .bf16 := blk V c 1 t
abbrev bblk (c : Dev nD) (t : Fin cfg1.N) : Vec Ideal S1x1024 .f32 := blk V c 2 t
abbrev rblk (c : Dev nD) (t : Fin cfg1.N) : Vec Ideal S2048x1024 .f32 := blk V c 3 t

/-- A row and a column of the arrays from a natural number (reduced mod the extent, so that no bound is carried). -/
def rowIx (p : Nat) : Fin 8192 := ⟨p % 8192, Nat.mod_lt _ (by decide)⟩
def colIx (q : Nat) : Fin 4096 := ⟨q % 4096, Nat.mod_lt _ (by decide)⟩

/-- Entry (r, k) of the x tile at point t is x at (2048 (t / 16) + r, 1024 (t mod 4) + k). -/
theorem xblk_apply (c : Dev nD) (t : Fin cfg1.N) (r : Fin 2048) (k : Fin 1024) :
    (xblk V c t : S2048x1024.Idx → EReal) (ix2 r k)
      = xArr V c (ix2 (rowIx (2048 * (t.val / 16) + r.val)) (colIx (1024 * (t.val % 4) + k.val))) := by
  obtain ⟨e00, e01, -⟩ := mm_index_facts t
  have hr : r.val < 2048 := r.isLt
  have hk : k.val < 1024 := k.isLt
  have hN : t.val < 64 := lt_of_lt_of_eq t.isLt (show cfg1.N = 64 from N_1)
  show V c main_call0_v34 (((cfg1.win 0).blk t).view.emb (ix2 r k)) = V c main_call0_v34 _
  refine congrArg (V c main_call0_v34) (funext fun ax => Fin.ext ?_)
  match ax with
  | ⟨0, _⟩ =>
    show win1_0.index t (0 : Fin 2) * 2048 + 1 * r.val = (2048 * (t.val / 16) + r.val) % 8192
    omega
  | ⟨1, _⟩ =>
    show win1_0.index t (1 : Fin 2) * 1024 + 1 * k.val = (1024 * (t.val % 4) + k.val) % 4096
    omega

/-- Entry (k, e) of the weight tile at point t is the dense weight at (1024 (t mod 4) + k, 1024 (t / 4 mod 4) + e). -/
theorem wblk_apply (c : Dev nD) (t : Fin cfg1.N) (k : Fin 1024) (e : Fin 1024) :
    (wblk V c t : S1024x1024.Idx → EReal) (ix2 k e)
      = wArr V c (ix2 (colIx (1024 * (t.val % 4) + k.val)) (colIx (1024 * (t.val / 4 % 4) + e.val))) := by
  obtain ⟨-, -, e10, e11, -⟩ := mm_index_facts t
  have hk : k.val < 1024 := k.isLt
  have he : e.val < 1024 := e.isLt
  have hN : t.val < 64 := lt_of_lt_of_eq t.isLt (show cfg1.N = 64 from N_1)
  show V c main_call0_v33 (((cfg1.win 1).blk t).view.emb (ix2 k e)) = V c main_call0_v33 _
  refine congrArg (V c main_call0_v33) (funext fun ax => Fin.ext ?_)
  match ax with
  | ⟨0, _⟩ =>
    show win1_1.index t (0 : Fin 2) * 1024 + 1 * k.val = (1024 * (t.val % 4) + k.val) % 4096
    omega
  | ⟨1, _⟩ =>
    show win1_1.index t (1 : Fin 2) * 1024 + 1 * e.val = (1024 * (t.val / 4 % 4) + e.val) % 4096
    omega

/-- Entry (0, e) of the bias tile at point t is the bias at (0, 1024 (t / 4 mod 4) + e). -/
theorem bblk_apply (c : Dev nD) (t : Fin cfg1.N) (e : Fin 1024) :
    (bblk V c t : S1x1024.Idx → EReal) (ix2 (0 : Fin 1) e)
      = bArr V c (ix2 (0 : Fin 1) (colIx (1024 * (t.val / 4 % 4) + e.val))) := by
  obtain ⟨-, -, -, -, e20, e21, -⟩ := mm_index_facts t
  have he : e.val < 1024 := e.isLt
  have hN : t.val < 64 := lt_of_lt_of_eq t.isLt (show cfg1.N = 64 from N_1)
  show V c main_call0_v2 (((cfg1.win 2).blk t).view.emb (ix2 (0 : Fin 1) e)) = V c main_call0_v2 _
  refine congrArg (V c main_call0_v2) (funext fun ax => Fin.ext ?_)
  match ax with
  | ⟨0, _⟩ =>
    show win1_2.index t (0 : Fin 2) * 1 + 1 * 0 = 0
    omega
  | ⟨1, _⟩ =>
    show win1_2.index t (1 : Fin 2) * 1024 + 1 * e.val = (1024 * (t.val / 4 % 4) + e.val) % 4096
    omega

/-- Entry (r, e) of the residual tile at point t is the residual at (2048 (t / 16) + r, 1024 (t / 4 mod 4) + e). -/
theorem rblk_apply (c : Dev nD) (t : Fin cfg1.N) (r : Fin 2048) (e : Fin 1024) :
    (rblk V c t : S2048x1024.Idx → EReal) (ix2 r e)
      = rArr V c (ix2 (rowIx (2048 * (t.val / 16) + r.val)) (colIx (1024 * (t.val / 4 % 4) + e.val))) := by
  obtain ⟨-, -, -, -, -, -, e30, e31, -⟩ := mm_index_facts t
  have hr : r.val < 2048 := r.isLt
  have he : e.val < 1024 := e.isLt
  have hN : t.val < 64 := lt_of_lt_of_eq t.isLt (show cfg1.N = 64 from N_1)
  show V c main_call0_v1 (((cfg1.win 3).blk t).view.emb (ix2 r e)) = V c main_call0_v1 _
  refine congrArg (V c main_call0_v1) (funext fun ax => Fin.ext ?_)
  match ax with
  | ⟨0, _⟩ =>
    show win1_3.index t (0 : Fin 2) * 2048 + 1 * r.val = (2048 * (t.val / 16) + r.val) % 8192
    omega
  | ⟨1, _⟩ =>
    show win1_3.index t (1 : Fin 2) * 1024 + 1 * e.val = (1024 * (t.val / 4 % 4) + e.val) % 4096
    omega

/-- The product of K step kb at array coordinates (p, q): the sum over the 1024 columns 1024 kb + k of x(p, ·) * w(·, q). -/
def prodAt (c : Dev nD) (p q kb : Nat) : EReal :=
  ∑ k : Fin 1024, xArr V c (ix2 (rowIx p) (colIx (1024 * kb + k.val))) * wArr V c (ix2 (colIx (1024 * kb + k.val)) (colIx q))

/-- A sum over 4096 = 4 x 1024 consecutive naturals, taken block by block (in any additive commutative monoid). -/
theorem sum_four_blocks {M : Type} [AddCommMonoid M] (f : Nat → M) :
    ∑ kb ∈ Finset.range 4, ∑ k : Fin 1024, f (1024 * kb + k.val) = ∑ K : Fin 4096, f K.val := by
  rw [Fin.sum_univ_eq_sum_range (fun K => f K) 4096]
  have hb : ∀ kb : Nat, ∑ k : Fin 1024, f (1024 * kb + k.val) = ∑ k ∈ Finset.range 1024, f (1024 * kb + k) :=
    fun kb => Fin.sum_univ_eq_sum_range (fun k => f (1024 * kb + k)) 1024
  simp only [hb]
  rw [show (4096 : Nat) = 1024 + 1024 + 1024 + 1024 from rfl, Finset.sum_range_add, Finset.sum_range_add, Finset.sum_range_add]
  rw [Finset.sum_range_succ, Finset.sum_range_succ, Finset.sum_range_succ, Finset.sum_range_one]
  simp only [Nat.mul_zero, Nat.zero_add, Nat.mul_one]

/-- One product step at an entry, its operands' entries given. -/
theorem step_entry (xs : Vec Ideal S2048x1024 .f32) (x0 : Vec Ideal S2048x1024 .bf16) (x1 : Vec Ideal S1024x1024 .bf16)
    (r : Fin 2048) (e : Fin 1024) (X W : Fin 1024 → EReal)
    (hx : ∀ k : Fin 1024, (x0 : S2048x1024.Idx → EReal) (ix2 r k) = X k)
    (hw : ∀ k : Fin 1024, (x1 : S1024x1024.Idx → EReal) (ix2 k e) = W k) :
    (k1_pay2 (F := Ideal) xs x0 x1 : S2048x1024.Idx → EReal) (ix2 r e)
      = (xs : S2048x1024.Idx → EReal) (ix2 r e) + ∑ k : Fin 1024, X k * W k := by
  rw [pay2_apply]
  refine congrArg (fun z => (xs : S2048x1024.Idx → EReal) (ix2 r e) + z) (Finset.sum_congr rfl fun k _ => ?_)
  rw [hx k, hw k]

/-- The accumulator after position n: the products of the K steps so far of that point's output tile. -/
theorem acc_eq (c : Dev nD) : ∀ (n : Nat) (hn : n < cfg1.N) (r : Fin 2048) (e : Fin 1024),
    ((outsAt V c n hn).2 : S2048x1024.Idx → EReal) (ix2 r e)
      = ∑ kb ∈ Finset.range (n % 4 + 1), prodAt V c (2048 * (n / 16) + r.val) (1024 * (n / 4 % 4) + e.val) kb := by
  intro n
  induction n using Nat.strong_induction_on with
  | _ n ih =>
    intro hn r e
    have hN : n < 64 := lt_of_lt_of_eq hn (show cfg1.N = 64 from N_1)
    rw [Finset.sum_range_succ]
    by_cases h0 : n % 4 = 0
    · have h1 : ¬n % 4 = 3 := by omega
      rw [outsAt_first V c ⟨n, hn⟩ h0 h1]; dsimp only
      rw [accFirst_eq]
      refine (step_entry _ (xblk V c ⟨n, hn⟩) (wblk V c ⟨n, hn⟩) r e _ _ (fun k => xblk_apply V c ⟨n, hn⟩ r k) (fun k => wblk_apply V c ⟨n, hn⟩ k e)).trans ?_
      refine congrArg₂ (fun a b : EReal => a + b) ?_ rfl
      rw [pay1_apply, h0, Finset.sum_range_zero]
    · by_cases h1 : n % 4 = 3
      · rw [outsAt_last V c ⟨n, hn⟩ h0 h1]; dsimp only
        rw [accLast_eq]
        refine (step_entry _ (xblk V c ⟨n, hn⟩) (wblk V c ⟨n, hn⟩) r e _ _ (fun k => xblk_apply V c ⟨n, hn⟩ r k) (fun k => wblk_apply V c ⟨n, hn⟩ k e)).trans ?_
        refine congrArg₂ (fun a b : EReal => a + b) ?_ rfl
        rw [ih (n - 1) (by omega) _ r e, show (n - 1) % 4 + 1 = n % 4 from by omega, show (n - 1) / 16 = n / 16 from by omega,
          show (n - 1) / 4 % 4 = n / 4 % 4 from by omega]
      · rw [outsAt_mid V c ⟨n, hn⟩ h0 h1]; dsimp only
        rw [accMid_eq]
        refine (step_entry _ (xblk V c ⟨n, hn⟩) (wblk V c ⟨n, hn⟩) r e _ _ (fun k => xblk_apply V c ⟨n, hn⟩ r k) (fun k => wblk_apply V c ⟨n, hn⟩ k e)).trans ?_
        refine congrArg₂ (fun a b : EReal => a + b) ?_ rfl
        rw [ih (n - 1) (by omega) _ r e, show (n - 1) % 4 + 1 = n % 4 from by omega, show (n - 1) / 16 = n / 16 from by omega,
          show (n - 1) / 4 % 4 = n / 4 % 4 from by omega]

/-- The output tile at the last K step of its point: the four products, then the bias row's entry, then the residual's. -/
theorem out_tile (c : Dev nD) (t : Fin cfg1.N) (h3 : t.val % 4 = 3) (r : Fin 2048) (e : Fin 1024) :
    ((outsAt V c t.val t.isLt).1 : S2048x1024.Idx → EReal) (ix2 r e)
      = ((∑ kb ∈ Finset.range 4, prodAt V c (2048 * (t.val / 16) + r.val) (1024 * (t.val / 4 % 4) + e.val) kb)
          + bArr V c (ix2 (0 : Fin 1) (colIx (1024 * (t.val / 4 % 4) + e.val))))
        + rArr V c (ix2 (rowIx (2048 * (t.val / 16) + r.val)) (colIx (1024 * (t.val / 4 % 4) + e.val))) := by
  have h0 : ¬t.val % 4 = 0 := by omega
  have hN : t.val < 64 := lt_of_lt_of_eq t.isLt (show cfg1.N = 64 from N_1)
  rw [outsAt_last V c t h0 h3]; dsimp only
  rw [outLast_eq]
  refine (pay3_apply (k1_pay2 _ (xblk V c t) (wblk V c t)) (bblk V c t) (rblk V c t) r e).trans ?_
  rw [bblk_apply, rblk_apply]
  refine congrArg₂ (fun a b : EReal => a + b) (congrArg₂ (fun a b : EReal => a + b) ?_ rfl) rfl
  refine (step_entry _ (xblk V c t) (wblk V c t) r e _ _ (fun k => xblk_apply V c t r k) (fun k => wblk_apply V c t k e)).trans ?_
  rw [show Finset.range 4 = Finset.range (t.val % 4 + 1) from by rw [h3], Finset.sum_range_succ]
  refine congrArg₂ (fun a b : EReal => a + b) ?_ rfl
  rw [acc_eq V c (t.val - 1) _ r e, show (t.val - 1) % 4 + 1 = t.val % 4 from by omega, show (t.val - 1) / 16 = t.val / 16 from by omega,
    show (t.val - 1) / 4 % 4 = t.val / 4 % 4 from by omega]

/-- The four products over 1024 columns each are the product over all 4096. -/
theorem sum_prodAt (c : Dev nD) (p q : Nat) :
    ∑ kb ∈ Finset.range 4, prodAt V c p q kb = ∑ K : Fin 4096, xArr V c (ix2 (rowIx p) K) * wArr V c (ix2 K (colIx q)) := by
  unfold prodAt
  refine (sum_four_blocks (fun K => xArr V c (ix2 (rowIx p) (colIx K)) * wArr V c (ix2 (colIx K) (colIx q)))).trans ?_
  refine Finset.sum_congr rfl fun K _ => ?_
  rw [show colIx K.val = K from Fin.ext (Nat.mod_eq_of_lt K.isLt)]

/-- The result as one function of the four arrays: at (p, q), the product of row p of x with column q of the dense
    weight, plus the bias at q, plus the residual at (p, q). -/
def resultOf (c : Dev nD) : S8192x4096.Idx → EReal := fun i =>
  ((∑ K : Fin 4096, xArr V c (ix2 (i 0) K) * wArr V c (ix2 K (i 1))) + bArr V c (ix2 (0 : Fin 1) (i 1))) + rArr V c i

/-- One entry of one output tile.  Entry y = (r, e) of the tile of a point t at its last K step sits at
    i = (2048 (t / 16) + r, 1024 (t / 4 mod 4) + e) of the array, and holds the result there. -/
theorem result_tile_entry (c : Dev nD) (t : Fin cfg1.N) (h3 : t.val % 4 = 3) (y : S2048x1024.Idx) (i : S8192x4096.Idx)
    (hi0 : (i 0).val = 2048 * (t.val / 16) + (y 0).val) (hi1 : (i 1).val = 1024 * (t.val / 4 % 4) + (y 1).val) :
    ((outsAt V c t.val t.isLt).1 : S2048x1024.Idx → EReal) y = resultOf V c i := by
  obtain ⟨r, e, rfl⟩ : ∃ r e, y = ix2 r e := ⟨y 0, y 1, eq_ix2 y⟩
  have hb0 : (i 0).val < 8192 := idx2_lt0 i
  have hb1 : (i 1).val < 4096 := idx2_lt1 i
  have hr0 : (i 0).val = 2048 * (t.val / 16) + r.val := hi0
  have he1 : (i 1).val = 1024 * (t.val / 4 % 4) + e.val := hi1
  have hi : i = ix2 (rowIx (2048 * (t.val / 16) + r.val)) (colIx (1024 * (t.val / 4 % 4) + e.val)) := funext fun ax => Fin.ext (by
    match ax with
    | ⟨0, _⟩ => show (i 0).val = (2048 * (t.val / 16) + r.val) % 8192; omega
    | ⟨1, _⟩ => show (i 1).val = (1024 * (t.val / 4 % 4) + e.val) % 4096; omega)
  rw [hi, out_tile V c t h3 r e, sum_prodAt]
  rfl

/-- What a point at its last K step writes back is its tile of the result. -/
theorem result_flushed_eq (c : Dev nD) (t : Fin cfg1.N) (hf : (cfg1.win 4).flush t = true) :
    (dat (F := Ideal) V c).flushed 4 t = ((cfg1.win 4).blk t).view.read (Elt Ideal) (resultOf V c) := by
  have h3 : t.val % 4 = 3 := (flush1_4 t).mp hf
  obtain ⟨-, -, -, -, -, -, -, -, e40, e41⟩ := mm_index_facts t
  show (cfg1.win 4).cut (grid1.coords t) ((dat (F := Ideal) V c).after 4 t) = _
  rw [after_out]
  funext y
  show ((outsAt V c t.val t.isLt).1 : S2048x1024.Idx → EReal) y = resultOf V c (((cfg1.win 4).blk t).view.emb y)
  refine result_tile_entry V c t h3 y (((cfg1.win 4).blk t).view.emb y) ?_ ?_
  · show win1_4.index t (0 : Fin 2) * 2048 + 1 * ((y : S2048x1024.Idx) 0).val = _
    omega
  · show win1_4.index t (1 : Fin 2) * 1024 + 1 * ((y : S2048x1024.Idx) 1).val = _
    omega

/-- An entry of the array is in point t's output tile iff each coordinate is in the tile's range on its axis. -/
theorem result_mem_tile (t : Fin cfg1.N) (i : S8192x4096.Idx) :
    i ∈ ((cfg1.win 4).blk t).view.set ↔ ∀ a : Fin 2, win1_4.index t a * S2048x1024.size a ≤ (i a).val ∧ (i a).val < win1_4.index t a * S2048x1024.size a + S2048x1024.size a := by
  show i ∈ ((View.whole main_call0_v35).slice (win1_4.rect t)).set ↔ _
  rw [View.set_slice_whole, Rect.mem_set_unit]
  exact Iff.rfl

/-- The sixteen output tiles cover the array: (p, q) is in the tile written back at point 16 (p / 2048) + 4 (q / 1024) + 3. -/
theorem result_tiles_cover (i : S8192x4096.Idx) :
    ∃ t : Fin cfg1.N, (cfg1.win 4).flush t = true ∧ i ∈ ((cfg1.win 4).blk t).view.set := by
  have hi0 : (i 0).val < 8192 := idx2_lt0 i
  have hi1 : (i 1).val < 4096 := idx2_lt1 i
  have ht : 16 * ((i 0).val / 2048) + 4 * ((i 1).val / 1024) + 3 < cfg1.N := lt_of_lt_of_eq (by omega) (show cfg1.N = 64 from N_1).symm
  obtain ⟨-, -, -, -, -, -, -, -, e40, e41⟩ := mm_index_facts ⟨16 * ((i 0).val / 2048) + 4 * ((i 1).val / 1024) + 3, ht⟩
  have q0 : win1_4.index ⟨16 * ((i 0).val / 2048) + 4 * ((i 1).val / 1024) + 3, ht⟩ (0 : Fin 2) = (16 * ((i 0).val / 2048) + 4 * ((i 1).val / 1024) + 3) / 16 := e40
  have q1 : win1_4.index ⟨16 * ((i 0).val / 2048) + 4 * ((i 1).val / 1024) + 3, ht⟩ (1 : Fin 2) = (16 * ((i 0).val / 2048) + 4 * ((i 1).val / 1024) + 3) / 4 % 4 := e41
  refine ⟨⟨16 * ((i 0).val / 2048) + 4 * ((i 1).val / 1024) + 3, ht⟩, (flush1_4 _).mpr (by show (16 * ((i 0).val / 2048) + 4 * ((i 1).val / 1024) + 3) % 4 = 3; omega), ?_⟩
  rw [result_mem_tile]
  intro a
  match a with
  | ⟨0, _⟩ =>
    show win1_4.index ⟨16 * ((i 0).val / 2048) + 4 * ((i 1).val / 1024) + 3, ht⟩ (0 : Fin 2) * 2048 ≤ (i 0).val
      ∧ (i 0).val < win1_4.index ⟨16 * ((i 0).val / 2048) + 4 * ((i 1).val / 1024) + 3, ht⟩ (0 : Fin 2) * 2048 + 2048
    omega
  | ⟨1, _⟩ =>
    show win1_4.index ⟨16 * ((i 0).val / 2048) + 4 * ((i 1).val / 1024) + 3, ht⟩ (1 : Fin 2) * 1024 ≤ (i 1).val
      ∧ (i 1).val < win1_4.index ⟨16 * ((i 0).val / 2048) + 4 * ((i 1).val / 1024) + 3, ht⟩ (1 : Fin 2) * 1024 + 1024
    omega

/-- The result array after the region, as one function of the four arrays. -/
theorem result_array (c : Dev nD) : (dat (F := Ideal) V c).arrAt 4 cfg1.N = resultOf V c :=
  (dat (F := Ideal) V c).arrAt_eq_of_cover 4 (resultOf V c) (fun t ht => result_flushed_eq V c t ht) result_tiles_cover

/-- The result after the region, at entry (p, q). -/
theorem out_final (c : Dev nD) (p : Fin 8192) (q : Fin 4096) :
    outArr V c (ix2 p q)
      = ((∑ K : Fin 4096, xArr V c (ix2 p K) * wArr V c (ix2 K q)) + bArr V c (ix2 (0 : Fin 1) q)) + rArr V c (ix2 p q) := by
  show ((dat (F := Ideal) V c).arrAt 4 cfg1.N : S8192x4096.Idx → EReal) (ix2 p q) = _
  rw [result_array V c]
  rfl

end Cert.KernelIdeal.Mm

end
-- ==== Proof.LibRowGather.lean ====
/-
  THE ROW GATHER READ AT AN INDEX. What `table[idx]` of a rank-2 table `table : [N, C]` at a vector of row indices
  lowers to: a `stablehlo.gather` with offset_dims `[1]`, collapsed_slice_dims `[0]`, start_index_map `[0]`,
  index_vector_dim `1` and slice_sizes `[1, C]`, over the indices kept as an `[n, 1]` column. Its result is `[n, C]`,
  and the element at `(p, q)` is the table's at `(row, q)`, where `row` is the start index `idx[p, 0]` read as a SIGNED
  integer and CLAMPED into `[0, N − 1]` (StableHLO clamps every start index so that the slice fits; here the slice is
  one row, so the clamp is to the last row): a negative index reads row `0`, one past the end reads row `N − 1`.

  `rowDims` is the record of those dimension numbers, written as a literal structure so that every list lookup in the
  gather's operand index computes; `rowGather_apply` is the read. The lemma is general in `N`, `C`, `n`, the index
  width `w` and the element type; the conditions `wf` on the dimension numbers are decided on a program's literal
  shapes. This is the rank-2 companion of `ValueIdx.gather_take_apply` (a rank-1 table).
-/
import Idealize.ShloMosaic.PureOps.Ideal
import Idealize.ShloMosaic.Lib.ValueIdx
noncomputable section
namespace Idealize.ShloMosaic.RowGather
open Idealize.ShloMosaic Idealize.ShloMosaic.ValueIdx

/-- The dimension numbers of a row gather out of an [N, C] table at an [n, 1] column of row indices. -/
abbrev rowDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- The row gather read at (p, q): the table at the clamped signed start index of row p, column q. -/
theorem rowGather_apply {α : Type} {N C n w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (p : Fin n) (q : Fin C) :
    Host.gather (rowDims N C n wf) x idx (ix2 p q)
      = x (ix2 (⟨min (idx (ix2 p (0 : Fin 1))).toInt.toNat (N - 1), by omega⟩ : Fin N) q) := by
  -- the gather reads the operand at its operand index: compare the two indices axis by axis, as naturals
  unfold Host.gather
  congr 1
  funext a
  refine Fin.ext ?_
  match a with
  | ⟨0, _⟩ =>
    -- AXIS 0, collapsed and start-indexed: no batching coordinate (no batching axes), no offset coordinate (a collapsed
    -- axis is not a kept one), so the operand coordinate is the clamped start alone
    show (rowDims N C n wf).start (ix2 p q) idx 0 + (rowDims N C n wf).batchCoord (ix2 p q) 0
        + (rowDims N C n wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C n wf).startIndexMap from List.mem_singleton.mpr rfl)]
    -- the start index's one component is read at (p, 0): the result's batch coordinate p on the start indices' axis 0,
    -- the component's number 0 on the index vector's axis 1
    have hsi : (rowDims N C n wf).siIdx (ix2 p q) ⟨List.idxOf (0 : Fin 2) (rowDims N C n wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    -- the clamp's upper end: the axis's extent N less the slice size 1
    rfl
  | ⟨1, _⟩ =>
    -- AXIS 1, an offset axis: the start index map does not name it, so the start is 0; there is no batching
    -- coordinate; it is the operand's one kept axis, read by the result's one offset axis, whose coordinate is q
    show (rowDims N C n wf).start (ix2 p q) idx 1 + (rowDims N C n wf).batchCoord (ix2 p q) 1
        + (rowDims N C n wf).offCoord (ix2 p q) 1 = q.val
    have hk : (1 : Fin 2) ∈ (rowDims N C n wf).sKept :=
      (GatherDims.mem_sKept _ _).mpr ⟨by show (1 : Fin 2) ∉ [(0 : Fin 2)]; decide, List.not_mem_nil⟩
    rw [GatherDims.batchCoord_eq_zero _ _ _ List.not_mem_nil]
    unfold GatherDims.start GatherDims.offCoord
    rw [dif_neg (show (1 : Fin 2) ∉ (rowDims N C n wf).startIndexMap by
      show (1 : Fin 2) ∉ [(0 : Fin 2)]; decide), dif_pos hk]
    simp only [Nat.zero_add]
    rfl
end Idealize.ShloMosaic.RowGather
end
-- ==== Proof.BridgeWeight.lean ====
/-
  One entry of the dequantised weight.  The kernel forms  float(q) * s + (-(float z)) * s,  the reference  float(q - z) * s
  with q - z a 32-bit integer subtraction.  q is a nibble (0..15), z a nibble plus one (1..16), looked up in the unpacked
  zero-point table at row g of the clamped group index (the same row whether the table is converted to floats before or
  after the lookup), so q - z does not wrap and float(q - z) = float q - float z; s is a real number, so the product
  distributes over the difference.
-/
import proofs.«430967_j87247965651012_2_alg».proof.Proof.Gen.ReferenceIdeal.Read
import proofs.«430967_j87247965651012_2_alg».proof.Proof.LibRowGather
import Idealize.ShloMosaic.Lib.ValueIdx
import Idealize.ShloMosaic.Lib.Pipeline.Value
import Idealize.ShloMosaic.PureOps.Ideal.Laws

noncomputable section

namespace Cert.Bridge

open Idealize.ShloMosaic Idealize.ShloMosaic.ValueIdx Idealize.ShloMosaic.StableHlo
open Cert.ReferenceIdeal Cert.ReferenceIdeal.Gen Cert.ReferenceIdeal.Read

namespace Weight

/-- A word masked with 15 is a nibble: its signed value lies in 0..15. -/
theorem nib_toInt (a : BitVec 32) : 0 ≤ (IntOp.andi a 15#32).toInt ∧ (IntOp.andi a 15#32).toInt ≤ 15 := by
  have h : (IntOp.andi a 15#32).toNat ≤ 15 := by
    show (a &&& 15#32).toNat ≤ 15
    rw [BitVec.toNat_and]
    exact Nat.and_le_right
  rw [BitVec.toInt_eq_toNat_cond]
  omega

/-- A nibble plus one: its signed value lies in 1..16 (the sum 15 + 1 is far from the 32-bit modulus). -/
theorem nib1_toInt (a : BitVec 32) :
    1 ≤ (IntOp.addi (IntOp.andi a 15#32) 1#32).toInt ∧ (IntOp.addi (IntOp.andi a 15#32) 1#32).toInt ≤ 16 := by
  have h : (IntOp.andi a 15#32).toNat ≤ 15 := by
    show (a &&& 15#32).toNat ≤ 15
    rw [BitVec.toNat_and]
    exact Nat.and_le_right
  have h2 : (IntOp.addi (IntOp.andi a 15#32) 1#32).toNat = (IntOp.andi a 15#32).toNat + 1 := by
    show ((IntOp.andi a 15#32) + 1#32).toNat = _
    rw [BitVec.toNat_add]
    simp only [BitVec.toNat_ofNat]
    omega
  rw [BitVec.toInt_eq_toNat_cond, h2]
  omega

/-- The 32-bit difference of q in 0..15 and z in 1..16 does not wrap: it lies in -16..14, well inside the signed
    range, so the balanced residue of q - z modulo 2^32 is q - z itself. -/
theorem sub_nowrap (q z : BitVec 32) (hq0 : 0 ≤ q.toInt) (hq1 : q.toInt ≤ 15) (hz0 : 1 ≤ z.toInt) (hz1 : z.toInt ≤ 16) :
    (IntOp.subi q z).toInt = q.toInt - z.toInt := by
  show (q - z).toInt = _
  rw [BitVec.toInt_sub]
  rw [Int.bmod_def]
  omega

/-- Over the reals the product distributes over the difference:  a * r + (-b) * r = (a - b) * r.  All three factors are
    finite, so the identity passes to the extended reals through the coercion (no  ∞ - ∞  can arise). -/
theorem affine_real (a b : ℤ) (r : ℝ) :
    ((a : ℝ) : EReal) * (r : EReal) + (-((b : ℝ) : EReal)) * (r : EReal) = (((a - b : ℤ) : ℝ) : EReal) * (r : EReal) := by
  rw [← EReal.coe_neg, ← EReal.coe_mul, ← EReal.coe_mul, ← EReal.coe_add, ← EReal.coe_mul]
  congr 1
  push_cast
  ring

/-- The row a lookup reads for output row K: the start index in the column at (K, 0), read signed and clamped into 0..31. -/
def rowOf (idx : IVec S4096x1 32) (K : Fin 4096) : Fin 32 :=
  ⟨min (idx (ix2 K (0 : Fin 1))).toInt.toNat 31, by omega⟩

/-- The row lookup out of a [32, 4096] table at a [4096, 1] column of start indices, read at (K, n): the table's entry
    at (rowOf idx K, n), whatever the element type. The program's dimension numbers are those of a row lookup. -/
theorem gather_read {α : Type} (x : S32x4096.Idx → α) (idx : IVec S4096x1 32) (K n : Fin 4096) :
    Host.gather gather_S32x4096_S4096x1_S4096x4096_1_0_n_n_0_1_14096 x idx (ix2 K n) = x (ix2 (rowOf idx K) n) :=
  RowGather.rowGather_apply (N := 32) (C := 4096) (n := 4096) (by decide)
    Facts₀.gather_S32x4096_S4096x1_S4096x4096_1_0_n_n_0_1_14096_wf x idx K n

/-- An unpacked weight entry is a word masked with 15. -/
theorem q_shape (x1 : (⟨S512x4096, .i32⟩ : BufTy).Contents (Elt Ideal)) (i : S4096x4096.Idx) :
    ∃ a : BitVec 32, val_main_v10 (F := Ideal) x1 i = IntOp.andi a 15#32 := by
  refine ⟨val_main_v7 (F := Ideal) x1 (idx_main_v10 i), ?_⟩
  rw [val_main_v10_apply, val_main_v9_apply, val_main_v8_apply, val_main_c_0_apply]

/-- An unpacked zero point is a word masked with 15, plus one. -/
theorem z_shape (x3 : (⟨S32x512, .i32⟩ : BufTy).Contents (Elt Ideal)) (j : S32x4096.Idx) :
    ∃ a : BitVec 32, val_main_v20 (F := Ideal) x3 j = IntOp.addi (IntOp.andi a 15#32) 1#32 := by
  refine ⟨val_main_v15 (F := Ideal) x3 (idx_main_v18 j), ?_⟩
  rw [val_main_v20_apply, val_main_v19_apply, val_main_c_2_apply, val_main_v18_apply, val_main_v17_apply,
    val_main_v16_apply, val_main_c_1_apply]

end Weight

/-- The zero points as the kernel's host code gathers them: the unpacked table converted to floats FIRST, then the rows
    looked up (the reference looks the integer table up and converts after the subtraction). -/
def zeroF (x3 : (⟨S32x512, .i32⟩ : BufTy).Contents (Elt Ideal)) (x4 : (⟨S4096, .i32⟩ : BufTy).Contents (Elt Ideal)) :
    (⟨S4096x4096, .f32⟩ : BufTy).Contents (Elt Ideal) :=
  Host.gather gather_S32x4096_S4096x1_S4096x4096_1_0_n_n_0_1_14096
    ((sitofp (F := Ideal) .f32 : (⟨S32x4096, .i32⟩ : BufTy).Contents (Elt Ideal) → (⟨S32x4096, .f32⟩ : BufTy).Contents (Elt Ideal)) (val_main_v20 (F := Ideal) x3))
    (val_main_v33 (F := Ideal) x4)

/-- The per-row offset  b = (-z) * s  the kernel's host code hands the first pallas_call. -/
def offset (x2 : (⟨S32x4096, .f32⟩ : BufTy).Contents (Elt Ideal)) (x3 : (⟨S32x512, .i32⟩ : BufTy).Contents (Elt Ideal))
    (x4 : (⟨S4096, .i32⟩ : BufTy).Contents (Elt Ideal)) : (⟨S4096x4096, .f32⟩ : BufTy).Contents (Elt Ideal) :=
  (mulf (F := Ideal) (φ := .f32) : (⟨S4096x4096, .f32⟩ : BufTy).Contents (Elt Ideal) → (⟨S4096x4096, .f32⟩ : BufTy).Contents (Elt Ideal) → (⟨S4096x4096, .f32⟩ : BufTy).Contents (Elt Ideal))
    ((Host.negf (F := Ideal) (φ := .f32) : (⟨S4096x4096, .f32⟩ : BufTy).Contents (Elt Ideal) → (⟨S4096x4096, .f32⟩ : BufTy).Contents (Elt Ideal)) (zeroF x3 x4))
    (val_main_v27 (F := Ideal) x2 x4)

/-- THE WEIGHT LAW, entry by entry: the kernel's affine form is the reference's product (its stage main_v37). -/
theorem weight_eq
    (x1 : (⟨S512x4096, .i32⟩ : BufTy).Contents (Elt Ideal)) (x2 : (⟨S32x4096, .f32⟩ : BufTy).Contents (Elt Ideal)) (x3 : (⟨S32x512, .i32⟩ : BufTy).Contents (Elt Ideal)) (x4 : (⟨S4096, .i32⟩ : BufTy).Contents (Elt Ideal))
    (hfin : ∀ j : S32x4096.Idx, ∃ r : ℝ, x2 j = (r : EReal)) (K n : Fin 4096) :
    FloatOps.sitofp (F := Ideal) .f32 (val_main_v10 (F := Ideal) x1 (ix2 K n)) * val_main_v27 (F := Ideal) x2 x4 (ix2 K n)
        + offset x2 x3 x4 (ix2 K n)
      = val_main_v37 (F := Ideal) x1 x2 x3 x4 (ix2 K n) := by
  -- the scale at (K, n) is an entry of the scales' table, hence a real number r
  have hs : val_main_v27 (F := Ideal) x2 x4 (ix2 K n) = x2 (ix2 (Weight.rowOf (val_main_v26 (F := Ideal) x4) K) n) :=
    Weight.gather_read x2 _ K n
  obtain ⟨r, hr⟩ := hfin (ix2 (Weight.rowOf (val_main_v26 (F := Ideal) x4) K) n)
  -- the integer lookup and the float lookup read the same entry (g, n) of the unpacked zero-point table
  have hz : val_main_v34 (F := Ideal) x3 x4 (ix2 K n)
      = val_main_v20 (F := Ideal) x3 (ix2 (Weight.rowOf (val_main_v33 (F := Ideal) x4) K) n) :=
    Weight.gather_read _ _ K n
  have hzF : zeroF x3 x4 (ix2 K n)
      = FloatOps.sitofp (F := Ideal) .f32 (val_main_v20 (F := Ideal) x3 (ix2 (Weight.rowOf (val_main_v33 (F := Ideal) x4) K) n)) :=
    Weight.gather_read _ _ K n
  -- q is a nibble, z a nibble plus one
  obtain ⟨a, ha⟩ := Weight.q_shape x1 (ix2 K n)
  obtain ⟨b, hb⟩ := Weight.z_shape x3 (ix2 (Weight.rowOf (val_main_v33 (F := Ideal) x4) K) n)
  -- the offset at (K, n) is  (-(float z)) * s
  have hoff : offset x2 x3 x4 (ix2 K n) = (-(zeroF x3 x4 (ix2 K n))) * val_main_v27 (F := Ideal) x2 x4 (ix2 K n) := rfl
  rw [hoff, val_main_v37_apply, val_main_v36_apply, val_main_v35_apply, hzF, hz, hs, hr, ha, hb]
  obtain ⟨hq0, hq1⟩ := Weight.nib_toInt a
  obtain ⟨hz0, hz1⟩ := Weight.nib1_toInt b
  -- the conversion of a word is its signed value as a real; the product is the extended reals' product
  show (((IntOp.andi a 15#32).toInt : ℝ) : EReal) * (r : EReal)
        + (-(((IntOp.addi (IntOp.andi b 15#32) 1#32).toInt : ℝ) : EReal)) * (r : EReal)
      = (((IntOp.subi (IntOp.andi a 15#32) (IntOp.addi (IntOp.andi b 15#32) 1#32)).toInt : ℝ) : EReal) * (r : EReal)
  -- q - z does not wrap, and over the reals the product distributes over the difference
  rw [Weight.sub_nowrap _ _ hq0 hq1 hz0 hz1]
  exact Weight.affine_real _ _ r

end Cert.Bridge

end
-- ==== Proof.Bridge.lean ====
/-
  The pure bridge.  Over the extended reals, with finite scales, the kernel's result array, written as a function of
  the seven argument arrays, is the reference's.

  The kernel:  W(K, n) = float(q(K, n)) * s(K, n) + (-(float z)(K, n)) * s(K, n),   where q is the nibble of the packed
  weight, s the scale of row K's group and z its zero point (a nibble plus one), both looked up through g_idx;
  out(p, n) = ((sum over K of x(p, K) * W(K, n)) + bias(n)) + residual(p, n).
  The reference:  W'(K, n) = float(q(K, n) - z(K, n)) * s(K, n)  with the subtraction in 32-bit integers, and the same
  product, bias and residual.  0 <= q <= 15 and 1 <= z <= 16, so the integer subtraction does not wrap, and
  (q - z) * s = q * s + (-z) * s because s is a real number.
-/
import proofs.«430967_j87247965651012_2_alg».proof.Proof.Gen.ReferenceIdeal.Read
import proofs.«430967_j87247965651012_2_alg».proof.Proof.BridgeWeight
import Idealize.ShloMosaic.Lib.ValueIdx
import Idealize.ShloMosaic.Lib.Pipeline.Value
import Idealize.ShloMosaic.PureOps.Ideal.Laws

noncomputable section

namespace Cert.Bridge

open Idealize.ShloMosaic Idealize.ShloMosaic.ValueIdx Idealize.ShloMosaic.StableHlo
open Cert.ReferenceIdeal Cert.ReferenceIdeal.Gen Cert.ReferenceIdeal.Read

/-- Row p = 2048 * b + s of the flattened array. -/
def flatRow (b : Fin 4) (s : Fin 2048) : Fin 8192 := ⟨b.val * 2048 + s.val, by have := b.isLt; have := s.isLt; omega⟩

/-- The reference's reshape reads row 2048 * b + s, column n. -/
theorem idx43_eq (b : Fin 4) (s : Fin 2048) (n : Fin 4096) :
    idx_main_v43 (ix3 b s n) = ix2 (flatRow b s) n := by
  funext a
  have hb := b.isLt; have hs := s.isLt; have hn := n.isLt
  match a with
  | ⟨0, _⟩ => exact Fin.ext (by show ((b.val * 2048 + s.val) * 4096 + n.val) / 4096 = b.val * 2048 + s.val; omega)
  | ⟨1, _⟩ => exact Fin.ext (by show ((b.val * 2048 + s.val) * 4096 + n.val) % 4096 = n.val; omega)

/-- The contraction reads the left operand along row p. -/
theorem lidx39_eq (p : Fin 8192) (n K : Fin 4096) : lidx_main_v39 (ix2 p n) K = ix2 p K := by
  funext a
  match a with
  | ⟨0, _⟩ => rfl
  | ⟨1, _⟩ => rfl

/-- The contraction reads the right operand along column n. -/
theorem ridx39_eq (p : Fin 8192) (n K : Fin 4096) : ridx_main_v39 (ix2 p n) K = ix2 K n := by
  funext a
  match a with
  | ⟨0, _⟩ => rfl
  | ⟨1, _⟩ => rfl

/-- The bias broadcast reads column n of the one-row array. -/
theorem idx41_eq (p : Fin 8192) (n : Fin 4096) : idx_main_v41 (ix2 p n) = ix2 (0 : Fin 1) n := by
  funext a
  match a with
  | ⟨0, _⟩ => rfl
  | ⟨1, _⟩ => rfl

/-- The one-row array reads entry n of the bias vector. -/
theorem idx40_eq (n : Fin 4096) : idx_main_v40 (ix2 (0 : Fin 1) n) = ix1 n := by
  funext a
  match a with
  | ⟨0, _⟩ => rfl

/-- THE BRIDGE.  out is the [8192, 4096] array the second pallas_call leaves, wd the dense weight the first leaves
    (each given by its index-by-index description, which the kernel-side modules prove of the arrays the run names).
    Then out, reshaped to [4, 2048, 4096], is the reference's result. -/
theorem kernel_eq_reference
    (x0 : (⟨S4x2048x4096, .f32⟩ : BufTy).Contents (Elt Ideal)) (x1 : (⟨S512x4096, .i32⟩ : BufTy).Contents (Elt Ideal))
    (x2 : (⟨S32x4096, .f32⟩ : BufTy).Contents (Elt Ideal)) (x3 : (⟨S32x512, .i32⟩ : BufTy).Contents (Elt Ideal))
    (x4 : (⟨S4096, .i32⟩ : BufTy).Contents (Elt Ideal)) (x5 : (⟨S4096, .f32⟩ : BufTy).Contents (Elt Ideal))
    (x6 : (⟨S4x2048x4096, .f32⟩ : BufTy).Contents (Elt Ideal))
    (hfin : ∀ j : S32x4096.Idx, ∃ r : ℝ, x2 j = (r : EReal))
    (hB : S4096.ShapeCasts S1x4096) (hR : S4x2048x4096.ShapeCasts S8192x4096) (hO : S8192x4096.ShapeCasts S4x2048x4096)
    (wd : S4096x4096.Idx → EReal) (out : S8192x4096.Idx → EReal)
    (hwd : ∀ (K n : Fin 4096), wd (ix2 K n)
        = FloatOps.sitofp (F := Ideal) .f32 (val_main_v10 (F := Ideal) x1 (ix2 K n)) * val_main_v27 (F := Ideal) x2 x4 (ix2 K n)
          + offset x2 x3 x4 (ix2 K n))
    (hout : ∀ (p : Fin 8192) (n : Fin 4096), out (ix2 p n)
        = ((∑ K : Fin 4096, val_main_v38 (F := Ideal) x0 (ix2 p K) * wd (ix2 K n))
            + (shapeCast S1x4096 x5 hB : S1x4096.Idx → EReal) (ix2 (0 : Fin 1) n))
          + (shapeCast S8192x4096 x6 hR : S8192x4096.Idx → EReal) (ix2 p n)) :
    (shapeCast S4x2048x4096 out hO : S4x2048x4096.Idx → EReal) = val_main_v44 (F := Ideal) x0 x1 x2 x3 x4 x5 x6 := by
  funext i
  obtain ⟨b, s, n, rfl⟩ : ∃ (b : Fin 4) (s : Fin 2048) (n : Fin 4096), i = ix3 b s n := ⟨i 0, i 1, i 2, eq_ix3 i⟩
  have hb := b.isLt; have hs := s.isLt; have hn := n.isLt
  -- the left side: the output reshape reads row 2048 * b + s, column n
  have hL : (shapeCast S4x2048x4096 out hO : S4x2048x4096.Idx → EReal) (ix3 b s n) = out (ix2 (flatRow b s) n) :=
    shapeCast_apply out hO (ix3 b s n) (ix2 (flatRow b s) n)
      (by rewrite [Shape.rowMajor_val_two, Shape.rowMajor_val_three]; rfl)
  -- the bias, read through the one-row view
  have hBias : (shapeCast S1x4096 x5 hB : S1x4096.Idx → EReal) (ix2 (0 : Fin 1) n) = x5 (ix1 n) :=
    shapeCast_apply x5 hB (ix2 (0 : Fin 1) n) (ix1 n)
      (by rewrite [Shape.rowMajor_val_one, Shape.rowMajor_val_two]; show n.val = 0 * 4096 + n.val; omega)
  -- the residual, read through the flattened view
  have hRes : (shapeCast S8192x4096 x6 hR : S8192x4096.Idx → EReal) (ix2 (flatRow b s) n) = x6 (ix3 b s n) :=
    shapeCast_apply x6 hR (ix2 (flatRow b s) n) (ix3 b s n)
      (by rewrite [Shape.rowMajor_val_two, Shape.rowMajor_val_three]; rfl)
  -- the products, summand by summand
  have hSum : (∑ K : Fin 4096, val_main_v38 (F := Ideal) x0 (ix2 (flatRow b s) K) * wd (ix2 K n))
      = ∑ K : Fin 4096, val_main_v38 (F := Ideal) x0 (lidx_main_v39 (ix2 (flatRow b s) n) K)
          * val_main_v37 (F := Ideal) x1 x2 x3 x4 (ridx_main_v39 (ix2 (flatRow b s) n) K) :=
    Finset.sum_congr rfl fun K _ => by
      rw [lidx39_eq, ridx39_eq, hwd, weight_eq x1 x2 x3 x4 hfin K n]
  rw [hL, hout, hBias, hRes, hSum, val_main_v44_apply, val_main_v43_apply, idx43_eq, val_main_v42_apply,
    val_main_v39_apply, val_main_v41_apply, idx41_eq, val_main_v40_apply, idx40_eq]
  rfl

end Cert.Bridge

end
-- ==== Proof.Result.lean ====
/-
  The kernel's result as the reference's function of the arguments.  The last contents of the result buffer are the
  second pallas_call's array reshaped; that array is, entry by entry, the sum over K of x times the dense weight, plus
  bias, plus residual; the dense weight is, entry by entry, float(nibble) * scale + offset; and the host values those
  read — x flattened (its change of float format is the identity over the extended reals), the bias as a row, the
  residual flattened, the looked-up scales, the offsets, the packed weight — are the argument arrays through the same
  operations the reference applies.  With finite scales the pure bridge then gives the reference's result.
-/
import proofs.«430967_j87247965651012_2_alg».proof.Proof.Launch
import proofs.«430967_j87247965651012_2_alg».proof.Proof.DeqValue
import proofs.«430967_j87247965651012_2_alg».proof.Proof.MmValue
import proofs.«430967_j87247965651012_2_alg».proof.Proof.Bridge
import Idealize.ShloMosaic.Lib.StableHlo.Run

set_option maxRecDepth 16384

noncomputable section

namespace Cert.KernelIdeal.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Idealize.ShloMosaic.ValueIdx Idealize.ShloMosaic.StableHlo
open Cert.ReferenceIdeal.Read (val_main_v10 val_main_v27 val_main_v38 val_main_v44)

variable (m : (ℓ : Loc nD τ sig) → Buf (Elt Ideal) ℓ)

/-! ## The host values the first pallas_call reads -/

theorem in0_packed (c : Dev nD) : In0 m c main_arg1 = (m ((c.tc : Thread nD τ).loc main_arg1)) := V1_of m c main_arg1 (by decide)

set_option maxRecDepth 8192 in
set_option maxHeartbeats 4000000 in
theorem in0_scale (c : Dev nD) :
    (In0 m c main_call0_v23 : S4096x4096.Idx → EReal) = val_main_v27 (F := Ideal) (m ((c.tc : Thread nD τ).loc main_arg2)) (m ((c.tc : Thread nD τ).loc main_arg4)) := by
  show StableHlo.after hostOps0 (fun b => m (c, b)) (Proc.devRef .tc main_call0_v23) = _
  after_results
  rfl

set_option maxRecDepth 8192 in
set_option maxHeartbeats 4000000 in
theorem in0_offset (c : Dev nD) :
    (In0 m c main_call0_v32 : S4096x4096.Idx → EReal) = Cert.Bridge.offset (m ((c.tc : Thread nD τ).loc main_arg2)) (m ((c.tc : Thread nD τ).loc main_arg3)) (m ((c.tc : Thread nD τ).loc main_arg4)) := by
  show StableHlo.after hostOps0 (fun b => m (c, b)) (Proc.devRef .tc main_call0_v32) = _
  after_results
  rfl

/-! ## The host values the second pallas_call reads -/

set_option maxRecDepth 8192 in
set_option maxHeartbeats 4000000 in
theorem in0_x (c : Dev nD) :
    (In0 m c main_call0_v0 : S8192x4096.Idx → EReal) = val_main_v38 (F := Ideal) (m ((c.tc : Thread nD τ).loc main_arg0)) := by
  show StableHlo.after hostOps0 (fun b => m (c, b)) (Proc.devRef .tc main_call0_v0) = _
  after_results
  rfl

set_option maxRecDepth 8192 in
set_option maxHeartbeats 4000000 in
theorem in0_resid (c : Dev nD) :
    (In0 m c main_call0_v1 : S8192x4096.Idx → EReal) = shapeCast S8192x4096 (m ((c.tc : Thread nD τ).loc main_arg6)) Facts₀.shapeCasts_S4x2048x4096_S8192x4096 := by
  show StableHlo.after hostOps0 (fun b => m (c, b)) (Proc.devRef .tc main_call0_v1) = _
  after_results
  rfl

set_option maxRecDepth 8192 in
set_option maxHeartbeats 4000000 in
theorem in0_bias (c : Dev nD) :
    (In0 m c main_call0_v2 : S1x4096.Idx → EReal) = shapeCast S1x4096 (m ((c.tc : Thread nD τ).loc main_arg5)) Facts₀.shapeCasts_S4096_S1x4096 := by
  show StableHlo.after hostOps0 (fun b => m (c, b)) (Proc.devRef .tc main_call0_v2) = _
  after_results
  rfl

/-- Off the dense weight and the converted x, the second region is entered from what the first was. -/
theorem in1_of_in0 (c : Dev nD) (r : Ref sig .tc) (h1 : r ∉ hostOps1_W) (h0 : r ∉ ([main_call0_v33] : List (Ref sig .tc))) :
    In1 m c r = In0 m c r :=
  (V3_of m (outsA m) c r h1).trans (V2_of m (outsA m) c r h0)

theorem in1_w (c : Dev nD) : In1 m c main_call0_v33 = dense m c :=
  (V3_of m (outsA m) c main_call0_v33 (by decide)).trans (Out0_dense m c)

set_option maxHeartbeats 1000000 in
theorem in1_x (c : Dev nD) (i : S8192x4096.Idx) :
    (In1 m c main_call0_v34 : S8192x4096.Idx → EReal) i = val_main_v38 (F := Ideal) (m ((c.tc : Thread nD τ).loc main_arg0)) i := by
  -- the change of float format is the identity over the extended reals
  have h : (In1 m c main_call0_v34 : S8192x4096.Idx → EReal) = (Out0 m c main_call0_v0 : S8192x4096.Idx → EReal) := by
    show StableHlo.after hostOps1 (V2 m (outsA m) c) (Proc.devRef .tc main_call0_v34) = _
    after_results
    rfl
  rw [h, show Out0 m c main_call0_v0 = In0 m c main_call0_v0 from V2_of m (outsA m) c main_call0_v0 (by decide), in0_x]

/-! ## The result -/

/-- The last contents of the result buffer: the second region's array, reshaped. -/
theorem last_result (c : Dev nD) :
    (V5 m (outs m) c main_v0 : S4x2048x4096.Idx → EReal)
      = shapeCast S4x2048x4096 (result m c : S8192x4096.Idx → EReal) Facts₀.shapeCasts_S8192x4096_S4x2048x4096 := by
  have h : (V5 m (outs m) c main_v0 : S4x2048x4096.Idx → EReal)
      = shapeCast S4x2048x4096 (V4 m (outs m) c main_call0_v35 : S8192x4096.Idx → EReal) Facts₀.shapeCasts_S8192x4096_S4x2048x4096 := by
    show StableHlo.after hostOps2 (V4 m (outs m) c) (Proc.devRef .tc main_v0) = _
    after_results
    rfl
  rw [h, V4_outs]
  exact congrArg (fun f => shapeCast S4x2048x4096 (f : S8192x4096.Idx → EReal) Facts₀.shapeCasts_S8192x4096_S4x2048x4096) (Out1_result m c)

/-- With finite scales, the result buffer ends at the reference's function of the arguments. -/
theorem result_eq_reference (c : Dev nD)
    (hfin : ∀ j : S32x4096.Idx, ∃ r : ℝ, (m ((c.tc : Thread nD τ).loc main_arg2)) j = (r : EReal)) :
    (V5 m (outs m) c main_v0 : S4x2048x4096.Idx → EReal)
      = val_main_v44 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [last_result]
  refine Cert.Bridge.kernel_eq_reference (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) hfin
    Facts₀.shapeCasts_S4096_S1x4096 Facts₀.shapeCasts_S4x2048x4096_S8192x4096 Facts₀.shapeCasts_S8192x4096_S4x2048x4096
    (dense m c : S4096x4096.Idx → EReal) (result m c : S8192x4096.Idx → EReal) (fun K n => ?_) (fun p n => ?_)
  · -- the dense weight, entry by entry
    have h := Deq.dense_final (In0 m) c K n
    rw [in0_packed, in0_scale, in0_offset] at h
    exact h
  · -- the second region's array, entry by entry, over the host values it reads
    have h := Mm.out_final (In1 m) c p n
    have ew : Mm.wArr (In1 m) c = (dense m c : S4096x4096.Idx → EReal) := in1_w m c
    have eb : Mm.bArr (In1 m) c = shapeCast S1x4096 (m ((c.tc : Thread nD τ).loc main_arg5)) Facts₀.shapeCasts_S4096_S1x4096 :=
      (in1_of_in0 m c main_call0_v2 (by decide) (by decide)).trans (in0_bias m c)
    have er : Mm.rArr (In1 m) c = shapeCast S8192x4096 (m ((c.tc : Thread nD τ).loc main_arg6)) Facts₀.shapeCasts_S4x2048x4096_S8192x4096 :=
      (in1_of_in0 m c main_call0_v1 (by decide) (by decide)).trans (in0_resid m c)
    have ex : ∀ K : Fin 4096, Mm.xArr (In1 m) c (ix2 p K) = val_main_v38 (F := Ideal) (m ((c.tc : Thread nD τ).loc main_arg0)) (ix2 p K) :=
      fun K => in1_x m c (ix2 p K)
    rw [ew, eb, er] at h
    simp only [ex] at h
    exact h

end Cert.KernelIdeal.Launch

end
-- ==== Proof.Finite.lean ====
/-
  The precondition says every float input is finite: |x| < +inf, entry by entry, for the input, the scales, the bias and
  the residual.  Read at the scales: every scale is a real number.
-/
import proofs.«430967_j87247965651012_2_alg».proof.Defs
import proofs.«430967_j87247965651012_2_alg».proof.Proof.Gen.KernelIdeal
import proofs.«430967_j87247965651012_2_alg».proof.Proof.Gen.Pre_finite_inputs
import Idealize.ShloMosaic.Lib.ReduceAll
import Idealize.ShloMosaic.Lib.ValueIdx
import Idealize.ShloMosaic.PureOps.Ideal.Laws

noncomputable section

namespace Cert.Finite

open Idealize.ShloMosaic Idealize.ShloMosaic.TcCoe Idealize.SL.Sem

/-- The scalar shape has exactly one index. -/
instance : Subsingleton Cert.Pre_finite_inputs.S_.Idx := ⟨fun a b => funext fun d => d.elim0⟩

/-- An extended real whose absolute value max x (-x) lies strictly below +inf (the f32 pattern 0x7F800000) is a real
    number: at x = ⊥ the absolute value is ⊤, at x = ⊤ it is ⊤, and ⊤ < ⊤ fails; the only case left is a real. -/
theorem real_of_abs_lt_inf (x : EReal)
    (hx : Ideal.cmp .olt (max x (-x)) (Ideal.ofBits .f32 0x7F800000#32) = 1#1) : ∃ r : ℝ, x = (r : EReal) := by
  have hinf : Ideal.ofBits .f32 0x7F800000#32 = (⊤ : EReal) := by simp [Ideal.ofBits, Ideal.ieee]
  rw [hinf] at hx
  induction x using EReal.rec with
  | bot => simp [Ideal.cmp] at hx
  | coe r => exact ⟨r, rfl⟩
  | top => simp [Ideal.cmp] at hx

/-- Under the precondition the scales (argument 2) are real numbers, on every core. -/
theorem scales_real (m : (ℓ : Loc Cert.KernelIdeal.nD Cert.KernelIdeal.τ Cert.KernelIdeal.sig) → Buf (Elt Ideal) ℓ)
    (h : Cert.Pre_KernelIdeal m) (c : Dev Cert.KernelIdeal.nD) (j : Cert.KernelIdeal.S32x4096.Idx) :
    ∃ r : ℝ, m ((c.tc : Thread Cert.KernelIdeal.nD Cert.KernelIdeal.τ).loc Cert.KernelIdeal.main_arg2) j = (r : EReal) := by
  -- the precondition at its one (scalar) index: a conjunction of four "all entries finite" bits, equal to 1
  have h0 := congrFun (h c) ValueIdx.ix0
  dsimp only [Cert.Pre_finite_inputs.fn, Cert.Pre_finite_inputs.fn_part1, andi] at h0
  -- ((input ∧ scales) ∧ bias) ∧ residual = 1: the scales' bit is the second conjunct of the innermost "and"
  have h1 := (IntOp.andi_eq_one.1 (IntOp.andi_eq_one.1 (IntOp.andi_eq_one.1 h0).1).1).2
  -- an "and" over all entries that is 1 had a 1 at every entry: |scales[j]| < +inf
  have h2 := Host.reduce_andi_all _ _ _ _ _ h1 j
  exact real_of_abs_lt_inf _ h2

end Cert.Finite

end
-- ==== Proof.lean ====
/-
  The certificate of a GPTQ int4 linear layer (dequantise, multiply, add bias and residual) against its plain reference.

  The kernel program: host code unpacks the zero points, looks the scales and zero points up through g_idx and forms, per
  weight row K, the affine pair  a = s,  b = (-z) * s;  a first pallas_call unpacks the int4 weight tile by tile and stores
  float(q) * a + b;  a second pallas_call multiplies the flattened input by that dense weight, accumulating over four
  K steps in a scratch buffer, and adds bias and residual at the last step;  the result is reshaped back.
  The reference: W' = float(q - z) * s, out = (x W' + bias) + residual.

  frame_Kernel, frame_KernelIdeal: the program as a list of items (host stretch, region, host stretch, region, host
  stretch) launched once; per region the body runs at every grid point from the staged tiles (the second region's
  invariant carries the accumulator from point to point), so every execution terminates, nothing faults, and the
  arguments — written by no host operation and changed by no region — end as launched.
  frame_ReferenceIdeal: the reference's run, its result dropped.
  preserves: the idealisation rewrote nothing.
  algebraic: the kernel's result buffer ends at the reshaped array of the second region, which entry by entry is
  (sum over K of x * W) + bias + residual with  W = float(q) * s + (-(float z)) * s;  since 0 <= q <= 15 and
  1 <= z <= 16 the 32-bit difference q - z does not wrap, and since the scales are finite (the precondition) the product
  distributes over it, so W = W' and both programs end at one function of the arguments.
-/
import proofs.«430967_j87247965651012_2_alg».proof.Defs
import proofs.«430967_j87247965651012_2_alg».proof.Proof.Gen.Kernel
import proofs.«430967_j87247965651012_2_alg».proof.Proof.Gen.KernelIdeal
import proofs.«430967_j87247965651012_2_alg».proof.Proof.Gen.ReferenceIdeal
import proofs.«430967_j87247965651012_2_alg».proof.Proof.Gen.Pre_finite_inputs
import proofs.«430967_j87247965651012_2_alg».proof.Proof.Gen.ReferenceIdeal.Run
import proofs.«430967_j87247965651012_2_alg».proof.Proof.Gen.ReferenceIdeal.Read
import proofs.«430967_j87247965651012_2_alg».proof.Proof.KLaunch
import proofs.«430967_j87247965651012_2_alg».proof.Proof.Launch
import proofs.«430967_j87247965651012_2_alg».proof.Proof.Result
import proofs.«430967_j87247965651012_2_alg».proof.Proof.Finite
import Idealize.ShloMosaic.Adequacy
import Idealize.ShloMosaic.Init

noncomputable section

namespace Cert.Proof

open Idealize.ShloMosaic Idealize.ShloMosaic.TcCoe Idealize.SL.Sem

/-- The word-level program runs to the end, faults nowhere, and leaves its arguments as launched. -/
theorem frame_k : Cert.frame_Kernel := fun m ρ _ => Cert.Kernel.Launch.frame (F := Bits) m ρ

/-- The same for the idealised program. -/
theorem frame_ki : Cert.frame_KernelIdeal := fun m ρ _ => Cert.KernelIdeal.Launch.frame (F := Ideal) m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- Both programs end at one function of the arguments: the reference's last stage. -/
theorem algebraic : Cert.algebraic_KernelIdeal_ReferenceIdeal := by
  intro m ρ m' ρ' hpre hagree
  refine ⟨fun c => Cert.ReferenceIdeal.Read.val_main_v44 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · -- the kernel: its result buffer's last contents are the reference's function (the scales are finite)
    exact (θ_run Cert.KernelIdeal.defs _ _).mono
      (fun r h c => ⟨(h c).1.trans (Cert.KernelIdeal.Launch.result_eq_reference m c (fun j => Cert.Finite.scales_real m hpre c j)), (h c).2⟩)
      (Cert.KernelIdeal.Launch.run_result (F := Ideal) m ρ)
  · -- the reference: its run's term is its last stage, at arguments that agree with the kernel's
    refine (θ_run Cert.ReferenceIdeal.defs _ _).mono (fun r h c => ⟨?_, (h c).2⟩) (Cert.ReferenceIdeal.Value.run (F := Ideal) m' ρ')
    refine (h c).1.trans ((Cert.ReferenceIdeal.Read.val_main_v44_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))).trans ?_)
    rw [(hagree c).1, (hagree c).2.1, (hagree c).2.2.1, (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
